-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v55)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x50 : Shape := ⟨2, ![4096, 50]⟩
abbrev S200000x4 : Shape := ⟨2, ![200000, 4]⟩
abbrev S1024x128 : Shape := ⟨2, ![1024, 128]⟩
abbrev S100000x384 : Shape := ⟨2, ![100000, 384]⟩
abbrev S100000x768 : Shape := ⟨2, ![100000, 768]⟩
abbrev S128x384 : Shape := ⟨2, ![128, 384]⟩
abbrev S384 : Shape := ⟨1, ![384]⟩
abbrev S128x768 : Shape := ⟨2, ![128, 768]⟩
abbrev S768 : Shape := ⟨1, ![768]⟩
abbrev S100000x128 : Shape := ⟨2, ![100000, 128]⟩
abbrev S4x128 : Shape := ⟨2, ![4, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x384 : S_.BroadcastsInDim S100000x384 (![] : Fin 0 → Fin S100000x384.rank)
  reducesTo_S100000x384_S_d0_1 : S100000x384.ReducesTo [0, 1] S_
  bcast_S_S100000x768 : S_.BroadcastsInDim S100000x768 (![] : Fin 0 → Fin S100000x768.rank)
  reducesTo_S100000x768_S_d0_1 : S100000x768.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x768 : S_.BroadcastsInDim S128x768 (![] : Fin 0 → Fin S128x768.rank)
  reducesTo_S128x768_S_d0_1 : S128x768.ReducesTo [0, 1] S_
  bcast_S_S768 : S_.BroadcastsInDim S768 (![] : Fin 0 → Fin S768.rank)
  reducesTo_S768_S_d0 : S768.ReducesTo [0] S_
  bcast_S_S100000x128 : S_.BroadcastsInDim S100000x128 (![] : Fin 0 → Fin S100000x128.rank)
  reducesTo_S100000x128_S_d0_1 : S100000x128.ReducesTo [0, 1] S_
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S200000x4 : S_.BroadcastsInDim S200000x4 (![] : Fin 0 → Fin S200000x4.rank)
  reducesTo_S200000x4_S_d0_1 : S200000x4.ReducesTo [0, 1] S_

variable [Facts]

def fn_part6 {F : FTy → Type} [FloatOps F] (main_arg4 : IVec S200000x4 32) (main_v98 : IVec S_ 1) (main_v100 : IVec S200000x4 1) (main_v101 : IVec S200000x4 32) : IVec S_ 1 :=
  let main_v102 : IVec S200000x4 1 := cmpi .slt main_arg4 main_v101
  let main_v103 : IVec S200000x4 1 := andi main_v100 main_v102
  let main_c_40 : IVec S_ 1 := constantI S_ 1 1#1
  let main_v104 : IVec S_ 1 := (fun x v => Host.reduce IntOp.andi x v reducesTo_S200000x4_S_d0_1 h_S_) main_v103 main_c_40
  let main_v105 : IVec S_ 1 := andi main_v98 main_v104
  main_v105

def fn_part5 {F : FTy → Type} [FloatOps F] (main_arg4 : IVec S200000x4 32) (main_arg23 : FVec F S1x64 .f32) (main_arg24 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S1x64 .f32 := Host.absf main_arg23
  let main_cst_34 : FVec F S_ .f32 := constant S_ .f32 0x7F800000#32
  let main_v90 : FVec F S1x64 .f32 := broadcastInDim S1x64 ![] bcast_S_S1x64 main_cst_34
  let main_v91 : IVec S1x64 1 := cmpf .olt main_v89 main_v90
  let main_c_35 : IVec S_ 1 := constantI S_ 1 1#1
  let main_v92 : IVec S_ 1 := (fun x v => Host.reduce IntOp.andi x v reducesTo_S1x64_S_d0_1 h_S_) main_v91 main_c_35
  let main_v93 : IVec S_ 1 := andi main_v88 main_v92
  let main_v94 : FVec F S1 .f32 := Host.absf main_arg24
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S200000x4 32 := broadcastInDim S200000x4 ![] bcast_S_S200000x4 main_c_38
  let main_v100 : IVec S200000x4 1 := cmpi .sge main_arg4 main_v99
  let main_c_39 : IVec S_ 32 := constantI S_ 32 1024#32
  let main_v101 : IVec S200000x4 32 := broadcastInDim S200000x4 ![] bcast_S_S200000x4 main_c_39
  fn_part6 (F := F) main_arg4 main_v98 main_v100 main_v101

def fn_part4 {F : FTy → Type} [FloatOps F] (main_arg4 : IVec S200000x4 32) (main_arg19 : FVec F S64x128 .f32) (main_arg20 : FVec F S64 .f32) (main_arg21 : FVec F S64 .f32) (main_arg22 : FVec F S64 .f32) (main_arg23 : FVec F S1x64 .f32) (main_arg24 : FVec F S1 .f32) (main_v63 : IVec S_ 1) (main_v67 : IVec S_ 1) : IVec S_ 1 :=
  let main_v68 : IVec S_ 1 := andi main_v63 main_v67
  let main_v69 : FVec F S64x128 .f32 := Host.absf main_arg19
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg20
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg21
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg22
  let main_cst_32 : FVec F S_ .f32 := constant S_ .f32 0x7F800000#32
  fn_part5 (F := F) main_arg4 main_arg23 main_arg24 main_v83 main_v84 main_cst_32

def fn_part3 {F : FTy → Type} [FloatOps F] (main_arg4 : IVec S200000x4 32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg16
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg17
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg18
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg19 main_arg20 main_arg21 main_arg22 main_arg23 main_arg24 main_v63 main_v67

def fn_part2 {F : FTy → Type} [FloatOps F] (main_arg4 : IVec S200000x4 32) (main_arg12 : FVec F S100000x128 .f32) (main_arg13 : FVec F S100000x128 .f32) (main_arg14 : FVec F S4x128 .f32) (main_arg15 : FVec F S128x256 .f32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) (main_v33 : IVec S_ 1) : IVec S_ 1 :=
  let main_v34 : FVec F S100000x128 .f32 := Host.absf main_arg12
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  let main_v39 : FVec F S100000x128 .f32 := Host.absf main_arg13
  let main_cst_14 : FVec F S_ .f32 := constant S_ .f32 0x7F800000#32
  let main_v40 : FVec F S100000x128 .f32 := broadcastInDim S100000x128 ![] bcast_S_S100000x128 main_cst_14
  let main_v41 : IVec S100000x128 1 := cmpf .olt main_v39 main_v40
  let main_c_15 : IVec S_ 1 := constantI S_ 1 1#1
  let main_v42 : IVec S_ 1 := (fun x v => Host.reduce IntOp.andi x v reducesTo_S100000x128_S_d0_1 h_S_) main_v41 main_c_15
  let main_v43 : IVec S_ 1 := andi main_v38 main_v42
  let main_v44 : FVec F S4x128 .f32 := Host.absf main_arg14
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S128x256 .f32 := Host.absf main_arg15
  let main_cst_18 : FVec F S_ .f32 := constant S_ .f32 0x7F800000#32
  let main_v50 : FVec F S128x256 .f32 := broadcastInDim S128x256 ![] bcast_S_S128x256 main_cst_18
  fn_part3 (F := F) main_arg4 main_arg16 main_arg17 main_arg18 main_arg19 main_arg20 main_arg21 main_arg22 main_arg23 main_arg24 main_v48 main_v49 main_v50

def fn_part1 {F : FTy → Type} [FloatOps F] (main_arg4 : IVec S200000x4 32) (main_arg9 : FVec F S384 .f32) (main_arg10 : FVec F S128x768 .f32) (main_arg11 : FVec F S768 .f32) (main_arg12 : FVec F S100000x128 .f32) (main_arg13 : FVec F S100000x128 .f32) (main_arg14 : FVec F S4x128 .f32) (main_arg15 : FVec F S128x256 .f32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S384 .f32 := Host.absf main_arg9
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S128x768 .f32 := Host.absf main_arg10
  let main_cst_8 : FVec F S_ .f32 := constant S_ .f32 0x7F800000#32
  let main_v25 : FVec F S128x768 .f32 := broadcastInDim S128x768 ![] bcast_S_S128x768 main_cst_8
  let main_v26 : IVec S128x768 1 := cmpf .olt main_v24 main_v25
  let main_c_9 : IVec S_ 1 := constantI S_ 1 1#1
  let main_v27 : IVec S_ 1 := (fun x v => Host.reduce IntOp.andi x v reducesTo_S128x768_S_d0_1 h_S_) main_v26 main_c_9
  let main_v28 : IVec S_ 1 := andi main_v23 main_v27
  let main_v29 : FVec F S768 .f32 := Host.absf main_arg11
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg4 main_arg12 main_arg13 main_arg14 main_arg15 main_arg16 main_arg17 main_arg18 main_arg19 main_arg20 main_arg21 main_arg22 main_arg23 main_arg24 main_v33

def fn {F : FTy → Type} [FloatOps F] (main_arg0 : IVec S4096 32) (main_arg1 : IVec S4096 32) (main_arg2 : IVec S4096 32) (main_arg3 : IVec S4096x50 32) (main_arg4 : IVec S200000x4 32) (main_arg5 : FVec F S1024x128 .f32) (main_arg6 : FVec F S100000x384 .f32) (main_arg7 : FVec F S100000x768 .f32) (main_arg8 : FVec F S128x384 .f32) (main_arg9 : FVec F S384 .f32) (main_arg10 : FVec F S128x768 .f32) (main_arg11 : FVec F S768 .f32) (main_arg12 : FVec F S100000x128 .f32) (main_arg13 : FVec F S100000x128 .f32) (main_arg14 : FVec F S4x128 .f32) (main_arg15 : FVec F S128x256 .f32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) : IVec S_ 1 :=
  let main_v0 : FVec F S1024x128 .f32 := Host.absf main_arg5
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x384 .f32 := Host.absf main_arg6
  let main_cst_0 : FVec F S_ .f32 := constant S_ .f32 0x7F800000#32
  let main_v5 : FVec F S100000x384 .f32 := broadcastInDim S100000x384 ![] bcast_S_S100000x384 main_cst_0
  let main_v6 : IVec S100000x384 1 := cmpf .olt main_v4 main_v5
  let main_c_1 : IVec S_ 1 := constantI S_ 1 1#1
  let main_v7 : IVec S_ 1 := (fun x v => Host.reduce IntOp.andi x v reducesTo_S100000x384_S_d0_1 h_S_) main_v6 main_c_1
  let main_v8 : IVec S_ 1 := andi main_v3 main_v7
  let main_v9 : FVec F S100000x768 .f32 := Host.absf main_arg7
  let main_cst_2 : FVec F S_ .f32 := constant S_ .f32 0x7F800000#32
  let main_v10 : FVec F S100000x768 .f32 := broadcastInDim S100000x768 ![] bcast_S_S100000x768 main_cst_2
  let main_v11 : IVec S100000x768 1 := cmpf .olt main_v9 main_v10
  let main_c_3 : IVec S_ 1 := constantI S_ 1 1#1
  let main_v12 : IVec S_ 1 := (fun x v => Host.reduce IntOp.andi x v reducesTo_S100000x768_S_d0_1 h_S_) main_v11 main_c_3
  let main_v13 : IVec S_ 1 := andi main_v8 main_v12
  let main_v14 : FVec F S128x384 .f32 := Host.absf main_arg8
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4096 : Shape := ⟨1, ![4096]⟩
abbrev S4096x50 : Shape := ⟨2, ![4096, 50]⟩
abbrev S200000x4 : Shape := ⟨2, ![200000, 4]⟩
abbrev S1024x128 : Shape := ⟨2, ![1024, 128]⟩
abbrev S100000x384 : Shape := ⟨2, ![100000, 384]⟩
abbrev S100000x768 : Shape := ⟨2, ![100000, 768]⟩
abbrev S128x384 : Shape := ⟨2, ![128, 384]⟩
abbrev S384 : Shape := ⟨1, ![384]⟩
abbrev S128x768 : Shape := ⟨2, ![128, 768]⟩
abbrev S768 : Shape := ⟨1, ![768]⟩
abbrev S100000x128 : Shape := ⟨2, ![100000, 128]⟩
abbrev S4x128 : Shape := ⟨2, ![4, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S384x128 : Shape := ⟨2, ![384, 128]⟩
abbrev S768x128 : Shape := ⟨2, ![768, 128]⟩
abbrev S_ : Shape := ⟨0, ![]⟩
abbrev S4096x1 : Shape := ⟨2, ![4096, 1]⟩
abbrev S4096x128 : Shape := ⟨2, ![4096, 128]⟩
abbrev S4096x384 : Shape := ⟨2, ![4096, 384]⟩
abbrev S4096x768 : Shape := ⟨2, ![4096, 768]⟩
abbrev S4096x50x1 : Shape := ⟨3, ![4096, 50, 1]⟩
abbrev S4096x50x4 : Shape := ⟨3, ![4096, 50, 4]⟩
abbrev S4096x100x4 : Shape := ⟨3, ![4096, 100, 4]⟩
abbrev S4096x400 : Shape := ⟨2, ![4096, 400]⟩
abbrev S128x400 : Shape := ⟨2, ![128, 400]⟩
abbrev S128x128 : Shape := ⟨2, ![128, 128]⟩
abbrev S1x1x1024 : Shape := ⟨3, ![1, 1, 1024]⟩
abbrev S128x1024 : Shape := ⟨2, ![128, 1024]⟩
abbrev S128x8 : Shape := ⟨2, ![128, 8]⟩
abbrev S128x8x1 : Shape := ⟨3, ![128, 8, 1]⟩
abbrev S128x8x1024 : Shape := ⟨3, ![128, 8, 1024]⟩
abbrev S128x1 : Shape := ⟨2, ![128, 1]⟩
abbrev S1024x384 : Shape := ⟨2, ![1024, 384]⟩
abbrev S1024x768 : Shape := ⟨2, ![1024, 768]⟩
abbrev S1x384 : Shape := ⟨2, ![1, 384]⟩
abbrev S1x768 : Shape := ⟨2, ![1, 768]⟩
abbrev S1x128 : Shape := ⟨2, ![1, 128]⟩
abbrev S128x64 : Shape := ⟨2, ![128, 64]⟩
abbrev S64x1 : Shape := ⟨2, ![64, 1]⟩
abbrev S4096x64 : Shape := ⟨2, ![4096, 64]⟩
abbrev S1x1 : Shape := ⟨2, ![1, 1]⟩

abbrev nBuf : Space → Nat
  | .hbm => 105
  | .vmem => 34
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S4096x50, .i32⟩
  | .hbm, ⟨4, _⟩ => ⟨S200000x4, .i32⟩
  | .hbm, ⟨5, _⟩ => ⟨S1024x128, .f32⟩
  | .hbm, ⟨6, _⟩ => ⟨S100000x384, .f32⟩
  | .hbm, ⟨7, _⟩ => ⟨S100000x768, .f32⟩
  | .hbm, ⟨8, _⟩ => ⟨S128x384, .f32⟩
  | .hbm, ⟨9, _⟩ => ⟨S384, .f32⟩
  | .hbm, ⟨10, _⟩ => ⟨S128x768, .f32⟩
  | .hbm, ⟨11, _⟩ => ⟨S768, .f32⟩
  | .hbm, ⟨12, _⟩ => ⟨S100000x128, .f32⟩
  | .hbm, ⟨13, _⟩ => ⟨S100000x128, .f32⟩
  | .hbm, ⟨14, _⟩ => ⟨S4x128, .f32⟩
  | .hbm, ⟨15, _⟩ => ⟨S128x256, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S64x128, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S1, .f32⟩
  | .hbm, ⟨25, _⟩ => ⟨S384x128, .f32⟩
  | .hbm, ⟨26, _⟩ => ⟨S768x128, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x128, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x128, .f32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x128, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096x384, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x768, .f32⟩
  | .hbm, ⟨72, _⟩ => ⟨S_, .i32⟩
  | .hbm, ⟨73, _⟩ => ⟨S4096x50, .i32⟩
  | .hbm, ⟨74, _⟩ => ⟨S4096x50, .i1⟩
  | .hbm, ⟨75, _⟩ => ⟨S_, .i32⟩
  | .hbm, ⟨76, _⟩ => ⟨S4096x50, .i32⟩
  | .hbm, ⟨77, _⟩ => ⟨S4096x50, .i32⟩
  | .hbm, ⟨78, _⟩ => ⟨S4096x50, .i32⟩
  | .hbm, ⟨79, _⟩ => ⟨S4096x50x1, .i32⟩
  | .hbm, ⟨80, _⟩ => ⟨S4096x50x4, .i32⟩
  | .hbm, ⟨81, _⟩ => ⟨S_, .i32⟩
  | .hbm, ⟨82, _⟩ => ⟨S4096x50, .i32⟩
  | .hbm, ⟨83, _⟩ => ⟨S4096x50, .i32⟩
  | .hbm, ⟨84, _⟩ => ⟨S_, .i32⟩
  | .hbm, ⟨85, _⟩ => ⟨S4096x50, .i32⟩
  | .hbm, ⟨86, _⟩ => ⟨S4096x50, .i1⟩
  | .hbm, ⟨87, _⟩ => ⟨S_, .i32⟩
  | .hbm, ⟨88, _⟩ => ⟨S4096x50, .i32⟩
  | .hbm, ⟨89, _⟩ => ⟨S4096x50, .i32⟩
  | .hbm, ⟨90, _⟩ => ⟨S4096x50, .i32⟩
  | .hbm, ⟨91, _⟩ => ⟨S4096x50x1, .i32⟩
  | .hbm, ⟨92, _⟩ => ⟨S4096x50x4, .i32⟩
  | .hbm, ⟨93, _⟩ => ⟨S4096x100x4, .i32⟩
  | .hbm, ⟨94, _⟩ => ⟨S4096x400, .i32⟩
  | .hbm, ⟨95, _⟩ => ⟨S4096x128, .f32⟩
  | .hbm, ⟨96, _⟩ => ⟨S128x128, .f32⟩
  | .hbm, ⟨97, _⟩ => ⟨S128x128, .f32⟩
  | .hbm, ⟨98, _⟩ => ⟨S128x128, .f32⟩
  | .hbm, ⟨99, _⟩ => ⟨S128x128, .f32⟩
  | .hbm, ⟨100, _⟩ => ⟨S4096x128, .f32⟩
  | .hbm, ⟨101, _⟩ => ⟨S128x64, .f32⟩
  | .hbm, ⟨102, _⟩ => ⟨S64x1, .f32⟩
  | .hbm, ⟨103, _⟩ => ⟨S4096x1, .f32⟩
  | .hbm, ⟨104, _⟩ => ⟨S4096, .f32⟩
  | .local _ .vmem, ⟨0, _⟩ => ⟨S128x400, .i32⟩
  | .local _ .vmem, ⟨1, _⟩ => ⟨S128x400, .i32⟩
  | .local _ .vmem, ⟨2, _⟩ => ⟨S1024x128, .f32⟩
  | .local _ .vmem, ⟨3, _⟩ => ⟨S128x128, .f32⟩
  | .local _ .vmem, ⟨4, _⟩ => ⟨S128x128, .f32⟩
  | .local _ .vmem, ⟨5, _⟩ => ⟨S1024x384, .f32⟩
  | .local _ .vmem, ⟨6, _⟩ => ⟨S1024x384, .f32⟩
  | .local _ .vmem, ⟨7, _⟩ => ⟨S1024x768, .f32⟩
  | .local _ .vmem, ⟨8, _⟩ => ⟨S1024x768, .f32⟩
  | .local _ .vmem, ⟨9, _⟩ => ⟨S384, .f32⟩
  | .local _ .vmem, ⟨10, _⟩ => ⟨S768, .f32⟩
  | .local _ .vmem, ⟨11, _⟩ => ⟨S384x128, .f32⟩
  | .local _ .vmem, ⟨12, _⟩ => ⟨S768x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S1024x128, .f32⟩
  | .local _ .vmem, ⟨23, _⟩ => ⟨S1024x128, .f32⟩
  | .local _ .vmem, ⟨24, _⟩ => ⟨S4096x128, .f32⟩
  | .local _ .vmem, ⟨25, _⟩ => ⟨S128, .f32⟩
  | .local _ .vmem, ⟨26, _⟩ => ⟨S128, .f32⟩
  | .local _ .vmem, ⟨27, _⟩ => ⟨S128x64, .f32⟩
  | .local _ .vmem, ⟨28, _⟩ => ⟨S64, .f32⟩
  | .local _ .vmem, ⟨29, _⟩ => ⟨S64, .f32⟩
  | .local _ .vmem, ⟨30, _⟩ => ⟨S64, .f32⟩
  | .local _ .vmem, ⟨31, _⟩ => ⟨S64x1, .f32⟩
  | .local _ .vmem, ⟨32, _⟩ => ⟨S1, .f32⟩
  | .local _ .vmem, ⟨33, _⟩ => ⟨S4096x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_5 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_v31 : Ref sig .tc := ⟨.hbm, 65, rfl⟩
abbrev main_c_8 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_9 : Ref sig .tc := ⟨.hbm, 72, rfl⟩
abbrev main_v37 : Ref sig .tc := ⟨.hbm, 73, rfl⟩
abbrev main_v38 : Ref sig .tc := ⟨.hbm, 74, rfl⟩
abbrev main_c_10 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c_11 : Ref sig .tc := ⟨.hbm, 81, rfl⟩
abbrev main_v44 : Ref sig .tc := ⟨.hbm, 82, rfl⟩
abbrev main_v45 : Ref sig .tc := ⟨.hbm, 83, rfl⟩
abbrev main_c_12 : Ref sig .tc := ⟨.hbm, 84, rfl⟩
abbrev main_v46 : Ref sig .tc := ⟨.hbm, 85, rfl⟩
abbrev main_v47 : Ref sig .tc := ⟨.hbm, 86, rfl⟩
abbrev main_c_13 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg12_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem12_1 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S768x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S4096x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  transposes_S128x384_S384x128_1_0 : S128x384.Transposes [1, 0] S384x128
  transposes_S128x768_S768x128_1_0 : S128x768.Transposes [1, 0] S768x128
  bcast_S_S4096 : S_.BroadcastsInDim S4096 (![] : Fin 0 → Fin S4096.rank)
  bcast_S4096_S4096x1_0 : S4096.BroadcastsInDim S4096x1 (![0] : Fin 1 → Fin S4096x1.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  concatenates_S4096x50x4_S4096x50x4_S4096x100x4_d1 : Shape.Concatenates [S4096x50x4, S4096x50x4] S4096x100x4 1
  shapeCasts_S4096x100x4_S4096x400 : S4096x100x4.ShapeCasts S4096x400
  inb_S128x400_S128x400_0_0 : ∀ a, (![0, 0] : Fin 2 → Nat) a + S128x400.size a ≤ S128x400.size a
  h_S128x400 : 0 < S128x400.numel
  shapeCasts_S128x400_S128x400 : S128x400.ShapeCasts S128x400
  iota_S1x1x1024_d2_w32 : S1x1x1024.Iotas .tc 32 [2]
  slices_S128x400_o0_0_S128x8 : S128x400.Slices ![0, 0] S128x8
  shapeCasts_S128x8_S128x8x1 : S128x8.ShapeCasts S128x8x1
  broadcasts_S128x8x1_S128x8x1024 : S128x8x1.Broadcasts S128x8x1024
  broadcasts_S1x1x1024_S128x8x1024 : S1x1x1024.Broadcasts S128x8x1024
  natLt_1_32 : 1 < 32
  reduces_S128x8x1024_S128x1024 : S128x8x1024.Reduces [1] S128x1024
  slices_S128x400_o0_8_S128x8 : S128x400.Slices ![0, 8] S128x8
  slices_S128x400_o0_16_S128x8 : S128x400.Slices ![0, 16] S128x8
  slices_S128x400_o0_24_S128x8 : S128x400.Slices ![0, 24] S128x8
  slices_S128x400_o0_32_S128x8 : S128x400.Slices ![0, 32] S128x8
  slices_S128x400_o0_40_S128x8 : S128x400.Slices ![0, 40] S128x8
  slices_S128x400_o0_48_S128x8 : S128x400.Slices ![0, 48] S128x8
  slices_S128x400_o0_56_S128x8 : S128x400.Slices ![0, 56] S128x8
  slices_S128x400_o0_64_S128x8 : S128x400.Slices ![0, 64] S128x8
  slices_S128x400_o0_72_S128x8 : S128x400.Slices ![0, 72] S128x8
  slices_S128x400_o0_80_S128x8 : S128x400.Slices ![0, 80] S128x8
  slices_S128x400_o0_88_S128x8 : S128x400.Slices ![0, 88] S128x8
  slices_S128x400_o0_96_S128x8 : S128x400.Slices ![0, 96] S128x8
  slices_S128x400_o0_104_S128x8 : S128x400.Slices ![0, 104] S128x8
  slices_S128x400_o0_112_S128x8 : S128x400.Slices ![0, 112] S128x8
  slices_S128x400_o0_120_S128x8 : S128x400.Slices ![0, 120] S128x8
  slices_S128x400_o0_128_S128x8 : S128x400.Slices ![0, 128] S128x8
  slices_S128x400_o0_136_S128x8 : S128x400.Slices ![0, 136] S128x8
  slices_S128x400_o0_144_S128x8 : S128x400.Slices ![0, 144] S128x8
  slices_S128x400_o0_152_S128x8 : S128x400.Slices ![0, 152] S128x8
  slices_S128x400_o0_160_S128x8 : S128x400.Slices ![0, 160] S128x8
  slices_S128x400_o0_168_S128x8 : S128x400.Slices ![0, 168] S128x8
  slices_S128x400_o0_176_S128x8 : S128x400.Slices ![0, 176] S128x8
  slices_S128x400_o0_184_S128x8 : S128x400.Slices ![0, 184] S128x8
  slices_S128x400_o0_192_S128x8 : S128x400.Slices ![0, 192] S128x8
  slices_S128x400_o0_200_S128x8 : S128x400.Slices ![0, 200] S128x8
  slices_S128x400_o0_208_S128x8 : S128x400.Slices ![0, 208] S128x8
  slices_S128x400_o0_216_S128x8 : S128x400.Slices ![0, 216] S128x8
  slices_S128x400_o0_224_S128x8 : S128x400.Slices ![0, 224] S128x8
  slices_S128x400_o0_232_S128x8 : S128x400.Slices ![0, 232] S128x8
  slices_S128x400_o0_240_S128x8 : S128x400.Slices ![0, 240] S128x8
  slices_S128x400_o0_248_S128x8 : S128x400.Slices ![0, 248] S128x8
  slices_S128x400_o0_256_S128x8 : S128x400.Slices ![0, 256] S128x8
  slices_S128x400_o0_264_S128x8 : S128x400.Slices ![0, 264] S128x8
  slices_S128x400_o0_272_S128x8 : S128x400.Slices ![0, 272] S128x8
  slices_S128x400_o0_280_S128x8 : S128x400.Slices ![0, 280] S128x8
  slices_S128x400_o0_288_S128x8 : S128x400.Slices ![0, 288] S128x8
  slices_S128x400_o0_296_S128x8 : S128x400.Slices ![0, 296] S128x8
  slices_S128x400_o0_304_S128x8 : S128x400.Slices ![0, 304] S128x8
  slices_S128x400_o0_312_S128x8 : S128x400.Slices ![0, 312] S128x8
  slices_S128x400_o0_320_S128x8 : S128x400.Slices ![0, 320] S128x8
  slices_S128x400_o0_328_S128x8 : S128x400.Slices ![0, 328] S128x8
  slices_S128x400_o0_336_S128x8 : S128x400.Slices ![0, 336] S128x8
  slices_S128x400_o0_344_S128x8 : S128x400.Slices ![0, 344] S128x8
  slices_S128x400_o0_352_S128x8 : S128x400.Slices ![0, 352] S128x8
  slices_S128x400_o0_360_S128x8 : S128x400.Slices ![0, 360] S128x8
  slices_S128x400_o0_368_S128x8 : S128x400.Slices ![0, 368] S128x8
  slices_S128x400_o0_376_S128x8 : S128x400.Slices ![0, 376] S128x8
  slices_S128x400_o0_384_S128x8 : S128x400.Slices ![0, 384] S128x8
  slices_S128x400_o0_392_S128x8 : S128x400.Slices ![0, 392] S128x8
  reduces_S128x1024_S128 : S128x1024.Reduces [1] S128
  shapeCasts_S128_S128x1 : S128.ShapeCasts S128x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  broadcasts_S128x1_S128x128 : S128x1.Broadcasts S128x128
  inb_S128x128_S128x128_0_0 : ∀ a, (![0, 0] : Fin 2 → Nat) a + S128x128.size a ≤ S128x128.size a
  h_S128x128 : 0 < S128x128.numel
  slices_S128x256_S128x128_0_0 : S128x256.Slices ![0, 0] S128x128
  transposes_S128x128_S128x128_1_0 : S128x128.Transposes [1, 0] S128x128
  slices_S128x256_S128x128_0_128 : S128x256.Slices ![0, 128] S128x128
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S384_S384_0 : ∀ a, (![0] : Fin 1 → Nat) a + S384.size a ≤ S384.size a
  h_S384 : 0 < S384.numel
  shapeCasts_S384_S1x384 : S384.ShapeCasts S1x384
  broadcasts_S1x384_S1024x384 : S1x384.Broadcasts S1024x384
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S768x128_S768x128_0_0 : ∀ a, (![0, 0] : Fin 2 → Nat) a + S768x128.size a ≤ S768x128.size a
  h_S768x128 : 0 < S768x128.numel
  shapeCasts_S768x128_S768x128 : S768x128.ShapeCasts S768x128
  shapeCasts_S1024x128_S1024x128 : S1024x128.ShapeCasts S1024x128
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  transposes_S64x128_S128x64_1_0 : S64x128.Transposes [1, 0] S128x64
  transposes_S1x64_S64x1_1_0 : S1x64.Transposes [1, 0] S64x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S128 : S4096x128.Reduces [0] S128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  reduces_S4096x64_S64 : S4096x64.Reduces [0] S64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  gather_S100000x128_S4096x1_S4096x128_1_0_n_n_0_1_1128_wf : GatherDims.WF S100000x128 S4096x1 S4096x128 [1] [0] [] [0] [] 1 ![1, 128]
  gather_S4x128_S4096x1_S4096x128_1_0_n_n_0_1_1128_wf : GatherDims.WF S4x128 S4096x1 S4096x128 [1] [0] [] [0] [] 1 ![1, 128]
  gather_S100000x384_S4096x1_S4096x384_1_0_n_n_0_1_1384_wf : GatherDims.WF S100000x384 S4096x1 S4096x384 [1] [0] [] [0] [] 1 ![1, 384]
  gather_S100000x768_S4096x1_S4096x768_1_0_n_n_0_1_1768_wf : GatherDims.WF S100000x768 S4096x1 S4096x768 [1] [0] [] [0] [] 1 ![1, 768]
  gather_S200000x4_S4096x50x1_S4096x50x4_2_0_n_n_0_2_14_wf : GatherDims.WF S200000x4 S4096x50x1 S4096x50x4 [2] [0] [] [0] [] 2 ![1, 4]
  dot_S128x1024_S1024x128_S128x128_1_0_0_1_n_n_wf : DotDims.WF S128x1024 S1024x128 S128x128 [1] [0] [0] [1] [] []
  dot_S1024x384_S384x128_S1024x128_1_0_0_1_n_n_wf : DotDims.WF S1024x384 S384x128 S1024x128 [1] [0] [0] [1] [] []
  dot_S1024x768_S768x128_S1024x128_1_0_0_1_n_n_wf : DotDims.WF S1024x768 S768x128 S1024x128 [1] [0] [0] [1] [] []
  dot_S1024x128_S128x128_S1024x128_1_0_0_1_n_n_wf : DotDims.WF S1024x128 S128x128 S1024x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x400.size a ≤ S4096x400.size a
  hwx0_0 : ∀ i : grid0.Coords, EltTy.bits .i32 = 32 ∨ (Rect.block (s := S4096x400) S128x400.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S4096x128.size a
  hwx0_2 : ∀ i : grid0.Coords, EltTy.bits .f32 = 32 ∨ (Rect.block (s := S4096x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x384.size a ≤ S4096x384.size a
  hwx1_0 : ∀ i : grid1.Coords, EltTy.bits .f32 = 32 ∨ (Rect.block (s := S4096x384) S1024x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S4096x768.size a
  hwx1_1 : ∀ i : grid1.Coords, EltTy.bits .f32 = 32 ∨ (Rect.block (s := S4096x768) S1024x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384.size a ≤ S384.size a
  hwx1_2 : ∀ i : grid1.Coords, EltTy.bits .f32 = 32 ∨ (Rect.block (s := S384) S384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768.size a ≤ S768.size a
  hwx1_3 : ∀ i : grid1.Coords, EltTy.bits .f32 = 32 ∨ (Rect.block (s := S768) S768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x128.size a ≤ S384x128.size a
  hwx1_4 : ∀ i : grid1.Coords, EltTy.bits .f32 = 32 ∨ (Rect.block (s := S384x128) S384x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S768x128.size a ≤ S768x128.size a
  hwx1_5 : ∀ i : grid1.Coords, EltTy.bits .f32 = 32 ∨ (Rect.block (s := S768x128) S768x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S4096x128.size a
  hwx1_6 : ∀ i : grid1.Coords, EltTy.bits .f32 = 32 ∨ (Rect.block (s := S4096x128) S1024x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S4096x128.size a
  hwx1_7 : ∀ i : grid1.Coords, EltTy.bits .f32 = 32 ∨ (Rect.block (s := S4096x128) S1024x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x128.size a ≤ S4096x128.size a
  hwx1_8 : ∀ i : grid1.Coords, EltTy.bits .f32 = 32 ∨ (Rect.block (s := S4096x128) S1024x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1024x128.size a ≤ S4096x128.size a
  hwx1_12 : ∀ i : grid1.Coords, EltTy.bits .f32 = 32 ∨ (Rect.block (s := S4096x128) S1024x128.size (cc1_transform_12 i) (hinb1_12 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S4096x1.size a ≤ S4096x1.size a
  hwx2_9 : ∀ i : grid2.Coords, EltTy.bits .f32 = 32 ∨ (Rect.block (s := S4096x1) S4096x1.size (cc2_transform_9 i) (hinb2_9 i)).WholeWords (EltTy.packing .f32)

variable [Facts₀]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S4x128_S4096x1_S4096x128_1_0_n_n_0_1_1128 : GatherDims S4x128 S4096x1 S4096x128 where
  offsetDims := [1]
  collapsedSliceDims := [0]
  operandBatchingDims := []
  startIndicesBatchingDims := []
  startIndexMap := [0]
  indexVectorDim := 1
  sliceSizes := ![1, 128]
  wf := gather_S4x128_S4096x1_S4096x128_1_0_n_n_0_1_1128_wf
def gather_S100000x384_S4096x1_S4096x384_1_0_n_n_0_1_1384 : GatherDims S100000x384 S4096x1 S4096x384 where
  offsetDims := [1]
  collapsedSliceDims := [0]
  operandBatchingDims := []
  startIndicesBatchingDims := []
  startIndexMap := [0]
  indexVectorDim := 1
  sliceSizes := ![1, 384]
  wf := gather_S100000x384_S4096x1_S4096x384_1_0_n_n_0_1_1384_wf
def gather_S100000x768_S4096x1_S4096x768_1_0_n_n_0_1_1768 : GatherDims S100000x768 S4096x1 S4096x768 where
  offsetDims := [1]
  collapsedSliceDims := [0]
  operandBatchingDims := []
  startIndicesBatchingDims := []
  startIndexMap := [0]
  indexVectorDim := 1
  sliceSizes := ![1, 768]
  wf := gather_S100000x768_S4096x1_S4096x768_1_0_n_n_0_1_1768_wf
def gather_S200000x4_S4096x50x1_S4096x50x4_2_0_n_n_0_2_14 : GatherDims S200000x4 S4096x50x1 S4096x50x4 where
  offsetDims := [2]
  collapsedSliceDims := [0]
  operandBatchingDims := []
  startIndicesBatchingDims := []
  startIndexMap := [0]
  indexVectorDim := 2
  sliceSizes := ![1, 4]
  wf := gather_S200000x4_S4096x50x1_S4096x50x4_2_0_n_n_0_2_14_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S1024x384_S384x128_S1024x128_1_0_0_1_n_n : DotDims S1024x384 S384x128 S1024x128 where
  lhsContracting := [1]
  rhsContracting := [0]
  lhsNonContracting := [0]
  rhsNonContracting := [1]
  lhsBatch := []
  rhsBatch := []
  wf := dot_S1024x384_S384x128_S1024x128_1_0_0_1_n_n_wf
def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_v54) S128x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S1024x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S384x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S768x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1024x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1024x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1024x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v57) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v59) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v60) S1024x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v60) S4096x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg17) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg18) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg20) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg21) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg22) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg24) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S4096x1.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S4096 : Shape := ⟨1, ![4096]⟩
abbrev S4096x50 : Shape := ⟨2, ![4096, 50]⟩
abbrev S200000x4 : Shape := ⟨2, ![200000, 4]⟩
abbrev S1024x128 : Shape := ⟨2, ![1024, 128]⟩
abbrev S100000x384 : Shape := ⟨2, ![100000, 384]⟩
abbrev S100000x768 : Shape := ⟨2, ![100000, 768]⟩
abbrev S128x384 : Shape := ⟨2, ![128, 384]⟩
abbrev S384 : Shape := ⟨1, ![384]⟩
abbrev S128x768 : Shape := ⟨2, ![128, 768]⟩
abbrev S768 : Shape := ⟨1, ![768]⟩
abbrev S100000x128 : Shape := ⟨2, ![100000, 128]⟩
abbrev S4x128 : Shape := ⟨2, ![4, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x384 : Shape := ⟨2, ![1, 384]⟩
abbrev S384x128 : Shape := ⟨2, ![384, 128]⟩
abbrev S1x768 : Shape := ⟨2, ![1, 768]⟩
abbrev S768x128 : Shape := ⟨2, ![768, 128]⟩
abbrev S_ : Shape := ⟨0, ![]⟩
abbrev S4096x1 : Shape := ⟨2, ![4096, 1]⟩
abbrev S4096x128 : Shape := ⟨2, ![4096, 128]⟩
abbrev S4096x50x1 : Shape := ⟨3, ![4096, 50, 1]⟩
abbrev S4096x50x4 : Shape := ⟨3, ![4096, 50, 4]⟩
abbrev S4096x100x4 : Shape := ⟨3, ![4096, 100, 4]⟩
abbrev S4096x400 : Shape := ⟨2, ![4096, 400]⟩
abbrev S4096x1024 : Shape := ⟨2, ![4096, 1024]⟩
abbrev S4096x400x1 : Shape := ⟨3, ![4096, 400, 1]⟩
abbrev S4096x400x2 : Shape := ⟨3, ![4096, 400, 2]⟩
abbrev S4096x256 : Shape := ⟨2, ![4096, 256]⟩
abbrev S256x128 : Shape := ⟨2, ![256, 128]⟩
abbrev S1x128 : Shape := ⟨2, ![1, 128]⟩
abbrev S128x64 : Shape := ⟨2, ![128, 64]⟩
abbrev S4096x64 : Shape := ⟨2, ![4096, 64]⟩
abbrev S64x1 : Shape := ⟨2, ![64, 1]⟩
abbrev S1x1 : Shape := ⟨2, ![1, 1]⟩

abbrev nBuf : Space → Nat
  | .hbm => 228
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S4096x50, .i32⟩
  | 4 => ⟨S200000x4, .i32⟩
  | 5 => ⟨S1024x128, .f32⟩
  | 6 => ⟨S100000x384, .f32⟩
  | 7 => ⟨S100000x768, .f32⟩
  | 8 => ⟨S128x384, .f32⟩
  | 9 => ⟨S384, .f32⟩
  | 10 => ⟨S128x768, .f32⟩
  | 11 => ⟨S768, .f32⟩
  | 12 => ⟨S100000x128, .f32⟩
  | 13 => ⟨S100000x128, .f32⟩
  | 14 => ⟨S4x128, .f32⟩
  | 15 => ⟨S128x256, .f32⟩
  | 16 => ⟨S128, .f32⟩
  | 17 => ⟨S128, .f32⟩
  | 18 => ⟨S128, .f32⟩
  | 19 => ⟨S64x128, .f32⟩
  | 20 => ⟨S64, .f32⟩
  | 21 => ⟨S64, .f32⟩
  | 22 => ⟨S64, .f32⟩
  | 23 => ⟨S1x64, .f32⟩
  | 24 => ⟨S1, .f32⟩
  | 25 => ⟨S1x384, .f32⟩
  | 26 => ⟨S100000x384, .f32⟩
  | 27 => ⟨S100000x384, .f32⟩
  | 28 => ⟨S384x128, .f32⟩
  | 29 => ⟨S100000x128, .f32⟩
  | 30 => ⟨S1x768, .f32⟩
  | 31 => ⟨S100000x768, .f32⟩
  | 32 => ⟨S100000x768, .f32⟩
  | 33 => ⟨S768x128, .f32⟩
  | 34 => ⟨S100000x128, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S4096x128, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S4096x128, .f32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096x128, .f32⟩
  | 62 => ⟨S_, .i32⟩
  | 63 => ⟨S4096x50, .i32⟩
  | 64 => ⟨S4096x50, .i1⟩
  | 65 => ⟨S_, .i32⟩
  | 66 => ⟨S4096x50, .i32⟩
  | 67 => ⟨S4096x50, .i32⟩
  | 68 => ⟨S4096x50, .i32⟩
  | 69 => ⟨S4096x50x1, .i32⟩
  | 70 => ⟨S4096x50x4, .i32⟩
  | 71 => ⟨S_, .i32⟩
  | 72 => ⟨S4096x50, .i32⟩
  | 73 => ⟨S4096x50, .i32⟩
  | 74 => ⟨S_, .i32⟩
  | 75 => ⟨S4096x50, .i32⟩
  | 76 => ⟨S4096x50, .i1⟩
  | 77 => ⟨S_, .i32⟩
  | 78 => ⟨S4096x50, .i32⟩
  | 79 => ⟨S4096x50, .i32⟩
  | 80 => ⟨S4096x50, .i32⟩
  | 81 => ⟨S4096x50x1, .i32⟩
  | 82 => ⟨S4096x50x4, .i32⟩
  | 83 => ⟨S4096x100x4, .i32⟩
  | 84 => ⟨S4096x400, .i32⟩
  | 85 => ⟨S4096, .i32⟩
  | 86 => ⟨S4096x1, .i32⟩
  | 87 => ⟨S_, .f32⟩
  | 88 => ⟨S4096x1024, .f32⟩
  | 89 => ⟨S_, .i32⟩
  | 90 => ⟨S4096x1, .i32⟩
  | 91 => ⟨S4096x1, .i1⟩
  | 92 => ⟨S_, .i32⟩
  | 93 => ⟨S4096x1, .i32⟩
  | 94 => ⟨S4096x1, .i32⟩
  | 95 => ⟨S4096x1, .i32⟩
  | 96 => ⟨S_, .i32⟩
  | 97 => ⟨S4096x400, .i32⟩
  | 98 => ⟨S4096x400, .i1⟩
  | 99 => ⟨S_, .i32⟩
  | 100 => ⟨S4096x400, .i32⟩
  | 101 => ⟨S4096x400, .i32⟩
  | 102 => ⟨S4096x400, .i32⟩
  | 103 => ⟨S4096x400, .i32⟩
  | 104 => ⟨S4096x400x1, .i32⟩
  | 105 => ⟨S4096x400x1, .i32⟩
  | 106 => ⟨S4096x400x2, .i32⟩
  | 107 => ⟨S_, .f32⟩
  | 108 => ⟨S4096x400, .f32⟩
  | 109 => ⟨S4096x1024, .f32⟩
  | 110 => ⟨S_, .f32⟩
  | 111 => ⟨S4096, .f32⟩
  | 112 => ⟨S4096x1, .f32⟩
  | 113 => ⟨S4096x128, .f32⟩
  | 114 => ⟨S4096x128, .f32⟩
  | 115 => ⟨S4096x128, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S4096x128, .f32⟩
  | 125 => ⟨S_, .i32⟩
  | 126 => ⟨S4096, .i32⟩
  | 127 => ⟨S4096, .i1⟩
  | _ => ⟨S4096, .i32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x128, .f32⟩
  | 6 => ⟨S4096x128, .f32⟩
  | 7 => ⟨S4096x128, .f32⟩
  | 8 => ⟨S4096x128, .f32⟩
  | 9 => ⟨S4096x256, .f32⟩
  | 10 => ⟨S256x128, .f32⟩
  | 11 => ⟨S4096x128, .f32⟩
  | 12 => ⟨S1x128, .f32⟩
  | 13 => ⟨S4096x128, .f32⟩
  | 14 => ⟨S4096x128, .f32⟩
  | 15 => ⟨S_, .f32⟩
  | 16 => ⟨S4096x128, .f32⟩
  | 17 => ⟨S4096x128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S4096x128, .f32⟩
  | 25 => ⟨S4096x128, .f32⟩
  | 26 => ⟨S4096x128, .f32⟩
  | 27 => ⟨S_, .f32⟩
  | 28 => ⟨S128, .f32⟩
  | 29 => ⟨S_, .f32⟩
  | 30 => ⟨S128, .f32⟩
  | 31 => ⟨S128, .f32⟩
  | 32 => ⟨S1x128, .f32⟩
  | 33 => ⟨S4096x128, .f32⟩
  | 34 => ⟨S4096x128, .f32⟩
  | 35 => ⟨S1x128, .f32⟩
  | 36 => ⟨S4096x128, .f32⟩
  | 37 => ⟨S4096x128, .f32⟩
  | 38 => ⟨S_, .f32⟩
  | 39 => ⟨S128, .f32⟩
  | 40 => ⟨S128, .f32⟩
  | 41 => ⟨S128, .f32⟩
  | 42 => ⟨S1x128, .f32⟩
  | 43 => ⟨S4096x128, .f32⟩
  | 44 => ⟨S4096x128, .f32⟩
  | 45 => ⟨S1x128, .f32⟩
  | 46 => ⟨S4096x128, .f32⟩
  | 47 => ⟨S4096x128, .f32⟩
  | 48 => ⟨S128x64, .f32⟩
  | 49 => ⟨S4096x64, .f32⟩
  | 50 => ⟨S1x64, .f32⟩
  | 51 => ⟨S4096x64, .f32⟩
  | 52 => ⟨S4096x64, .f32⟩
  | 53 => ⟨S_, .f32⟩
  | 54 => ⟨S4096x64, .f32⟩
  | 55 => ⟨S4096x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S4096x64, .f32⟩
  | 63 => ⟨S4096x64, .f32⟩
  | 64 => ⟨S4096x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S4096x64, .f32⟩
  | 72 => ⟨S4096x64, .f32⟩
  | 73 => ⟨S1x64, .f32⟩
  | 74 => ⟨S4096x64, .f32⟩
  | 75 => ⟨S4096x64, .f32⟩
  | 76 => ⟨S_, .f32⟩
  | 77 => ⟨S64, .f32⟩
  | 78 => ⟨S64, .f32⟩
  | 79 => ⟨S64, .f32⟩
  | 80 => ⟨S1x64, .f32⟩
  | 81 => ⟨S4096x64, .f32⟩
  | 82 => ⟨S4096x64, .f32⟩
  | 83 => ⟨S1x64, .f32⟩
  | 84 => ⟨S4096x64, .f32⟩
  | 85 => ⟨S4096x64, .f32⟩
  | 86 => ⟨S64x1, .f32⟩
  | 87 => ⟨S4096x1, .f32⟩
  | 88 => ⟨S1x1, .f32⟩
  | 89 => ⟨S4096x1, .f32⟩
  | 90 => ⟨S4096x1, .f32⟩
  | 91 => ⟨S4096x1, .f32⟩
  | 92 => ⟨S4096x1, .f32⟩
  | 93 => ⟨S_, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c : Ref sig .tc := ⟨.hbm, 35, rfl⟩
abbrev main_v10 : Ref sig .tc := ⟨.hbm, 36, rfl⟩
abbrev main_v11 : Ref sig .tc := ⟨.hbm, 37, rfl⟩
abbrev main_c_0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_1 : Ref sig .tc := ⟨.hbm, 44, rfl⟩
abbrev main_v17 : Ref sig .tc := ⟨.hbm, 45, rfl⟩
abbrev main_v18 : Ref sig .tc := ⟨.hbm, 46, rfl⟩
abbrev main_c_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_3 : Ref sig .tc := ⟨.hbm, 53, rfl⟩
abbrev main_v24 : Ref sig .tc := ⟨.hbm, 54, rfl⟩
abbrev main_v25 : Ref sig .tc := ⟨.hbm, 55, rfl⟩
abbrev main_c_4 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_5 : Ref sig .tc := ⟨.hbm, 62, rfl⟩
abbrev main_v31 : Ref sig .tc := ⟨.hbm, 63, rfl⟩
abbrev main_v32 : Ref sig .tc := ⟨.hbm, 64, rfl⟩
abbrev main_c_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_v38 : Ref sig .tc := ⟨.hbm, 72, rfl⟩
abbrev main_v39 : Ref sig .tc := ⟨.hbm, 73, rfl⟩
abbrev main_c_8 : Ref sig .tc := ⟨.hbm, 74, rfl⟩
abbrev main_v40 : Ref sig .tc := ⟨.hbm, 75, rfl⟩
abbrev main_v41 : Ref sig .tc := ⟨.hbm, 76, rfl⟩
abbrev main_c_9 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst : Ref sig .tc := ⟨.hbm, 87, rfl⟩
abbrev main_v51 : Ref sig .tc := ⟨.hbm, 88, rfl⟩
abbrev main_c_10 : Ref sig .tc := ⟨.hbm, 89, rfl⟩
abbrev main_v52 : Ref sig .tc := ⟨.hbm, 90, rfl⟩
abbrev main_v53 : Ref sig .tc := ⟨.hbm, 91, rfl⟩
abbrev main_c_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_12 : Ref sig .tc := ⟨.hbm, 96, rfl⟩
abbrev main_v57 : Ref sig .tc := ⟨.hbm, 97, rfl⟩
abbrev main_v58 : Ref sig .tc := ⟨.hbm, 98, rfl⟩
abbrev main_c_13 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_14 : Ref sig .tc := ⟨.hbm, 107, rfl⟩
abbrev main_v66 : Ref sig .tc := ⟨.hbm, 108, rfl⟩
abbrev main_v67 : Ref sig .tc := ⟨.hbm, 109, rfl⟩
abbrev main_cst_15 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_c_16 : Ref sig .tc := ⟨.hbm, 116, rfl⟩
abbrev main_v73 : Ref sig .tc := ⟨.hbm, 117, rfl⟩
abbrev main_v74 : Ref sig .tc := ⟨.hbm, 118, rfl⟩
abbrev main_c_17 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_18 : Ref sig .tc := ⟨.hbm, 125, rfl⟩
abbrev main_v80 : Ref sig .tc := ⟨.hbm, 126, rfl⟩
abbrev main_v81 : Ref sig .tc := ⟨.hbm, 127, rfl⟩
abbrev main_c_19 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_call0_cst : Ref sig .tc := ⟨.hbm, 143, rfl⟩
abbrev main_call0_v0 : Ref sig .tc := ⟨.hbm, 144, rfl⟩
abbrev main_v96 : Ref sig .tc := ⟨.hbm, 145, rfl⟩
abbrev main_cst_20 : Ref sig .tc := ⟨.hbm, 146, rfl⟩
abbrev main_v97 : Ref sig .tc := ⟨.hbm, 147, rfl⟩
abbrev main_cst_21 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_22 : Ref sig .tc := ⟨.hbm, 155, rfl⟩
abbrev main_v104 : Ref sig .tc := ⟨.hbm, 156, rfl⟩
abbrev main_cst_23 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_24 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_call1_cst : Ref sig .tc := ⟨.hbm, 181, rfl⟩
abbrev main_call1_v0 : Ref sig .tc := ⟨.hbm, 182, rfl⟩
abbrev main_v127 : Ref sig .tc := ⟨.hbm, 183, rfl⟩
abbrev main_cst_25 : Ref sig .tc := ⟨.hbm, 184, rfl⟩
abbrev main_v128 : Ref sig .tc := ⟨.hbm, 185, rfl⟩
abbrev main_cst_26 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_cst_27 : Ref sig .tc := ⟨.hbm, 193, rfl⟩
abbrev main_v135 : Ref sig .tc := ⟨.hbm, 194, rfl⟩
abbrev main_cst_28 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_29 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_30 : Ref sig .tc := ⟨.hbm, 221, rfl⟩
abbrev main_v160 : Ref sig .tc := ⟨.hbm, 222, rfl⟩
abbrev main_v161 : Ref sig .tc := ⟨.hbm, 223, rfl⟩
abbrev main_cst_31 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  transposes_S128x384_S384x128_1_0 : S128x384.Transposes [1, 0] S384x128
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  transposes_S128x768_S768x128_1_0 : S128x768.Transposes [1, 0] S768x128
  bcast_S_S4096 : S_.BroadcastsInDim S4096 (![] : Fin 0 → Fin S4096.rank)
  bcast_S4096_S4096x1_0 : S4096.BroadcastsInDim S4096x1 (![0] : Fin 1 → Fin S4096x1.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  concatenates_S4096x50x4_S4096x50x4_S4096x100x4_d1 : Shape.Concatenates [S4096x50x4, S4096x50x4] S4096x100x4 1
  shapeCasts_S4096x100x4_S4096x400 : S4096x100x4.ShapeCasts S4096x400
  bcast_S_S4096x1024 : S_.BroadcastsInDim S4096x1024 (![] : Fin 0 → Fin S4096x1024.rank)
  bcast_S_S4096x1 : S_.BroadcastsInDim S4096x1 (![] : Fin 0 → Fin S4096x1.rank)
  bcast_S_S4096x400 : S_.BroadcastsInDim S4096x400 (![] : Fin 0 → Fin S4096x400.rank)
  bcast_S4096x1_S4096x400_0_1 : S4096x1.BroadcastsInDim S4096x400 (![0, 1] : Fin 2 → Fin S4096x400.rank)
  bcast_S4096x400_S4096x400x1_0_1 : S4096x400.BroadcastsInDim S4096x400x1 (![0, 1] : Fin 2 → Fin S4096x400x1.rank)
  concatenates_S4096x400x1_S4096x400x1_S4096x400x2_d2 : Shape.Concatenates [S4096x400x1, S4096x400x1] S4096x400x2 2
  reducesTo_S4096x1024_S4096_d1 : S4096x1024.ReducesTo [1] S4096
  h_S_ : 0 < S_.numel
  bcast_S4096x1_S4096x128_0_1 : S4096x1.BroadcastsInDim S4096x128 (![0, 1] : Fin 2 → Fin S4096x128.rank)
  concatenates_S4096x128_S4096x128_S4096x256_d1 : Shape.Concatenates [S4096x128, S4096x128] S4096x256 1
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  reducesTo_S4096x128_S128_d0 : S4096x128.ReducesTo [0] S128
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  reducesTo_S4096x64_S64_d0 : S4096x64.ReducesTo [0] S64
  bcast_S_S64 : S_.BroadcastsInDim S64 (![] : Fin 0 → Fin S64.rank)
  transposes_S1x64_S64x1_1_0 : S1x64.Transposes [1, 0] S64x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S100000x384_S384x128_S100000x128_1_0_0_1_n_n_wf : DotDims.WF S100000x384 S384x128 S100000x128 [1] [0] [0] [1] [] []
  dot_S100000x768_S768x128_S100000x128_1_0_0_1_n_n_wf : DotDims.WF S100000x768 S768x128 S100000x128 [1] [0] [0] [1] [] []
  gather_S100000x128_S4096x1_S4096x128_1_0_n_n_0_1_1128_wf : GatherDims.WF S100000x128 S4096x1 S4096x128 [1] [0] [] [0] [] 1 ![1, 128]
  gather_S4x128_S4096x1_S4096x128_1_0_n_n_0_1_1128_wf : GatherDims.WF S4x128 S4096x1 S4096x128 [1] [0] [] [0] [] 1 ![1, 128]
  gather_S200000x4_S4096x50x1_S4096x50x4_2_0_n_n_0_2_14_wf : GatherDims.WF S200000x4 S4096x50x1 S4096x50x4 [2] [0] [] [0] [] 2 ![1, 4]
  scatter_S4096x1024_S4096x400x2_S4096x400_n_01_01_2_wf : ScatterDims.WF S4096x1024 S4096x400x2 S4096x400 [] [0, 1] [0, 1] 2
  dot_S4096x1024_S1024x128_S4096x128_1_0_0_1_n_n_wf : DotDims.WF S4096x1024 S1024x128 S4096x128 [1] [0] [0] [1] [] []
  dot_S4096x256_S256x128_S4096x128_1_0_0_1_n_n_wf : DotDims.WF S4096x256 S256x128 S4096x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []

variable [Facts₀]

def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S4x128_S4096x1_S4096x128_1_0_n_n_0_1_1128 : GatherDims S4x128 S4096x1 S4096x128 where
  offsetDims := [1]
  collapsedSliceDims := [0]
  operandBatchingDims := []
  startIndicesBatchingDims := []
  startIndexMap := [0]
  indexVectorDim := 1
  sliceSizes := ![1, 128]
  wf := gather_S4x128_S4096x1_S4096x128_1_0_n_n_0_1_1128_wf
def gather_S200000x4_S4096x50x1_S4096x50x4_2_0_n_n_0_2_14 : GatherDims S200000x4 S4096x50x1 S4096x50x4 where
  offsetDims := [2]
  collapsedSliceDims := [0]
  operandBatchingDims := []
  startIndicesBatchingDims := []
  startIndexMap := [0]
  indexVectorDim := 2
  sliceSizes := ![1, 4]
  wf := gather_S200000x4_S4096x50x1_S4096x50x4_2_0_n_n_0_2_14_wf
def scatter_S4096x1024_S4096x400x2_S4096x400_n_01_01_2 : ScatterDims S4096x1024 S4096x400x2 S4096x400 where
  updateWindowDims := []
  insertedWindowDims := [0, 1]
  scatterDimsToOperandDims := [0, 1]
  indexVectorDim := 2
  wf := scatter_S4096x1024_S4096x400x2_S4096x400_n_01_01_2_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.RefRunA.lean ====
/-
  The reference's host program read stretch by stretch, first half. Its 203 operations are cut into four
  consecutive lists; a stretch is read from an ARBITRARY start valuation `W`, so that what an earlier stretch
  computed enters a later one as a value it finds, not as a term it rebuilds. Stretch 1 (through the merged ids)
  gathers the prompt rows and the merged ids and projects the two tables; stretch 2 (through the first layer)
  builds the presence mask, the segment mean and the first layer. Each value a later stretch or the result needs
  is the stage `val_main_vN` of the arguments; every other buffer named below is left as found.
-/
import proofs.«413471_j87076166959612_3_alg».proof.Proof.RefRead
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

namespace Cert.Bridge

variable {F : FTy → Type} [FloatOps F]
variable (W : Valuation τ sig (Elt F))

/-! ## Stretch 1 -/

/-- The buffers stretch 1 writes, in program order. -/
noncomputable def wr1 : List (Ref sig .tc) :=
  [main_v0, main_v1, main_v2, main_v3, main_v4, main_v5, main_v6, main_v7, main_v8, main_v9,
   main_c, main_v10, main_v11, main_c_0, main_v12, main_v13, main_v14, main_v15, main_v16, main_c_1,
   main_v17, main_v18, main_c_2, main_v19, main_v20, main_v21, main_v22, main_v23, main_c_3, main_v24,
   main_v25, main_c_4, main_v26, main_v27, main_v28, main_v29, main_v30, main_c_5, main_v31, main_v32,
   main_c_6, main_v33, main_v34, main_v35, main_v36, main_v37, main_c_7, main_v38, main_v39, main_c_8,
   main_v40, main_v41, main_c_9, main_v42, main_v43, main_v44, main_v45, main_v46, main_v47, main_v48]

/-- Every operation of stretch 1 writes one of them, so a buffer outside the list keeps its contents over the stretch. -/
theorem ops1_writes : (ops1 : List (HloOp τ sig (Elt F))).Forall
    fun op => op.writes ⊆ (wr1.map (Proc.devRef (τ := τ) .tc)).toFinset := by
  simp only [ops1, List.Forall, nullary_writes, unary_writes, binary_writes, ternary_writes, reshape_writes]
  repeat' apply And.intro
  all_goals exact Finset.singleton_subset_iff.mpr (List.mem_toFinset.mpr (List.mem_map_of_mem (by decide)))

theorem s1_v4 : after ops1 W (Proc.devRef .tc main_v4) = val_main_v4 (F := F) (W (Proc.devRef .tc main_arg6)) (W (Proc.devRef .tc main_arg8)) (W (Proc.devRef .tc main_arg9)) := by
  after_results_simp <;> rfl
theorem s1_v9 : after ops1 W (Proc.devRef .tc main_v9) = val_main_v9 (F := F) (W (Proc.devRef .tc main_arg7)) (W (Proc.devRef .tc main_arg10)) (W (Proc.devRef .tc main_arg11)) := by
  after_results_simp <;> rfl
theorem s1_v16 : after ops1 W (Proc.devRef .tc main_v16) = val_main_v16 (F := F) (W (Proc.devRef .tc main_arg0)) (W (Proc.devRef .tc main_arg12)) := by
  after_results_simp <;> rfl
theorem s1_v23 : after ops1 W (Proc.devRef .tc main_v23) = val_main_v23 (F := F) (W (Proc.devRef .tc main_arg1)) (W (Proc.devRef .tc main_arg13)) := by
  after_results_simp <;> rfl
theorem s1_v30 : after ops1 W (Proc.devRef .tc main_v30) = val_main_v30 (F := F) (W (Proc.devRef .tc main_arg2)) (W (Proc.devRef .tc main_arg14)) := by
  after_results_simp <;> rfl
theorem s1_v48 : after ops1 W (Proc.devRef .tc main_v48) = val_main_v48 (F := F) (W (Proc.devRef .tc main_arg3)) (W (Proc.devRef .tc main_arg4)) := by
  after_results_simp
  -- the two gathered halves stand inside the joined list: name each, read it, put its stage back
  generalize hA : (binary main_arg4 main_v45 main_v46 _ _ _ _).result _ (Proc.devRef .tc main_v37) = A
  generalize hB : (binary main_arg4 main_v45 main_v46 _ _ _ _).result _ (Proc.devRef .tc main_v46) = B
  have eA : A = val_main_v37 (F := F) (W (Proc.devRef .tc main_arg3)) (W (Proc.devRef .tc main_arg4)) := by
    rw [← hA]; after_results_simp <;> rfl
  have eB : B = val_main_v46 (F := F) (W (Proc.devRef .tc main_arg3)) (W (Proc.devRef .tc main_arg4)) := by
    rw [← hB]; after_results_simp <;> rfl
  rw [eA, eB]
  rfl
theorem s1_keep_arg0 : after ops1 W (Proc.devRef .tc main_arg0) = W (Proc.devRef .tc main_arg0) := by
  exact after_of_writes_sub ops1 W ops1_writes (by decide)
theorem s1_keep_arg1 : after ops1 W (Proc.devRef .tc main_arg1) = W (Proc.devRef .tc main_arg1) := by
  exact after_of_writes_sub ops1 W ops1_writes (by decide)
theorem s1_keep_arg2 : after ops1 W (Proc.devRef .tc main_arg2) = W (Proc.devRef .tc main_arg2) := by
  exact after_of_writes_sub ops1 W ops1_writes (by decide)
theorem s1_keep_arg3 : after ops1 W (Proc.devRef .tc main_arg3) = W (Proc.devRef .tc main_arg3) := by
  exact after_of_writes_sub ops1 W ops1_writes (by decide)
theorem s1_keep_arg4 : after ops1 W (Proc.devRef .tc main_arg4) = W (Proc.devRef .tc main_arg4) := by
  exact after_of_writes_sub ops1 W ops1_writes (by decide)
theorem s1_keep_arg5 : after ops1 W (Proc.devRef .tc main_arg5) = W (Proc.devRef .tc main_arg5) := by
  exact after_of_writes_sub ops1 W ops1_writes (by decide)
theorem s1_keep_arg6 : after ops1 W (Proc.devRef .tc main_arg6) = W (Proc.devRef .tc main_arg6) := by
  exact after_of_writes_sub ops1 W ops1_writes (by decide)
theorem s1_keep_arg7 : after ops1 W (Proc.devRef .tc main_arg7) = W (Proc.devRef .tc main_arg7) := by
  exact after_of_writes_sub ops1 W ops1_writes (by decide)
theorem s1_keep_arg8 : after ops1 W (Proc.devRef .tc main_arg8) = W (Proc.devRef .tc main_arg8) := by
  exact after_of_writes_sub ops1 W ops1_writes (by decide)
theorem s1_keep_arg9 : after ops1 W (Proc.devRef .tc main_arg9) = W (Proc.devRef .tc main_arg9) := by
  exact after_of_writes_sub ops1 W ops1_writes (by decide)
theorem s1_keep_arg10 : after ops1 W (Proc.devRef .tc main_arg10) = W (Proc.devRef .tc main_arg10) := by
  exact after_of_writes_sub ops1 W ops1_writes (by decide)
theorem s1_keep_arg11 : after ops1 W (Proc.devRef .tc main_arg11) = W (Proc.devRef .tc main_arg11) := by
  exact after_of_writes_sub ops1 W ops1_writes (by decide)
theorem s1_keep_arg12 : after ops1 W (Proc.devRef .tc main_arg12) = W (Proc.devRef .tc main_arg12) := by
  exact after_of_writes_sub ops1 W ops1_writes (by decide)
theorem s1_keep_arg13 : after ops1 W (Proc.devRef .tc main_arg13) = W (Proc.devRef .tc main_arg13) := by
  exact after_of_writes_sub ops1 W ops1_writes (by decide)
theorem s1_keep_arg14 : after ops1 W (Proc.devRef .tc main_arg14) = W (Proc.devRef .tc main_arg14) := by
  exact after_of_writes_sub ops1 W ops1_writes (by decide)
theorem s1_keep_arg15 : after ops1 W (Proc.devRef .tc main_arg15) = W (Proc.devRef .tc main_arg15) := by
  exact after_of_writes_sub ops1 W ops1_writes (by decide)
theorem s1_keep_arg16 : after ops1 W (Proc.devRef .tc main_arg16) = W (Proc.devRef .tc main_arg16) := by
  exact after_of_writes_sub ops1 W ops1_writes (by decide)
theorem s1_keep_arg17 : after ops1 W (Proc.devRef .tc main_arg17) = W (Proc.devRef .tc main_arg17) := by
  exact after_of_writes_sub ops1 W ops1_writes (by decide)
theorem s1_keep_arg18 : after ops1 W (Proc.devRef .tc main_arg18) = W (Proc.devRef .tc main_arg18) := by
  exact after_of_writes_sub ops1 W ops1_writes (by decide)
theorem s1_keep_arg19 : after ops1 W (Proc.devRef .tc main_arg19) = W (Proc.devRef .tc main_arg19) := by
  exact after_of_writes_sub ops1 W ops1_writes (by decide)
theorem s1_keep_arg20 : after ops1 W (Proc.devRef .tc main_arg20) = W (Proc.devRef .tc main_arg20) := by
  exact after_of_writes_sub ops1 W ops1_writes (by decide)
theorem s1_keep_arg21 : after ops1 W (Proc.devRef .tc main_arg21) = W (Proc.devRef .tc main_arg21) := by
  exact after_of_writes_sub ops1 W ops1_writes (by decide)
theorem s1_keep_arg22 : after ops1 W (Proc.devRef .tc main_arg22) = W (Proc.devRef .tc main_arg22) := by
  exact after_of_writes_sub ops1 W ops1_writes (by decide)
theorem s1_keep_arg23 : after ops1 W (Proc.devRef .tc main_arg23) = W (Proc.devRef .tc main_arg23) := by
  exact after_of_writes_sub ops1 W ops1_writes (by decide)
theorem s1_keep_arg24 : after ops1 W (Proc.devRef .tc main_arg24) = W (Proc.devRef .tc main_arg24) := by
  exact after_of_writes_sub ops1 W ops1_writes (by decide)

/-! ## Stretch 2 -/

/-- The buffers stretch 2 writes, in program order. -/
noncomputable def wr2 : List (Ref sig .tc) :=
  [main_v49, main_v50, main_cst, main_v51, main_c_10, main_v52, main_v53, main_c_11, main_v54, main_v55,
   main_v56, main_c_12, main_v57, main_v58, main_c_13, main_v59, main_v60, main_v61, main_v62, main_v63,
   main_v64, main_v65, main_cst_14, main_v66, main_v67, main_cst_15, main_v68, main_v69, main_v70, main_v71,
   main_v72, main_c_16, main_v73, main_v74, main_c_17, main_v75, main_v76, main_v77, main_v78, main_v79,
   main_c_18, main_v80, main_v81, main_c_19, main_v82, main_v83, main_v84, main_v85, main_v86, main_v87,
   main_v88, main_v89, main_v90, main_v91, main_v92, main_v93, main_v94, main_v95, main_call0_cst, main_call0_v0,
   main_v96]

/-- Every operation of stretch 2 writes one of them, so a buffer outside the list keeps its contents over the stretch. -/
theorem ops2_writes : (ops2 : List (HloOp τ sig (Elt F))).Forall
    fun op => op.writes ⊆ (wr2.map (Proc.devRef (τ := τ) .tc)).toFinset := by
  simp only [ops2, List.Forall, nullary_writes, unary_writes, binary_writes, ternary_writes, reshape_writes]
  repeat' apply And.intro
  all_goals exact Finset.singleton_subset_iff.mpr (List.mem_toFinset.mpr (List.mem_map_of_mem (by decide)))

theorem s2_v72 (x3 : (⟨S4096x50, .i32⟩ : BufTy).Contents (Elt F)) (x4 : (⟨S200000x4, .i32⟩ : BufTy).Contents (Elt F)) (x5 : (⟨S1024x128, .f32⟩ : BufTy).Contents (Elt F)) (h48 : W (Proc.devRef .tc main_v48) = val_main_v48 (F := F) x3 x4) (h5 : W (Proc.devRef .tc main_arg5) = x5) :
    after ops2 W (Proc.devRef .tc main_v72) = val_main_v72 (F := F) x3 x4 x5 := by
  after_results_simp
  -- the two index columns stand inside the joined list: name each, read it, put its stage back
  generalize hA : (unary main_v61 main_v64 _ _ _).result _ (Proc.devRef .tc main_v63) = A
  generalize hB : (unary main_v61 main_v64 _ _ _).result _ (Proc.devRef .tc main_v64) = B
  have eA : A = val_main_v63 (F := F) := by
    rw [← hA]; after_results_simp <;> rfl
  have eB : B = val_main_v64 (F := F) x3 x4 := by
    rw [← hB]; after_results_simp; rw [h48]; rfl
  rw [eA, eB, h5]
  rfl

set_option maxHeartbeats 1000000 in
theorem s2_v96 (x1 : (⟨S4096, .i32⟩ : BufTy).Contents (Elt F)) (x2 : (⟨S4096, .i32⟩ : BufTy).Contents (Elt F)) (x3 : (⟨S4096x50, .i32⟩ : BufTy).Contents (Elt F)) (x4 : (⟨S200000x4, .i32⟩ : BufTy).Contents (Elt F)) (x5 : (⟨S1024x128, .f32⟩ : BufTy).Contents (Elt F)) (x6 : (⟨S100000x384, .f32⟩ : BufTy).Contents (Elt F)) (x7 : (⟨S100000x768, .f32⟩ : BufTy).Contents (Elt F)) (x8 : (⟨S128x384, .f32⟩ : BufTy).Contents (Elt F)) (x9 : (⟨S384, .f32⟩ : BufTy).Contents (Elt F)) (x10 : (⟨S128x768, .f32⟩ : BufTy).Contents (Elt F)) (x11 : (⟨S768, .f32⟩ : BufTy).Contents (Elt F)) (x13 : (⟨S100000x128, .f32⟩ : BufTy).Contents (Elt F)) (x14 : (⟨S4x128, .f32⟩ : BufTy).Contents (Elt F)) (x15 : (⟨S128x256, .f32⟩ : BufTy).Contents (Elt F)) (x16 : (⟨S128, .f32⟩ : BufTy).Contents (Elt F))
    (h48 : W (Proc.devRef .tc main_v48) = val_main_v48 (F := F) x3 x4) (h4 : W (Proc.devRef .tc main_v4) = val_main_v4 (F := F) x6 x8 x9)
    (h9 : W (Proc.devRef .tc main_v9) = val_main_v9 (F := F) x7 x10 x11) (h23 : W (Proc.devRef .tc main_v23) = val_main_v23 (F := F) x1 x13)
    (h30 : W (Proc.devRef .tc main_v30) = val_main_v30 (F := F) x2 x14) (h1 : W (Proc.devRef .tc main_arg1) = x1) (h5 : W (Proc.devRef .tc main_arg5) = x5) (h15 : W (Proc.devRef .tc main_arg15) = x15) (h16 : W (Proc.devRef .tc main_arg16) = x16) :
    after ops2 W (Proc.devRef .tc main_v96) = val_main_v96 (F := F) x1 x2 x3 x4 x5 x6 x7 x8 x9 x10 x11 x13 x14 x15 x16 := by
  after_results_simp
  -- the two halves of the joined feature stand inside a list: name each, read it, put its stage back
  generalize hP : (binary main_v88 main_v86 main_v89 _ _ _ _).result _ (Proc.devRef .tc main_v87) = P
  generalize hQ : (binary main_v88 main_v86 main_v89 _ _ _ _).result _ (Proc.devRef .tc main_v89) = Q
  have eP : P = val_main_v87 (F := F) x2 x3 x4 x5 x14 := by
    rw [← hP]; after_results_simp
    -- inside the history half, the two index columns again
    generalize hA : (unary main_v61 main_v64 _ _ _).result _ (Proc.devRef .tc main_v63) = A
    generalize hB : (unary main_v61 main_v64 _ _ _).result _ (Proc.devRef .tc main_v64) = B
    have eA : A = val_main_v63 (F := F) := by
      rw [← hA]; after_results_simp <;> rfl
    have eB : B = val_main_v64 (F := F) x3 x4 := by
      rw [← hB]; after_results_simp; rw [h48]; rfl
    rw [eA, eB, h5, h30]
    rfl
  have eQ : Q = val_main_v89 (F := F) x1 x6 x7 x8 x9 x10 x11 x13 := by
    rw [← hQ]; after_results_simp; rw [h1, h4, h9, h23]; rfl
  rw [eP, eQ, h15, h16]
  rfl
theorem s2_keep_v16 : after ops2 W (Proc.devRef .tc main_v16) = W (Proc.devRef .tc main_v16) := by
  exact after_of_writes_sub ops2 W ops2_writes (by decide)
theorem s2_keep_v30 : after ops2 W (Proc.devRef .tc main_v30) = W (Proc.devRef .tc main_v30) := by
  exact after_of_writes_sub ops2 W ops2_writes (by decide)
theorem s2_keep_arg0 : after ops2 W (Proc.devRef .tc main_arg0) = W (Proc.devRef .tc main_arg0) := by
  exact after_of_writes_sub ops2 W ops2_writes (by decide)
theorem s2_keep_arg1 : after ops2 W (Proc.devRef .tc main_arg1) = W (Proc.devRef .tc main_arg1) := by
  exact after_of_writes_sub ops2 W ops2_writes (by decide)
theorem s2_keep_arg2 : after ops2 W (Proc.devRef .tc main_arg2) = W (Proc.devRef .tc main_arg2) := by
  exact after_of_writes_sub ops2 W ops2_writes (by decide)
theorem s2_keep_arg3 : after ops2 W (Proc.devRef .tc main_arg3) = W (Proc.devRef .tc main_arg3) := by
  exact after_of_writes_sub ops2 W ops2_writes (by decide)
theorem s2_keep_arg4 : after ops2 W (Proc.devRef .tc main_arg4) = W (Proc.devRef .tc main_arg4) := by
  exact after_of_writes_sub ops2 W ops2_writes (by decide)
theorem s2_keep_arg5 : after ops2 W (Proc.devRef .tc main_arg5) = W (Proc.devRef .tc main_arg5) := by
  exact after_of_writes_sub ops2 W ops2_writes (by decide)
theorem s2_keep_arg6 : after ops2 W (Proc.devRef .tc main_arg6) = W (Proc.devRef .tc main_arg6) := by
  exact after_of_writes_sub ops2 W ops2_writes (by decide)
theorem s2_keep_arg7 : after ops2 W (Proc.devRef .tc main_arg7) = W (Proc.devRef .tc main_arg7) := by
  exact after_of_writes_sub ops2 W ops2_writes (by decide)
theorem s2_keep_arg8 : after ops2 W (Proc.devRef .tc main_arg8) = W (Proc.devRef .tc main_arg8) := by
  exact after_of_writes_sub ops2 W ops2_writes (by decide)
theorem s2_keep_arg9 : after ops2 W (Proc.devRef .tc main_arg9) = W (Proc.devRef .tc main_arg9) := by
  exact after_of_writes_sub ops2 W ops2_writes (by decide)
theorem s2_keep_arg10 : after ops2 W (Proc.devRef .tc main_arg10) = W (Proc.devRef .tc main_arg10) := by
  exact after_of_writes_sub ops2 W ops2_writes (by decide)
theorem s2_keep_arg11 : after ops2 W (Proc.devRef .tc main_arg11) = W (Proc.devRef .tc main_arg11) := by
  exact after_of_writes_sub ops2 W ops2_writes (by decide)
theorem s2_keep_arg12 : after ops2 W (Proc.devRef .tc main_arg12) = W (Proc.devRef .tc main_arg12) := by
  exact after_of_writes_sub ops2 W ops2_writes (by decide)
theorem s2_keep_arg13 : after ops2 W (Proc.devRef .tc main_arg13) = W (Proc.devRef .tc main_arg13) := by
  exact after_of_writes_sub ops2 W ops2_writes (by decide)
theorem s2_keep_arg14 : after ops2 W (Proc.devRef .tc main_arg14) = W (Proc.devRef .tc main_arg14) := by
  exact after_of_writes_sub ops2 W ops2_writes (by decide)
theorem s2_keep_arg15 : after ops2 W (Proc.devRef .tc main_arg15) = W (Proc.devRef .tc main_arg15) := by
  exact after_of_writes_sub ops2 W ops2_writes (by decide)
theorem s2_keep_arg16 : after ops2 W (Proc.devRef .tc main_arg16) = W (Proc.devRef .tc main_arg16) := by
  exact after_of_writes_sub ops2 W ops2_writes (by decide)
theorem s2_keep_arg17 : after ops2 W (Proc.devRef .tc main_arg17) = W (Proc.devRef .tc main_arg17) := by
  exact after_of_writes_sub ops2 W ops2_writes (by decide)
theorem s2_keep_arg18 : after ops2 W (Proc.devRef .tc main_arg18) = W (Proc.devRef .tc main_arg18) := by
  exact after_of_writes_sub ops2 W ops2_writes (by decide)
theorem s2_keep_arg19 : after ops2 W (Proc.devRef .tc main_arg19) = W (Proc.devRef .tc main_arg19) := by
  exact after_of_writes_sub ops2 W ops2_writes (by decide)
theorem s2_keep_arg20 : after ops2 W (Proc.devRef .tc main_arg20) = W (Proc.devRef .tc main_arg20) := by
  exact after_of_writes_sub ops2 W ops2_writes (by decide)
theorem s2_keep_arg21 : after ops2 W (Proc.devRef .tc main_arg21) = W (Proc.devRef .tc main_arg21) := by
  exact after_of_writes_sub ops2 W ops2_writes (by decide)
theorem s2_keep_arg22 : after ops2 W (Proc.devRef .tc main_arg22) = W (Proc.devRef .tc main_arg22) := by
  exact after_of_writes_sub ops2 W ops2_writes (by decide)
theorem s2_keep_arg23 : after ops2 W (Proc.devRef .tc main_arg23) = W (Proc.devRef .tc main_arg23) := by
  exact after_of_writes_sub ops2 W ops2_writes (by decide)
theorem s2_keep_arg24 : after ops2 W (Proc.devRef .tc main_arg24) = W (Proc.devRef .tc main_arg24) := by
  exact after_of_writes_sub ops2 W ops2_writes (by decide)

end Cert.Bridge

end
-- ==== Proof.RefRunB.lean ====
/-
  The reference's host program read stretch by stretch, second half (see RefRunA.lean for the first). Stretch 3
  starts from the first layer `main_v96` as a value it finds: the first column normalisation, the second layer
  and the second normalisation's scaled centred array `main_v143` and reciprocal deviation `main_v147`. Stretch 4
  finishes the normalisation, the last layer and the logistic. Because a stretch takes the earlier values as it
  finds them, the several uses of one array inside a normalisation never multiply an earlier stretch's term.
-/
import proofs.«413471_j87076166959612_3_alg».proof.Proof.RefRead
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

namespace Cert.Bridge

variable {F : FTy → Type} [FloatOps F]
variable (W : Valuation τ sig (Elt F))

/-! ## What a stretch writes, and what it therefore leaves alone -/

/-- The buffers stretch 3 writes: one per operation, in order. -/
abbrev ops3_W : List (Ref sig .tc) :=
  [main_cst_20, main_v97, main_cst_21, main_v98, main_v99, main_v100, main_v101, main_v102, main_v103, main_cst_22, main_v104, main_cst_23,
    main_v105, main_v106, main_v107, main_v108, main_v109, main_v110, main_v111, main_v112, main_cst_24, main_v113, main_v114, main_v115,
    main_v116, main_v117, main_v118, main_v119, main_v120, main_v121, main_v122, main_v123, main_v124, main_v125, main_v126, main_call1_cst,
    main_call1_v0, main_v127, main_cst_25, main_v128, main_cst_26, main_v129, main_v130, main_v131, main_v132, main_v133, main_v134, main_cst_27,
    main_v135, main_cst_28, main_v136, main_v137, main_v138, main_v139, main_v140, main_v141, main_v142, main_v143, main_cst_29, main_v144,
    main_v145, main_v146, main_v147]

/-- The buffers stretch 4 writes. -/
abbrev ops4_W : List (Ref sig .tc) :=
  [main_v148, main_v149, main_v150, main_v151, main_v152, main_v153, main_v154, main_v155, main_v156, main_v157, main_v158, main_v159,
    main_cst_30, main_v160, main_v161, main_cst_31, main_v162, main_v163, main_v164]

/-- Each operation of stretch 3 writes its own result buffer, which is on the list. -/
theorem ops3_writes : (ops3 : List (HloOp τ sig (Elt F))).Forall fun op => op.writes ⊆ (ops3_W.map (Proc.devRef (τ := τ) .tc)).toFinset := by
  simp only [List.Forall, nullary_writes, unary_writes, binary_writes, reshape_writes, Finset.singleton_subset_iff, List.mem_toFinset]
  repeat' apply And.intro
  all_goals exact List.mem_map_of_mem (by decide)

/-- Each operation of stretch 4 writes its own result buffer, which is on the list. -/
theorem ops4_writes : (ops4 : List (HloOp τ sig (Elt F))).Forall fun op => op.writes ⊆ (ops4_W.map (Proc.devRef (τ := τ) .tc)).toFinset := by
  simp only [List.Forall, nullary_writes, unary_writes, binary_writes, reshape_writes, Finset.singleton_subset_iff, List.mem_toFinset]
  repeat' apply And.intro
  all_goals exact List.mem_map_of_mem (by decide)

/-- A buffer off a stretch's list of written buffers is, after the stretch, as it was found. -/
local macro "kept " ops:ident wr:ident : tactic => `(tactic| exact after_of_writes_sub $ops _ $wr (by decide))

/-! ## Stretch 3 -/

theorem s3_v143 (x1 : (⟨S4096, .i32⟩ : BufTy).Contents (Elt F)) (x2 : (⟨S4096, .i32⟩ : BufTy).Contents (Elt F)) (x3 : (⟨S4096x50, .i32⟩ : BufTy).Contents (Elt F)) (x4 : (⟨S200000x4, .i32⟩ : BufTy).Contents (Elt F)) (x5 : (⟨S1024x128, .f32⟩ : BufTy).Contents (Elt F)) (x6 : (⟨S100000x384, .f32⟩ : BufTy).Contents (Elt F)) (x7 : (⟨S100000x768, .f32⟩ : BufTy).Contents (Elt F)) (x8 : (⟨S128x384, .f32⟩ : BufTy).Contents (Elt F)) (x9 : (⟨S384, .f32⟩ : BufTy).Contents (Elt F)) (x10 : (⟨S128x768, .f32⟩ : BufTy).Contents (Elt F)) (x11 : (⟨S768, .f32⟩ : BufTy).Contents (Elt F)) (x13 : (⟨S100000x128, .f32⟩ : BufTy).Contents (Elt F)) (x14 : (⟨S4x128, .f32⟩ : BufTy).Contents (Elt F)) (x15 : (⟨S128x256, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S64x128, .f32⟩ : BufTy).Contents (Elt F)) (x20 : (⟨S64, .f32⟩ : BufTy).Contents (Elt F)) (x21 : (⟨S64, .f32⟩ : BufTy).Contents (Elt F)) (h96 : W (Proc.devRef .tc main_v96) = val_main_v96 (F := F) x1 x2 x3 x4 x5 x6 x7 x8 x9 x10 x11 x13 x14 x15 x16) (h17 : W (Proc.devRef .tc main_arg17) = x17) (h18 : W (Proc.devRef .tc main_arg18) = x18) (h19 : W (Proc.devRef .tc main_arg19) = x19) (h20 : W (Proc.devRef .tc main_arg20) = x20) (h21 : W (Proc.devRef .tc main_arg21) = x21) :
    after ops3 W (Proc.devRef .tc main_v143) = val_main_v143 (F := F) x1 x2 x3 x4 x5 x6 x7 x8 x9 x10 x11 x13 x14 x15 x16 x17 x18 x19 x20 x21 := by
  after_results_simp
  rw [h96, h17, h18, h19, h20, h21]
  rfl

theorem s3_v147 (x1 : (⟨S4096, .i32⟩ : BufTy).Contents (Elt F)) (x2 : (⟨S4096, .i32⟩ : BufTy).Contents (Elt F)) (x3 : (⟨S4096x50, .i32⟩ : BufTy).Contents (Elt F)) (x4 : (⟨S200000x4, .i32⟩ : BufTy).Contents (Elt F)) (x5 : (⟨S1024x128, .f32⟩ : BufTy).Contents (Elt F)) (x6 : (⟨S100000x384, .f32⟩ : BufTy).Contents (Elt F)) (x7 : (⟨S100000x768, .f32⟩ : BufTy).Contents (Elt F)) (x8 : (⟨S128x384, .f32⟩ : BufTy).Contents (Elt F)) (x9 : (⟨S384, .f32⟩ : BufTy).Contents (Elt F)) (x10 : (⟨S128x768, .f32⟩ : BufTy).Contents (Elt F)) (x11 : (⟨S768, .f32⟩ : BufTy).Contents (Elt F)) (x13 : (⟨S100000x128, .f32⟩ : BufTy).Contents (Elt F)) (x14 : (⟨S4x128, .f32⟩ : BufTy).Contents (Elt F)) (x15 : (⟨S128x256, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S64x128, .f32⟩ : BufTy).Contents (Elt F)) (x20 : (⟨S64, .f32⟩ : BufTy).Contents (Elt F)) (h96 : W (Proc.devRef .tc main_v96) = val_main_v96 (F := F) x1 x2 x3 x4 x5 x6 x7 x8 x9 x10 x11 x13 x14 x15 x16) (h17 : W (Proc.devRef .tc main_arg17) = x17) (h18 : W (Proc.devRef .tc main_arg18) = x18) (h19 : W (Proc.devRef .tc main_arg19) = x19) (h20 : W (Proc.devRef .tc main_arg20) = x20) :
    after ops3 W (Proc.devRef .tc main_v147) = val_main_v147 (F := F) x1 x2 x3 x4 x5 x6 x7 x8 x9 x10 x11 x13 x14 x15 x16 x17 x18 x19 x20 := by
  after_results_simp
  rw [h96, h17, h18, h19, h20]
  rfl
theorem s3_keep_v16 : after ops3 W (Proc.devRef .tc main_v16) = W (Proc.devRef .tc main_v16) := by
  kept ops3 ops3_writes
theorem s3_keep_v72 : after ops3 W (Proc.devRef .tc main_v72) = W (Proc.devRef .tc main_v72) := by
  kept ops3 ops3_writes
theorem s3_keep_v30 : after ops3 W (Proc.devRef .tc main_v30) = W (Proc.devRef .tc main_v30) := by
  kept ops3 ops3_writes
theorem s3_keep_arg0 : after ops3 W (Proc.devRef .tc main_arg0) = W (Proc.devRef .tc main_arg0) := by
  kept ops3 ops3_writes
theorem s3_keep_arg1 : after ops3 W (Proc.devRef .tc main_arg1) = W (Proc.devRef .tc main_arg1) := by
  kept ops3 ops3_writes
theorem s3_keep_arg2 : after ops3 W (Proc.devRef .tc main_arg2) = W (Proc.devRef .tc main_arg2) := by
  kept ops3 ops3_writes
theorem s3_keep_arg3 : after ops3 W (Proc.devRef .tc main_arg3) = W (Proc.devRef .tc main_arg3) := by
  kept ops3 ops3_writes
theorem s3_keep_arg4 : after ops3 W (Proc.devRef .tc main_arg4) = W (Proc.devRef .tc main_arg4) := by
  kept ops3 ops3_writes
theorem s3_keep_arg5 : after ops3 W (Proc.devRef .tc main_arg5) = W (Proc.devRef .tc main_arg5) := by
  kept ops3 ops3_writes
theorem s3_keep_arg6 : after ops3 W (Proc.devRef .tc main_arg6) = W (Proc.devRef .tc main_arg6) := by
  kept ops3 ops3_writes
theorem s3_keep_arg7 : after ops3 W (Proc.devRef .tc main_arg7) = W (Proc.devRef .tc main_arg7) := by
  kept ops3 ops3_writes
theorem s3_keep_arg8 : after ops3 W (Proc.devRef .tc main_arg8) = W (Proc.devRef .tc main_arg8) := by
  kept ops3 ops3_writes
theorem s3_keep_arg9 : after ops3 W (Proc.devRef .tc main_arg9) = W (Proc.devRef .tc main_arg9) := by
  kept ops3 ops3_writes
theorem s3_keep_arg10 : after ops3 W (Proc.devRef .tc main_arg10) = W (Proc.devRef .tc main_arg10) := by
  kept ops3 ops3_writes
theorem s3_keep_arg11 : after ops3 W (Proc.devRef .tc main_arg11) = W (Proc.devRef .tc main_arg11) := by
  kept ops3 ops3_writes
theorem s3_keep_arg12 : after ops3 W (Proc.devRef .tc main_arg12) = W (Proc.devRef .tc main_arg12) := by
  kept ops3 ops3_writes
theorem s3_keep_arg13 : after ops3 W (Proc.devRef .tc main_arg13) = W (Proc.devRef .tc main_arg13) := by
  kept ops3 ops3_writes
theorem s3_keep_arg14 : after ops3 W (Proc.devRef .tc main_arg14) = W (Proc.devRef .tc main_arg14) := by
  kept ops3 ops3_writes
theorem s3_keep_arg15 : after ops3 W (Proc.devRef .tc main_arg15) = W (Proc.devRef .tc main_arg15) := by
  kept ops3 ops3_writes
theorem s3_keep_arg16 : after ops3 W (Proc.devRef .tc main_arg16) = W (Proc.devRef .tc main_arg16) := by
  kept ops3 ops3_writes
theorem s3_keep_arg17 : after ops3 W (Proc.devRef .tc main_arg17) = W (Proc.devRef .tc main_arg17) := by
  kept ops3 ops3_writes
theorem s3_keep_arg18 : after ops3 W (Proc.devRef .tc main_arg18) = W (Proc.devRef .tc main_arg18) := by
  kept ops3 ops3_writes
theorem s3_keep_arg19 : after ops3 W (Proc.devRef .tc main_arg19) = W (Proc.devRef .tc main_arg19) := by
  kept ops3 ops3_writes
theorem s3_keep_arg20 : after ops3 W (Proc.devRef .tc main_arg20) = W (Proc.devRef .tc main_arg20) := by
  kept ops3 ops3_writes
theorem s3_keep_arg21 : after ops3 W (Proc.devRef .tc main_arg21) = W (Proc.devRef .tc main_arg21) := by
  kept ops3 ops3_writes
theorem s3_keep_arg22 : after ops3 W (Proc.devRef .tc main_arg22) = W (Proc.devRef .tc main_arg22) := by
  kept ops3 ops3_writes
theorem s3_keep_arg23 : after ops3 W (Proc.devRef .tc main_arg23) = W (Proc.devRef .tc main_arg23) := by
  kept ops3 ops3_writes
theorem s3_keep_arg24 : after ops3 W (Proc.devRef .tc main_arg24) = W (Proc.devRef .tc main_arg24) := by
  kept ops3 ops3_writes

/-! ## Stretch 4 -/

theorem s4_v164 (x1 : (⟨S4096, .i32⟩ : BufTy).Contents (Elt F)) (x2 : (⟨S4096, .i32⟩ : BufTy).Contents (Elt F)) (x3 : (⟨S4096x50, .i32⟩ : BufTy).Contents (Elt F)) (x4 : (⟨S200000x4, .i32⟩ : BufTy).Contents (Elt F)) (x5 : (⟨S1024x128, .f32⟩ : BufTy).Contents (Elt F)) (x6 : (⟨S100000x384, .f32⟩ : BufTy).Contents (Elt F)) (x7 : (⟨S100000x768, .f32⟩ : BufTy).Contents (Elt F)) (x8 : (⟨S128x384, .f32⟩ : BufTy).Contents (Elt F)) (x9 : (⟨S384, .f32⟩ : BufTy).Contents (Elt F)) (x10 : (⟨S128x768, .f32⟩ : BufTy).Contents (Elt F)) (x11 : (⟨S768, .f32⟩ : BufTy).Contents (Elt F)) (x13 : (⟨S100000x128, .f32⟩ : BufTy).Contents (Elt F)) (x14 : (⟨S4x128, .f32⟩ : BufTy).Contents (Elt F)) (x15 : (⟨S128x256, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S64x128, .f32⟩ : BufTy).Contents (Elt F)) (x20 : (⟨S64, .f32⟩ : BufTy).Contents (Elt F)) (x21 : (⟨S64, .f32⟩ : BufTy).Contents (Elt F)) (x22 : (⟨S64, .f32⟩ : BufTy).Contents (Elt F)) (x23 : (⟨S1x64, .f32⟩ : BufTy).Contents (Elt F)) (x24 : (⟨S1, .f32⟩ : BufTy).Contents (Elt F)) (h143 : W (Proc.devRef .tc main_v143) = val_main_v143 (F := F) x1 x2 x3 x4 x5 x6 x7 x8 x9 x10 x11 x13 x14 x15 x16 x17 x18 x19 x20 x21)
    (h147 : W (Proc.devRef .tc main_v147) = val_main_v147 (F := F) x1 x2 x3 x4 x5 x6 x7 x8 x9 x10 x11 x13 x14 x15 x16 x17 x18 x19 x20) (h22 : W (Proc.devRef .tc main_arg22) = x22) (h23 : W (Proc.devRef .tc main_arg23) = x23) (h24 : W (Proc.devRef .tc main_arg24) = x24) :
    after ops4 W (Proc.devRef .tc main_v164) = val_main_v164 (F := F) x1 x2 x3 x4 x5 x6 x7 x8 x9 x10 x11 x13 x14 x15 x16 x17 x18 x19 x20 x21 x22 x23 x24 := by
  after_results_simp
  rw [h143, h147, h22, h23, h24]
  rfl
theorem s4_keep_v16 : after ops4 W (Proc.devRef .tc main_v16) = W (Proc.devRef .tc main_v16) := by
  kept ops4 ops4_writes
theorem s4_keep_v72 : after ops4 W (Proc.devRef .tc main_v72) = W (Proc.devRef .tc main_v72) := by
  kept ops4 ops4_writes
theorem s4_keep_v30 : after ops4 W (Proc.devRef .tc main_v30) = W (Proc.devRef .tc main_v30) := by
  kept ops4 ops4_writes
theorem s4_keep_arg0 : after ops4 W (Proc.devRef .tc main_arg0) = W (Proc.devRef .tc main_arg0) := by
  kept ops4 ops4_writes
theorem s4_keep_arg1 : after ops4 W (Proc.devRef .tc main_arg1) = W (Proc.devRef .tc main_arg1) := by
  kept ops4 ops4_writes
theorem s4_keep_arg2 : after ops4 W (Proc.devRef .tc main_arg2) = W (Proc.devRef .tc main_arg2) := by
  kept ops4 ops4_writes
theorem s4_keep_arg3 : after ops4 W (Proc.devRef .tc main_arg3) = W (Proc.devRef .tc main_arg3) := by
  kept ops4 ops4_writes
theorem s4_keep_arg4 : after ops4 W (Proc.devRef .tc main_arg4) = W (Proc.devRef .tc main_arg4) := by
  kept ops4 ops4_writes
theorem s4_keep_arg5 : after ops4 W (Proc.devRef .tc main_arg5) = W (Proc.devRef .tc main_arg5) := by
  kept ops4 ops4_writes
theorem s4_keep_arg6 : after ops4 W (Proc.devRef .tc main_arg6) = W (Proc.devRef .tc main_arg6) := by
  kept ops4 ops4_writes
theorem s4_keep_arg7 : after ops4 W (Proc.devRef .tc main_arg7) = W (Proc.devRef .tc main_arg7) := by
  kept ops4 ops4_writes
theorem s4_keep_arg8 : after ops4 W (Proc.devRef .tc main_arg8) = W (Proc.devRef .tc main_arg8) := by
  kept ops4 ops4_writes
theorem s4_keep_arg9 : after ops4 W (Proc.devRef .tc main_arg9) = W (Proc.devRef .tc main_arg9) := by
  kept ops4 ops4_writes
theorem s4_keep_arg10 : after ops4 W (Proc.devRef .tc main_arg10) = W (Proc.devRef .tc main_arg10) := by
  kept ops4 ops4_writes
theorem s4_keep_arg11 : after ops4 W (Proc.devRef .tc main_arg11) = W (Proc.devRef .tc main_arg11) := by
  kept ops4 ops4_writes
theorem s4_keep_arg12 : after ops4 W (Proc.devRef .tc main_arg12) = W (Proc.devRef .tc main_arg12) := by
  kept ops4 ops4_writes
theorem s4_keep_arg13 : after ops4 W (Proc.devRef .tc main_arg13) = W (Proc.devRef .tc main_arg13) := by
  kept ops4 ops4_writes
theorem s4_keep_arg14 : after ops4 W (Proc.devRef .tc main_arg14) = W (Proc.devRef .tc main_arg14) := by
  kept ops4 ops4_writes
theorem s4_keep_arg15 : after ops4 W (Proc.devRef .tc main_arg15) = W (Proc.devRef .tc main_arg15) := by
  kept ops4 ops4_writes
theorem s4_keep_arg16 : after ops4 W (Proc.devRef .tc main_arg16) = W (Proc.devRef .tc main_arg16) := by
  kept ops4 ops4_writes
theorem s4_keep_arg17 : after ops4 W (Proc.devRef .tc main_arg17) = W (Proc.devRef .tc main_arg17) := by
  kept ops4 ops4_writes
theorem s4_keep_arg18 : after ops4 W (Proc.devRef .tc main_arg18) = W (Proc.devRef .tc main_arg18) := by
  kept ops4 ops4_writes
theorem s4_keep_arg19 : after ops4 W (Proc.devRef .tc main_arg19) = W (Proc.devRef .tc main_arg19) := by
  kept ops4 ops4_writes
theorem s4_keep_arg20 : after ops4 W (Proc.devRef .tc main_arg20) = W (Proc.devRef .tc main_arg20) := by
  kept ops4 ops4_writes
theorem s4_keep_arg21 : after ops4 W (Proc.devRef .tc main_arg21) = W (Proc.devRef .tc main_arg21) := by
  kept ops4 ops4_writes
theorem s4_keep_arg22 : after ops4 W (Proc.devRef .tc main_arg22) = W (Proc.devRef .tc main_arg22) := by
  kept ops4 ops4_writes
theorem s4_keep_arg23 : after ops4 W (Proc.devRef .tc main_arg23) = W (Proc.devRef .tc main_arg23) := by
  kept ops4 ops4_writes
theorem s4_keep_arg24 : after ops4 W (Proc.devRef .tc main_arg24) = W (Proc.devRef .tc main_arg24) := by
  kept ops4 ops4_writes

end Cert.Bridge

end
-- ==== Proof.RefRunAll.lean ====
/-
  The reference's run: every weakly fair execution of its host program terminates, nothing faulting, with each
  of its four results at the stage `val_main_vN` of the launch arrays and every argument as launched. The
  program is the sequence of its 203 operations, so its final memory is the operations' fold over the launch
  contents; the fold over the whole list is the fold over the four stretches one after another, and each stretch is
  read in RefRunA.lean / RefRunB.lean.
-/
import proofs.«413471_j87076166959612_3_alg».proof.Proof.RefRead
import Idealize.ShloMosaic.Lib.StableHlo.Run
import Idealize.ShloMosaic.Lib.Pipeline.Frame
import proofs.«413471_j87076166959612_3_alg».proof.Proof.RefRunA
import proofs.«413471_j87076166959612_3_alg».proof.Proof.RefRunB

set_option maxRecDepth 16384

noncomputable section

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

namespace Cert.Bridge

variable {F : FTy → Type} [FloatOps F]

/-- The fold over the operation list is the four stretches' folds one after another. -/
theorem after_ops (W : Valuation τ sig (Elt F)) : after ops W = after ops4 (after ops3 (after ops2 (after ops1 W))) := by
  exact (congrArg (fun l => after l W) ops_split).trans
    ((StableHlo.after_append ops1 _ W).trans
      ((StableHlo.after_append ops2 _ _).trans (StableHlo.after_append ops3 ops4 _)))

namespace RunAll

variable (W : Valuation τ sig (Elt F))

/-! ## An argument further down the stretches is still the array found at the start -/

theorem keep2_arg17 : after ops2 (after ops1 W) (Proc.devRef .tc main_arg17) = W (Proc.devRef .tc main_arg17) :=
  (s2_keep_arg17 _).trans (s1_keep_arg17 W)
theorem keep2_arg18 : after ops2 (after ops1 W) (Proc.devRef .tc main_arg18) = W (Proc.devRef .tc main_arg18) :=
  (s2_keep_arg18 _).trans (s1_keep_arg18 W)
theorem keep2_arg19 : after ops2 (after ops1 W) (Proc.devRef .tc main_arg19) = W (Proc.devRef .tc main_arg19) :=
  (s2_keep_arg19 _).trans (s1_keep_arg19 W)
theorem keep2_arg20 : after ops2 (after ops1 W) (Proc.devRef .tc main_arg20) = W (Proc.devRef .tc main_arg20) :=
  (s2_keep_arg20 _).trans (s1_keep_arg20 W)
theorem keep2_arg21 : after ops2 (after ops1 W) (Proc.devRef .tc main_arg21) = W (Proc.devRef .tc main_arg21) :=
  (s2_keep_arg21 _).trans (s1_keep_arg21 W)
theorem keep3_arg22 : after ops3 (after ops2 (after ops1 W)) (Proc.devRef .tc main_arg22) = W (Proc.devRef .tc main_arg22) :=
  (s3_keep_arg22 _).trans ((s2_keep_arg22 _).trans (s1_keep_arg22 W))
theorem keep3_arg23 : after ops3 (after ops2 (after ops1 W)) (Proc.devRef .tc main_arg23) = W (Proc.devRef .tc main_arg23) :=
  (s3_keep_arg23 _).trans ((s2_keep_arg23 _).trans (s1_keep_arg23 W))
theorem keep3_arg24 : after ops3 (after ops2 (after ops1 W)) (Proc.devRef .tc main_arg24) = W (Proc.devRef .tc main_arg24) :=
  (s3_keep_arg24 _).trans ((s2_keep_arg24 _).trans (s1_keep_arg24 W))

/-! ## The stages the later stretches start from, as functions of the arrays found at the start

Each stretch's lemma takes the earlier stretches' values as hypotheses; here they are supplied, innermost stretch
first, so that every stage is the stage `val_main_vN` of the start valuation's argument arrays. -/

/-- The segment mean, after two stretches. -/
theorem v72 : after ops2 (after ops1 W) (Proc.devRef .tc main_v72)
    = val_main_v72 (F := F) (W (Proc.devRef .tc main_arg3)) (W (Proc.devRef .tc main_arg4)) (W (Proc.devRef .tc main_arg5)) :=
  s2_v72 (after ops1 W) _ _ _ (s1_v48 W) (s1_keep_arg5 W)

/-- The first layer, after two stretches. -/
theorem v96 : after ops2 (after ops1 W) (Proc.devRef .tc main_v96)
    = val_main_v96 (F := F) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg13)) (W (Proc.devRef .tc main_arg14)) (W (Proc.devRef .tc main_arg15)) (W (Proc.devRef .tc main_arg16)) :=
  s2_v96 (after ops1 W) _ _ _ _ _ _ _ _ _ _ _ _ _ _ _ (s1_v48 W) (s1_v4 W) (s1_v9 W) (s1_v23 W) (s1_v30 W)
    (s1_keep_arg1 W) (s1_keep_arg5 W) (s1_keep_arg15 W) (s1_keep_arg16 W)

/-- The second normalisation's scaled centred array, after three stretches. -/
theorem v143 : after ops3 (after ops2 (after ops1 W)) (Proc.devRef .tc main_v143)
    = val_main_v143 (F := F) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) :=
  s3_v143 (after ops2 (after ops1 W)) _ _ _ _ _ _ _ _ _ _ _ _ _ _ _ _ _ _ _ _ (v96 W)
    (keep2_arg17 W) (keep2_arg18 W) (keep2_arg19 W) (keep2_arg20 W) (keep2_arg21 W)

/-- The second normalisation's reciprocal deviation, after three stretches. -/
theorem v147 : after ops3 (after ops2 (after ops1 W)) (Proc.devRef .tc main_v147)
    = val_main_v147 (F := F) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  s3_v147 (after ops2 (after ops1 W)) _ _ _ _ _ _ _ _ _ _ _ _ _ _ _ _ _ _ _ (v96 W)
    (keep2_arg17 W) (keep2_arg18 W) (keep2_arg19 W) (keep2_arg20 W)

/-- The prediction, after all four stretches. -/
theorem v164 : after ops4 (after ops3 (after ops2 (after ops1 W))) (Proc.devRef .tc main_v164)
    = val_main_v164 (F := F) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) :=
  s4_v164 (after ops3 (after ops2 (after ops1 W))) _ _ _ _ _ _ _ _ _ _ _ _ _ _ _ _ _ _ _ _ _ _ _ (v143 W) (v147 W)
    (keep3_arg22 W) (keep3_arg23 W) (keep3_arg24 W)

/-! ## Every buffer of the result after the whole list -/

theorem fin_v164 : after ops W (Proc.devRef .tc main_v164)
    = val_main_v164 (F := F) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) :=
  (congrFun (after_ops W) _).trans (v164 W)
theorem fin_v16 : after ops W (Proc.devRef .tc main_v16) = val_main_v16 (F := F) (W (Proc.devRef .tc main_arg0)) (W (Proc.devRef .tc main_arg12)) :=
  (congrFun (after_ops W) _).trans ((s4_keep_v16 _).trans ((s3_keep_v16 _).trans ((s2_keep_v16 _).trans (s1_v16 W))))
theorem fin_v72 : after ops W (Proc.devRef .tc main_v72) = val_main_v72 (F := F) (W (Proc.devRef .tc main_arg3)) (W (Proc.devRef .tc main_arg4)) (W (Proc.devRef .tc main_arg5)) :=
  (congrFun (after_ops W) _).trans ((s4_keep_v72 _).trans ((s3_keep_v72 _).trans (v72 W)))
theorem fin_v30 : after ops W (Proc.devRef .tc main_v30) = val_main_v30 (F := F) (W (Proc.devRef .tc main_arg2)) (W (Proc.devRef .tc main_arg14)) :=
  (congrFun (after_ops W) _).trans ((s4_keep_v30 _).trans ((s3_keep_v30 _).trans ((s2_keep_v30 _).trans (s1_v30 W))))
theorem fin_arg0 : after ops W (Proc.devRef .tc main_arg0) = W (Proc.devRef .tc main_arg0) :=
  (congrFun (after_ops W) _).trans ((s4_keep_arg0 _).trans ((s3_keep_arg0 _).trans ((s2_keep_arg0 _).trans (s1_keep_arg0 W))))
theorem fin_arg1 : after ops W (Proc.devRef .tc main_arg1) = W (Proc.devRef .tc main_arg1) :=
  (congrFun (after_ops W) _).trans ((s4_keep_arg1 _).trans ((s3_keep_arg1 _).trans ((s2_keep_arg1 _).trans (s1_keep_arg1 W))))
theorem fin_arg2 : after ops W (Proc.devRef .tc main_arg2) = W (Proc.devRef .tc main_arg2) :=
  (congrFun (after_ops W) _).trans ((s4_keep_arg2 _).trans ((s3_keep_arg2 _).trans ((s2_keep_arg2 _).trans (s1_keep_arg2 W))))
theorem fin_arg3 : after ops W (Proc.devRef .tc main_arg3) = W (Proc.devRef .tc main_arg3) :=
  (congrFun (after_ops W) _).trans ((s4_keep_arg3 _).trans ((s3_keep_arg3 _).trans ((s2_keep_arg3 _).trans (s1_keep_arg3 W))))
theorem fin_arg4 : after ops W (Proc.devRef .tc main_arg4) = W (Proc.devRef .tc main_arg4) :=
  (congrFun (after_ops W) _).trans ((s4_keep_arg4 _).trans ((s3_keep_arg4 _).trans ((s2_keep_arg4 _).trans (s1_keep_arg4 W))))
theorem fin_arg5 : after ops W (Proc.devRef .tc main_arg5) = W (Proc.devRef .tc main_arg5) :=
  (congrFun (after_ops W) _).trans ((s4_keep_arg5 _).trans ((s3_keep_arg5 _).trans ((s2_keep_arg5 _).trans (s1_keep_arg5 W))))
theorem fin_arg6 : after ops W (Proc.devRef .tc main_arg6) = W (Proc.devRef .tc main_arg6) :=
  (congrFun (after_ops W) _).trans ((s4_keep_arg6 _).trans ((s3_keep_arg6 _).trans ((s2_keep_arg6 _).trans (s1_keep_arg6 W))))
theorem fin_arg7 : after ops W (Proc.devRef .tc main_arg7) = W (Proc.devRef .tc main_arg7) :=
  (congrFun (after_ops W) _).trans ((s4_keep_arg7 _).trans ((s3_keep_arg7 _).trans ((s2_keep_arg7 _).trans (s1_keep_arg7 W))))
theorem fin_arg8 : after ops W (Proc.devRef .tc main_arg8) = W (Proc.devRef .tc main_arg8) :=
  (congrFun (after_ops W) _).trans ((s4_keep_arg8 _).trans ((s3_keep_arg8 _).trans ((s2_keep_arg8 _).trans (s1_keep_arg8 W))))
theorem fin_arg9 : after ops W (Proc.devRef .tc main_arg9) = W (Proc.devRef .tc main_arg9) :=
  (congrFun (after_ops W) _).trans ((s4_keep_arg9 _).trans ((s3_keep_arg9 _).trans ((s2_keep_arg9 _).trans (s1_keep_arg9 W))))
theorem fin_arg10 : after ops W (Proc.devRef .tc main_arg10) = W (Proc.devRef .tc main_arg10) :=
  (congrFun (after_ops W) _).trans ((s4_keep_arg10 _).trans ((s3_keep_arg10 _).trans ((s2_keep_arg10 _).trans (s1_keep_arg10 W))))
theorem fin_arg11 : after ops W (Proc.devRef .tc main_arg11) = W (Proc.devRef .tc main_arg11) :=
  (congrFun (after_ops W) _).trans ((s4_keep_arg11 _).trans ((s3_keep_arg11 _).trans ((s2_keep_arg11 _).trans (s1_keep_arg11 W))))
theorem fin_arg12 : after ops W (Proc.devRef .tc main_arg12) = W (Proc.devRef .tc main_arg12) :=
  (congrFun (after_ops W) _).trans ((s4_keep_arg12 _).trans ((s3_keep_arg12 _).trans ((s2_keep_arg12 _).trans (s1_keep_arg12 W))))
theorem fin_arg13 : after ops W (Proc.devRef .tc main_arg13) = W (Proc.devRef .tc main_arg13) :=
  (congrFun (after_ops W) _).trans ((s4_keep_arg13 _).trans ((s3_keep_arg13 _).trans ((s2_keep_arg13 _).trans (s1_keep_arg13 W))))
theorem fin_arg14 : after ops W (Proc.devRef .tc main_arg14) = W (Proc.devRef .tc main_arg14) :=
  (congrFun (after_ops W) _).trans ((s4_keep_arg14 _).trans ((s3_keep_arg14 _).trans ((s2_keep_arg14 _).trans (s1_keep_arg14 W))))
theorem fin_arg15 : after ops W (Proc.devRef .tc main_arg15) = W (Proc.devRef .tc main_arg15) :=
  (congrFun (after_ops W) _).trans ((s4_keep_arg15 _).trans ((s3_keep_arg15 _).trans ((s2_keep_arg15 _).trans (s1_keep_arg15 W))))
theorem fin_arg16 : after ops W (Proc.devRef .tc main_arg16) = W (Proc.devRef .tc main_arg16) :=
  (congrFun (after_ops W) _).trans ((s4_keep_arg16 _).trans ((s3_keep_arg16 _).trans ((s2_keep_arg16 _).trans (s1_keep_arg16 W))))
theorem fin_arg17 : after ops W (Proc.devRef .tc main_arg17) = W (Proc.devRef .tc main_arg17) :=
  (congrFun (after_ops W) _).trans ((s4_keep_arg17 _).trans ((s3_keep_arg17 _).trans ((s2_keep_arg17 _).trans (s1_keep_arg17 W))))
theorem fin_arg18 : after ops W (Proc.devRef .tc main_arg18) = W (Proc.devRef .tc main_arg18) :=
  (congrFun (after_ops W) _).trans ((s4_keep_arg18 _).trans ((s3_keep_arg18 _).trans ((s2_keep_arg18 _).trans (s1_keep_arg18 W))))
theorem fin_arg19 : after ops W (Proc.devRef .tc main_arg19) = W (Proc.devRef .tc main_arg19) :=
  (congrFun (after_ops W) _).trans ((s4_keep_arg19 _).trans ((s3_keep_arg19 _).trans ((s2_keep_arg19 _).trans (s1_keep_arg19 W))))
theorem fin_arg20 : after ops W (Proc.devRef .tc main_arg20) = W (Proc.devRef .tc main_arg20) :=
  (congrFun (after_ops W) _).trans ((s4_keep_arg20 _).trans ((s3_keep_arg20 _).trans ((s2_keep_arg20 _).trans (s1_keep_arg20 W))))
theorem fin_arg21 : after ops W (Proc.devRef .tc main_arg21) = W (Proc.devRef .tc main_arg21) :=
  (congrFun (after_ops W) _).trans ((s4_keep_arg21 _).trans ((s3_keep_arg21 _).trans ((s2_keep_arg21 _).trans (s1_keep_arg21 W))))
theorem fin_arg22 : after ops W (Proc.devRef .tc main_arg22) = W (Proc.devRef .tc main_arg22) :=
  (congrFun (after_ops W) _).trans ((s4_keep_arg22 _).trans ((s3_keep_arg22 _).trans ((s2_keep_arg22 _).trans (s1_keep_arg22 W))))
theorem fin_arg23 : after ops W (Proc.devRef .tc main_arg23) = W (Proc.devRef .tc main_arg23) :=
  (congrFun (after_ops W) _).trans ((s4_keep_arg23 _).trans ((s3_keep_arg23 _).trans ((s2_keep_arg23 _).trans (s1_keep_arg23 W))))
theorem fin_arg24 : after ops W (Proc.devRef .tc main_arg24) = W (Proc.devRef .tc main_arg24) :=
  (congrFun (after_ops W) _).trans ((s4_keep_arg24 _).trans ((s3_keep_arg24 _).trans ((s2_keep_arg24 _).trans (s1_keep_arg24 W))))

end RunAll

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = val_main_v164 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_v16) = val_main_v16 (F := F) (m ((c.tc : Thread nD τ).loc main_arg0)) (m ((c.tc : Thread nD τ).loc main_arg12))
      ∧ r.2.mem ((c.tc : Thread nD τ).loc main_v72) = val_main_v72 (F := F) (m ((c.tc : Thread nD τ).loc main_arg3)) (m ((c.tc : Thread nD τ).loc main_arg4)) (m ((c.tc : Thread nD τ).loc main_arg5))
      ∧ r.2.mem ((c.tc : Thread nD τ).loc main_v30) = val_main_v30 (F := F) (m ((c.tc : Thread nD τ).loc main_arg2)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) := by
  exact (θ_run defs _ _).mono (fun _ h c => ⟨(h c main_v164).trans (RunAll.fin_v164 _),
      (h c main_v16).trans (RunAll.fin_v16 _),
      (h c main_v72).trans (RunAll.fin_v72 _),
      (h c main_v30).trans (RunAll.fin_v30 _),
      (h c main_arg0).trans (RunAll.fin_arg0 _),
      (h c main_arg1).trans (RunAll.fin_arg1 _),
      (h c main_arg2).trans (RunAll.fin_arg2 _),
      (h c main_arg3).trans (RunAll.fin_arg3 _),
      (h c main_arg4).trans (RunAll.fin_arg4 _),
      (h c main_arg5).trans (RunAll.fin_arg5 _),
      (h c main_arg6).trans (RunAll.fin_arg6 _),
      (h c main_arg7).trans (RunAll.fin_arg7 _),
      (h c main_arg8).trans (RunAll.fin_arg8 _),
      (h c main_arg9).trans (RunAll.fin_arg9 _),
      (h c main_arg10).trans (RunAll.fin_arg10 _),
      (h c main_arg11).trans (RunAll.fin_arg11 _),
      (h c main_arg12).trans (RunAll.fin_arg12 _),
      (h c main_arg13).trans (RunAll.fin_arg13 _),
      (h c main_arg14).trans (RunAll.fin_arg14 _),
      (h c main_arg15).trans (RunAll.fin_arg15 _),
      (h c main_arg16).trans (RunAll.fin_arg16 _),
      (h c main_arg17).trans (RunAll.fin_arg17 _),
      (h c main_arg18).trans (RunAll.fin_arg18 _),
      (h c main_arg19).trans (RunAll.fin_arg19 _),
      (h c main_arg20).trans (RunAll.fin_arg20 _),
      (h c main_arg21).trans (RunAll.fin_arg21 _),
      (h c main_arg22).trans (RunAll.fin_arg22 _),
      (h c main_arg23).trans (RunAll.fin_arg23 _),
      (h c main_arg24).trans (RunAll.fin_arg24 _)⟩)
    (run_seq scopedRefs_eq scopedSems_eq defs main (fun _ => ops) main_eq (fun _ => ops_sub) m ρ)

end Cert.Bridge

end
-- ==== Proof.RefFrame.lean ====
/-
  The reference has no kernel: its frame is its run with the results dropped. Every weakly fair execution of
  the reference's host program ends, nothing faulting, with the argument arrays as launched.
-/
import proofs.«413471_j87076166959612_3_alg».proof.Defs
import proofs.«413471_j87076166959612_3_alg».proof.Proof.RefRunAll

noncomputable section

open Idealize.ShloMosaic Idealize.SL.Sem

namespace Cert.Bridge

theorem frame_ReferenceIdeal [Cert.ReferenceIdeal.Facts] [Cert.Pre_finite_inputs.Facts] : Cert.frame_ReferenceIdeal := fun m ρ _ =>
  (θ_run Cert.ReferenceIdeal.defs _ _).mono (fun _ h c => (h c).2.2.2.2) (Cert.Bridge.run (F := Ideal) m ρ)

end Cert.Bridge

end
-- ==== Proof.Spec.lean ====
/-
  What both programs compute, index by index over the extended reals, written once so that the kernel's
  side and the reference's side can each be read against it.

  * A row of 400 prototype ids marks the prototypes it mentions: `mask row p` is `1` when `p` occurs among
    the ids and `0` otherwise; `count` is the number of marked prototypes, and the segment mean of a row is
    the sum of the marked prototypes' rows divided by that number.
  * The first layer acts on one sample's row alone: the history feature (segment mean plus the domain
    prompt) against the left half of `W1`, the item feature (item prompt plus the two projected side
    features) against the right half, the bias, then `max · 0`.
  * The head normalises each column over the 4096 samples (mean and biased variance of the column),
    twice, with a linear layer and `max · 0` between, and ends in a logistic.
-/
import Idealize.ShloMosaic.PureOps.Ideal
import Idealize.ShloMosaic.PureOps.Ideal.Laws
import Idealize.ShloMosaic.Lib.ValueIdx

noncomputable section

open Idealize.ShloMosaic

namespace Cert.Spec

/-! ## The segment mean -/

/-- `1` where prototype `p` occurs among the row's ids (each id compared as a 32-bit word with `p`), else `0`. -/
def mask (row : Fin 400 → BitVec 32) (p : Fin 1024) : EReal :=
  open Classical in if ∃ j, row j = BitVec.ofNat 32 p.val then 1 else 0

/-- How many prototypes the row marks. -/
def count (row : Fin 400 → BitVec 32) : EReal := ∑ p, mask row p

/-- The mean of the marked prototypes' rows, coordinate `d`. -/
def segMean (mg : Fin 4096 → Fin 400 → BitVec 32) (proto : Fin 1024 → Fin 128 → EReal) (b : Fin 4096) (d : Fin 128) : EReal :=
  Ideal.div (∑ p, mask (mg b) p * proto p d) (count (mg b))

/-- Every id of the table is a prototype number: `0 ≤ id < 1024` read as a signed word. -/
def InRange {ι : Type} (x : ι → BitVec 32) : Prop := ∀ i, 0 ≤ (x i).toInt ∧ (x i).toInt < 1024

/-! ## The first layer, one sample at a time -/

/-- A side feature projected: `(x − bias) · Wᵀ`, the weight given transposed (`wT j n = W n j`). -/
def proj {K : ℕ} (x bias : Fin K → EReal) (wT : Fin K → Fin 128 → EReal) (n : Fin 128) : EReal :=
  ∑ j, (x j - bias j) * wT j n

/-- The first layer's output for one sample, unit `n`. -/
def z1row (hu pd pv : Fin 128 → EReal) (pt bt : Fin 384 → EReal) (pvis bv : Fin 768 → EReal)
    (wtT : Fin 384 → Fin 128 → EReal) (wvT : Fin 768 → Fin 128 → EReal) (w1aT w1bT : Fin 128 → Fin 128 → EReal)
    (b1 : Fin 128 → EReal) (n : Fin 128) : EReal :=
  max ((∑ k, (hu k + pd k) * w1aT k n + ∑ k, (pv k + proj pt bt wtT k + proj pvis bv wvT k) * w1bT k n) + b1 n) 0

/-! ## The head: two column normalisations over the 4096 samples -/

/-- The word `4096.0`. -/
def w4096 : EReal := Ideal.ofBits .f32 0x45800000#32
/-- The variance's offset, the word both programs carry for `1e-5`. -/
def wEps : EReal := Ideal.ofBits .f32 0x3727C5AC#32

/-- The mean of column `k` over the samples. -/
def colMean {n : ℕ} (x : Fin 4096 → Fin n → EReal) (k : Fin n) : EReal := Ideal.div (∑ r, x r k) w4096

/-- The column's biased variance. -/
def colVar {n : ℕ} (x : Fin 4096 → Fin n → EReal) (k : Fin n) : EReal :=
  colMean (fun r k => (x r k - colMean x k) * (x r k - colMean x k)) k

/-- Column normalisation with scale `g` and shift `be`. -/
def bnorm {n : ℕ} (x : Fin 4096 → Fin n → EReal) (g be : Fin n → EReal) (r : Fin 4096) (k : Fin n) : EReal :=
  g k * (x r k - colMean x k) * Ideal.rsqrt (colVar x k + wEps) + be k

/-- The second layer on the normalised first. -/
def z2 (z1 : Fin 4096 → Fin 128 → EReal) (g1 be1 : Fin 128 → EReal) (w2T : Fin 128 → Fin 64 → EReal) (b2 : Fin 64 → EReal)
    (r : Fin 4096) (n : Fin 64) : EReal :=
  max ((∑ k, bnorm z1 g1 be1 r k * w2T k n) + b2 n) 0

/-- The prediction for sample `r`. -/
def pred (z1 : Fin 4096 → Fin 128 → EReal) (g1 be1 : Fin 128 → EReal) (w2T : Fin 128 → Fin 64 → EReal) (b2 g2 be2 : Fin 64 → EReal)
    (wpT : Fin 64 → EReal) (bp : EReal) (r : Fin 4096) : EReal :=
  Ideal.logistic ((∑ k, bnorm (z2 z1 g1 be1 w2T b2) g2 be2 r k * wpT k) + bp)

end Cert.Spec

end
-- ==== Proof.SegPayload.lean ====
/-
  The segment-mean kernel's arithmetic on one block of 128 samples, read at an entry.
  The body compares the block's 400 id columns, eight at a time, with the prototype numbers 0 … 1023, keeps
  for every (sample, prototype) the largest comparison seen so far starting from 0, and so ends with the row's
  presence mask; it then divides the mask's product with the prototype table by the larger of the mask's row
  sum and 1.
-/
import proofs.«413471_j87076166959612_3_alg».proof.Proof.Spec
import proofs.«413471_j87076166959612_3_alg».proof.Proof.Gen.KernelIdeal.Skeleton
import Idealize.ShloMosaic.Lib.Pipeline.Value
import Idealize.ShloMosaic.Lib.ValueLayout

noncomputable section

open Idealize.ShloMosaic Idealize.ShloMosaic.TcCoe Idealize.ShloMosaic.ValueIdx
open Cert.KernelIdeal Cert.KernelIdeal.Gen

namespace Cert.Bridge

namespace Seg

/-! ## Indicators -/

/-- `1` where the proposition holds, `0` where it does not. -/
def ind (c : Prop) : EReal := open Classical in if c then 1 else 0

theorem ind_pos {c : Prop} (h : c) : ind c = 1 := if_pos h
theorem ind_neg {c : Prop} (h : ¬c) : ind c = 0 := if_neg h
theorem ind_congr {c d : Prop} (h : c ↔ d) : ind c = ind d := by rw [propext h]

theorem max_ind (c d : Prop) : max (ind c) (ind d) = ind (c ∨ d) := by
  by_cases hc : c
  · rw [ind_pos hc, ind_pos (Or.inl hc)]
    by_cases hd : d
    · rw [ind_pos hd, max_self]
    · rw [ind_neg hd]; exact max_eq_left zero_le_one
  · by_cases hd : d
    · rw [ind_neg hc, ind_pos hd, ind_pos (Or.inr hd)]; exact max_eq_right zero_le_one
    · rw [ind_neg hc, ind_neg hd, ind_neg (fun h => h.elim hc hd), max_self]

theorem mask_eq_ind (row : Fin 400 → BitVec 32) (p : Fin 1024) :
    Spec.mask row p = ind (∃ j, row j = BitVec.ofNat 32 p.val) := by
  unfold Spec.mask
  by_cases h : ∃ j, row j = BitVec.ofNat 32 p.val
  · rw [if_pos h, ind_pos h]
  · rw [if_neg h, ind_neg h]

/-- The largest of finitely many (at least one) values, each `1` or `0`, starting from `-∞`: `1` when one of them is. -/
theorem fold_max_ind {n : Nat} (hn : 0 < n) (f : Fin n → EReal) (c : Fin n → Prop)
    (hf : ∀ k, f k = ind (c k)) :
    (Finset.univ : Finset (Fin n)).fold max (⊥ : EReal) f = ind (∃ k, c k) := by
  by_cases h : ∃ k, c k
  · rw [ind_pos h]
    obtain ⟨k, hk⟩ := h
    refine le_antisymm ?_ ?_
    · refine (Finset.fold_max_le _).2 ⟨bot_le, fun x _ => ?_⟩
      rw [hf x]
      by_cases hx : c x
      · rw [ind_pos hx]
      · rw [ind_neg hx]; exact zero_le_one
    · refine (Finset.le_fold_max _).2 (Or.inr ⟨k, Finset.mem_univ k, ?_⟩)
      rw [hf k, ind_pos hk]
  · rw [ind_neg h]
    refine le_antisymm ?_ ?_
    · refine (Finset.fold_max_le _).2 ⟨bot_le, fun x _ => ?_⟩
      rw [hf x, ind_neg (fun hx => h ⟨x, hx⟩)]
    · refine (Finset.le_fold_max _).2 (Or.inr ⟨⟨0, hn⟩, Finset.mem_univ _, ?_⟩)
      rw [hf _, ind_neg (fun hx => h ⟨_, hx⟩)]

/-! ## The body's pieces -/

/-- The prototype numbers `0 … 1023` along the last axis. -/
abbrev protoIota : IVec S1x1x1024 32 := iota .tc S1x1x1024 32 [2] iota_S1x1x1024_d2_w32

/-- The columns `off … off+7` of the id block as a 128×8×1 array. -/
def cut (v1 : IVec S128x400 32) (off : Nat) (h : S128x400.Slices ![0, off] S128x8) : IVec S128x8x1 32 :=
  shapeCast S128x8x1 (extractStridedSlice S128x8 ![0, off] v1 h) shapeCasts_S128x8_S128x8x1

/-- One slice's presence array: at `(r, p)` the largest over the slice's eight columns of the comparison of the id with `p`. -/
def hit (v2 : IVec S1x1x1024 32) (vs : IVec S128x8x1 32) : FVec Ideal S128x1024 .f32 :=
  multiReduction .maximumf [1] S128x1024 (sitofp .f32 (extui 32 (cmpi .eq (broadcastTo S128x8x1024 vs broadcasts_S128x8x1_S128x8x1024) (broadcastTo S128x8x1024 v2 broadcasts_S1x1x1024_S128x8x1024)) natLt_1_32)) 0xFF800000#32 reduces_S128x8x1024_S128x1024 (.inl rfl) rfl

/-! ## The pieces read at an index -/

theorem cut_bound {off : Nat} (h : S128x400.Slices ![0, off] S128x8) : off + 8 ≤ 400 := by
  obtain ⟨h1, h2⟩ := h
  exact h2 (1 : Fin 2)

theorem cut_apply (v1 : IVec S128x400 32) (off : Nat) (h : S128x400.Slices ![0, off] S128x8) (r : Fin 128) (k : Fin 8)
    (hlt : off + k.val < 400) : cut v1 off h (ix3 r k (0 : Fin 1)) = v1 (ix2 r ⟨off + k.val, hlt⟩) := by
  unfold cut
  refine (shapeCast_apply _ _ (ix3 r k (0 : Fin 1)) (ix2 r k) ?_).trans ?_
  · rw [Shape.rowMajor_val_two, Shape.rowMajor_val_three]
    show r.val * 8 + k.val = (r.val * 8 + k.val) * 1 + 0
    omega
  · refine extractStridedSlice_apply _ _ _ (ix2 r k) (ix2 r ⟨off + k.val, hlt⟩) ?_
    intro a
    match a with
    | ⟨0, _⟩ => show r.val = 0 + r.val; omega
    | ⟨1, _⟩ => rfl

theorem ofBits_negInf : FloatOps.ofBits (F := Ideal) .f32 0xFF800000#32 = (⊥ : EReal) := by
  show Ideal.ofBits .f32 0xFF800000#32 = ⊥
  simp [Ideal.ofBits, Ideal.ieee]

theorem ofBits_one : Ideal.ofBits .f32 0x3F800000#32 = (1 : EReal) := by
  simp [Ideal.ofBits, Ideal.ieee]
  rw [← EReal.coe_mul]
  norm_num

/-- A comparison bit widened to a word and converted: `1` where the two words agree, `0` where they differ. -/
theorem sitofp_flag (a b : BitVec 32) :
    (FloatOps.sitofp (F := Ideal) .f32 ((IntOp.cmpi .eq a b).setWidth 32) : EReal) = ind (a = b) := by
  show ((((IntOp.cmpi .eq a b).setWidth 32).toInt : ℝ) : EReal) = _
  by_cases h : a = b
  · rw [ind_pos h]; subst h; simp [IntOp.cmpi]
  · rw [ind_neg h]
    have hb : (a == b) = false := by simpa using h
    simp [IntOp.cmpi, hb]

theorem lift_ix (r : Fin 128) (p : Fin 1024) (k : Fin 8) :
    reduces_S128x8x1024_S128x1024.lift (ix2 r p) k = ix3 r k p := by
  funext c
  match c with
  | ⟨0, _⟩ => exact Fin.ext rfl
  | ⟨1, _⟩ => exact Fin.ext rfl
  | ⟨2, _⟩ => exact Fin.ext rfl

theorem bc_slice (vs : IVec S128x8x1 32) (r : Fin 128) (k : Fin 8) (p : Fin 1024) :
    broadcastTo S128x8x1024 vs broadcasts_S128x8x1_S128x8x1024 (ix3 r k p) = vs (ix3 r k (0 : Fin 1)) := by
  refine broadcastTo_apply _ _ _ _ ?_
  intro a
  match a with
  | ⟨0, _⟩ => rfl
  | ⟨1, _⟩ => rfl
  | ⟨2, _⟩ => rfl

theorem bc_iota (r : Fin 128) (k : Fin 8) (p : Fin 1024) :
    broadcastTo S128x8x1024 protoIota broadcasts_S1x1x1024_S128x8x1024 (ix3 r k p) = BitVec.ofNat 32 p.val := by
  refine (broadcastTo_apply _ _ _ (ix3 (0 : Fin 1) (0 : Fin 1) p) ?_).trans ?_
  · intro a
    match a with
    | ⟨0, _⟩ => rfl
    | ⟨1, _⟩ => rfl
    | ⟨2, _⟩ => rfl
  · exact iota_single_apply .tc S1x1x1024 32 (2 : Fin 3) iota_S1x1x1024_d2_w32 _

/-- The largest over the middle axis, from `-∞`, read at `(r, p)`. -/
theorem maxOverEight (src : FVec Ideal S128x8x1024 .f32) (r : Fin 128) (p : Fin 1024) :
    multiReduction .maximumf [1] S128x1024 src 0xFF800000#32 reduces_S128x8x1024_S128x1024 (.inl rfl) rfl (ix2 r p)
      = (Finset.univ : Finset (Fin 8)).fold max (⊥ : EReal) (fun k => src (ix3 r k p)) := by
  refine (Ideal.multiReduction_maximumf_single (φ := .f32) src 0xFF800000#32 reduces_S128x8x1024_S128x1024 (.inl rfl) rfl (ix2 r p)).trans ?_
  rw [ofBits_negInf]
  exact Finset.fold_congr (fun k _ => congrArg src (lift_ix r p k))

/-- One slice's presence array at `(r, p)`: `1` when one of the slice's eight ids in row `r` is the word `p`. -/
theorem hit_apply (vs : IVec S128x8x1 32) (r : Fin 128) (p : Fin 1024) :
    hit protoIota vs (ix2 r p) = ind (∃ k : Fin 8, vs (ix3 r k (0 : Fin 1)) = BitVec.ofNat 32 p.val) := by
  unfold hit
  rw [maxOverEight]
  refine fold_max_ind (n := 8) (by decide) _ (fun k => vs (ix3 r k (0 : Fin 1)) = BitVec.ofNat 32 p.val) (fun k => ?_)
  rw [sitofp_apply, extui_apply]
  show FloatOps.sitofp (F := Ideal) .f32 ((IntOp.cmpi .eq (broadcastTo S128x8x1024 vs broadcasts_S128x8x1_S128x8x1024 (ix3 r k p)) (broadcastTo S128x8x1024 protoIota broadcasts_S1x1x1024_S128x8x1024 (ix3 r k p))).setWidth 32) = _
  rw [bc_slice, bc_iota, sitofp_flag]

/-! ## The running array after each slice -/

/-- The running array after the columns below `n`: `1` at `(r, p)` when one of row `r`'s ids in those columns is the word `p`, else `0`. -/
def Seen (v1 : IVec S128x400 32) (n : Nat) (M : FVec Ideal S128x1024 .f32) : Prop :=
  ∀ (r : Fin 128) (p : Fin 1024), M (ix2 r p) = ind (∃ j : Fin 400, j.val < n ∧ v1 (ix2 r j) = BitVec.ofNat 32 p.val)

/-- One step of the body's loop: the running array against one more slice's presence array. -/
def stepM (v2 : IVec S1x1x1024 32) (M : FVec Ideal S128x1024 .f32) (vs : IVec S128x8x1 32) : FVec Ideal S128x1024 .f32 :=
  maximumf M (hit v2 vs)

theorem seen_step {v1 : IVec S128x400 32} {n : Nat} {M : FVec Ideal S128x1024 .f32} (h : S128x400.Slices ![0, n] S128x8)
    (hM : Seen v1 n M) : Seen v1 (n + 8) (stepM protoIota M (cut v1 n h)) := by
  intro r p
  have hb := cut_bound h
  unfold stepM
  rw [maximumf_apply, hM r p, hit_apply, max_ind]
  refine ind_congr ⟨?_, ?_⟩
  · rintro (⟨j, hj, hv⟩ | ⟨k, hk⟩)
    · exact ⟨j, by omega, hv⟩
    · have hlt : n + k.val < 400 := by have := k.isLt; omega
      rw [cut_apply v1 n h r k hlt] at hk
      exact ⟨⟨n + k.val, hlt⟩, by show n + k.val < n + 8; have := k.isLt; omega, hk⟩
  · rintro ⟨j, hj, hv⟩
    by_cases hjn : j.val < n
    · exact Or.inl ⟨j, hjn, hv⟩
    · refine Or.inr ⟨⟨j.val - n, by omega⟩, ?_⟩
      have hlt : n + (j.val - n) < 400 := by have := j.isLt; omega
      rw [cut_apply v1 n h r ⟨j.val - n, by omega⟩ hlt]
      have hj' : (⟨n + (j.val - n), hlt⟩ : Fin 400) = j := Fin.ext (by show n + (j.val - n) = j.val; omega)
      rw [hj']; exact hv

theorem seen_zero (v1 : IVec S128x400 32) :
    Seen v1 0 (broadcast S128x1024 (Scalar.ofBits (F := Ideal) .f32 0x00000000#32)) := by
  intro r p
  rw [broadcast_apply, ind_neg (fun ⟨j, hj, _⟩ => Nat.not_lt_zero _ hj)]
  exact Ideal.ofBits_zero_f32

theorem seen_all {v1 : IVec S128x400 32} {M : FVec Ideal S128x1024 .f32} (hM : Seen v1 400 M) (r : Fin 128) (p : Fin 1024) :
    M (ix2 r p) = Spec.mask (fun j => v1 (ix2 r j)) p := by
  rw [hM r p, mask_eq_ind]
  exact ind_congr ⟨fun ⟨j, _, hv⟩ => ⟨j, hv⟩, fun ⟨j, hv⟩ => ⟨j, j.isLt, hv⟩⟩

/-! ## The finished mask: row sum, product, quotient -/

theorem mm_lhs_0 (i : S128x128.Idx) (q : dot_S128x1024_S1024x128_S128x128_1_0_0_1_n_n.contr.Idx) :
    (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
theorem mm_lhs_1 (i : S128x128.Idx) (q : dot_S128x1024_S1024x128_S128x128_1_0_0_1_n_n.contr.Idx) :
    (dot_S128x1024_S1024x128_S128x128_1_0_0_1_n_n.lhsIdx i q 1).val = (q ⟨0, by decide⟩).val :=
  dot_S128x1024_S1024x128_S128x128_1_0_0_1_n_n.lhsIdx_val_of_single rfl i q
theorem mm_rhs_0 (i : S128x128.Idx) (q : dot_S128x1024_S1024x128_S128x128_1_0_0_1_n_n.contr.Idx) :
    (dot_S128x1024_S1024x128_S128x128_1_0_0_1_n_n.rhsIdx i q 0).val = (q ⟨0, by decide⟩).val :=
  dot_S128x1024_S1024x128_S128x128_1_0_0_1_n_n.rhsIdx_val_of_single rfl i q
theorem mm_rhs_1 (i : S128x128.Idx) (q : dot_S128x1024_S1024x128_S128x128_1_0_0_1_n_n.contr.Idx) :
    (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl

/-- The product into a zero accumulator at `(r, d)`: the sum over the 1024 prototypes. -/
theorem mm_apply (A : FVec Ideal S128x1024 .bf16) (B : FVec Ideal S1024x128 .bf16) (r d : Fin 128) :
    matmul dot_S128x1024_S1024x128_S128x128_1_0_0_1_n_n none A B (constant (F := Ideal) S128x128 .f32 0x00000000#32) (ix2 r d)
      = ∑ p : Fin 1024, A (ix2 r p) * B (ix2 p d) := by
  simp only [matmul]
  rw [Ideal.matmul_constant_zero_apply, ← Equiv.sum_comp (contrEquiv1 dot_S128x1024_S1024x128_S128x128_1_0_0_1_n_n 1024 rfl rfl).symm]
  refine Finset.sum_congr rfl fun k _ => ?_
  have hk := contrEquiv1_symm_val dot_S128x1024_S1024x128_S128x128_1_0_0_1_n_n 1024 rfl rfl k
  have el : dot_S128x1024_S1024x128_S128x128_1_0_0_1_n_n.lhsIdx (ix2 r d) ((contrEquiv1 dot_S128x1024_S1024x128_S128x128_1_0_0_1_n_n 1024 rfl rfl).symm k) = ix2 r k := funext fun a => Fin.ext (by
    match a with
    | ⟨0, _⟩ => exact mm_lhs_0 _ _
    | ⟨1, _⟩ => exact (mm_lhs_1 _ _).trans hk)
  have er : dot_S128x1024_S1024x128_S128x128_1_0_0_1_n_n.rhsIdx (ix2 r d) ((contrEquiv1 dot_S128x1024_S1024x128_S128x128_1_0_0_1_n_n 1024 rfl rfl).symm k) = ix2 k d := funext fun a => Fin.ext (by
    match a with
    | ⟨0, _⟩ => exact (mm_rhs_0 _ _).trans hk
    | ⟨1, _⟩ => exact mm_rhs_1 _ _)
  rw [el, er]

/-- The sum over a row's 1024 lanes, from `0`. -/
theorem rowSum_apply (W : FVec Ideal S128x1024 .f32) (r : Fin 128) :
    multiReduction .add [1] S128 W 0x00000000#32 reduces_S128x1024_S128 (.inl rfl) rfl (ix1 r) = ∑ p : Fin 1024, W (ix2 r p) := by
  refine (Ideal.multiReduction_add_single (φ := .f32) W 0x00000000#32 reduces_S128x1024_S128 (.inl rfl) rfl (ix1 r)).trans ?_
  refine Finset.sum_congr rfl fun p _ => congrArg W (funext fun c => ?_)
  match c with
  | ⟨0, _⟩ => exact Fin.ext rfl
  | ⟨1, _⟩ => exact Fin.ext rfl

theorem col_apply (v : FVec Ideal S128 .f32) (r : Fin 128) :
    shapeCast S128x1 v shapeCasts_S128_S128x1 (ix2 r (0 : Fin 1)) = v (ix1 r) := by
  refine shapeCast_apply _ _ _ (ix1 r) ?_
  rw [Shape.rowMajor_val_one, Shape.rowMajor_val_two]
  show r.val = r.val * 1 + 0
  omega

theorem bc_col (v : FVec Ideal S128x1 .f32) (r d : Fin 128) :
    broadcastTo S128x128 v broadcasts_S128x1_S128x128 (ix2 r d) = v (ix2 r (0 : Fin 1)) := by
  refine broadcastTo_apply _ _ _ _ ?_
  intro a
  match a with
  | ⟨0, _⟩ => rfl
  | ⟨1, _⟩ => rfl

/-- What the body does with the finished running array `W`: its product with the prototype table over the larger of its row sum and one. -/
def tail (W : FVec Ideal S128x1024 .f32) (x1 : Vec Ideal S1024x128 .f32) : FVec Ideal S128x128 .f32 :=
  divf (matmul dot_S128x1024_S1024x128_S128x128_1_0_0_1_n_n none (truncf .bf16 W bitsLt_bf16_f32) (truncf .bf16 x1 bitsLt_bf16_f32) (constant S128x128 .f32 0x00000000#32))
    (broadcastTo S128x128 (maximumf (shapeCast S128x1 (multiReduction .add [1] S128 W 0x00000000#32 reduces_S128x1024_S128 (.inl rfl) rfl) shapeCasts_S128_S128x1) (broadcast S128x1 (Scalar.ofBits .f32 0x3F800000#32))) broadcasts_S128x1_S128x128)

theorem tail_apply (W : FVec Ideal S128x1024 .f32) (x1 : Vec Ideal S1024x128 .f32) (r d : Fin 128) :
    tail W x1 (ix2 r d) = Ideal.div (∑ p : Fin 1024, W (ix2 r p) * x1 (ix2 p d)) (max (∑ p : Fin 1024, W (ix2 r p)) 1) := by
  unfold tail
  rw [divf_apply, mm_apply, bc_col, maximumf_apply, col_apply, rowSum_apply, broadcast_apply]
  congr 1
  exact congrArg (max _) ofBits_one

/-! ## The payload functions, slice by slice -/

theorem pay2_eq (x0 : Vec Ideal S128x400 .i32) : k0_pay2 x0 = x0 := shapeCast_self x0 _

/-- The first five slices, from the constant `0`. -/
theorem pay3_seen (x0 : Vec Ideal S128x400 .i32) : Seen (k0_pay2 x0) 40 (k0_pay3 x0) :=
  seen_step slices_S128x400_o0_32_S128x8 (seen_step slices_S128x400_o0_24_S128x8 (seen_step slices_S128x400_o0_16_S128x8
    (seen_step slices_S128x400_o0_8_S128x8 (seen_step slices_S128x400_o0_0_S128x8 (seen_zero (k0_pay2 x0))))))

/-- Six more slices at a time: the slice handed over, then the five cut inside. -/
theorem pay5_seen {x0 : Vec Ideal S128x400 .i32} {M : FVec Ideal S128x1024 .f32} (hM : Seen (k0_pay2 x0) 40 M) :
    Seen (k0_pay2 x0) 88 (k0_pay5 (k0_pay2 x0) protoIota M (k0_pay4 x0)) :=
  seen_step slices_S128x400_o0_80_S128x8 (seen_step slices_S128x400_o0_72_S128x8 (seen_step slices_S128x400_o0_64_S128x8
    (seen_step slices_S128x400_o0_56_S128x8 (seen_step slices_S128x400_o0_48_S128x8 (seen_step slices_S128x400_o0_40_S128x8 hM)))))

theorem pay7_seen {v1 : IVec S128x400 32} {M : FVec Ideal S128x1024 .f32} (hM : Seen v1 88 M) :
    Seen v1 136 (k0_pay7 v1 protoIota M (k0_pay6 v1)) :=
  seen_step slices_S128x400_o0_128_S128x8 (seen_step slices_S128x400_o0_120_S128x8 (seen_step slices_S128x400_o0_112_S128x8
    (seen_step slices_S128x400_o0_104_S128x8 (seen_step slices_S128x400_o0_96_S128x8 (seen_step slices_S128x400_o0_88_S128x8 hM)))))

theorem pay9_seen {v1 : IVec S128x400 32} {M : FVec Ideal S128x1024 .f32} (hM : Seen v1 136 M) :
    Seen v1 184 (k0_pay9 v1 protoIota M (k0_pay8 v1)) :=
  seen_step slices_S128x400_o0_176_S128x8 (seen_step slices_S128x400_o0_168_S128x8 (seen_step slices_S128x400_o0_160_S128x8
    (seen_step slices_S128x400_o0_152_S128x8 (seen_step slices_S128x400_o0_144_S128x8 (seen_step slices_S128x400_o0_136_S128x8 hM)))))

theorem pay11_seen {v1 : IVec S128x400 32} {M : FVec Ideal S128x1024 .f32} (hM : Seen v1 184 M) :
    Seen v1 232 (k0_pay11 v1 protoIota M (k0_pay10 v1)) :=
  seen_step slices_S128x400_o0_224_S128x8 (seen_step slices_S128x400_o0_216_S128x8 (seen_step slices_S128x400_o0_208_S128x8
    (seen_step slices_S128x400_o0_200_S128x8 (seen_step slices_S128x400_o0_192_S128x8 (seen_step slices_S128x400_o0_184_S128x8 hM)))))

theorem pay13_seen {v1 : IVec S128x400 32} {M : FVec Ideal S128x1024 .f32} (hM : Seen v1 232 M) :
    Seen v1 280 (k0_pay13 v1 protoIota M (k0_pay12 v1)) :=
  seen_step slices_S128x400_o0_272_S128x8 (seen_step slices_S128x400_o0_264_S128x8 (seen_step slices_S128x400_o0_256_S128x8
    (seen_step slices_S128x400_o0_248_S128x8 (seen_step slices_S128x400_o0_240_S128x8 (seen_step slices_S128x400_o0_232_S128x8 hM)))))

theorem pay15_seen {v1 : IVec S128x400 32} {M : FVec Ideal S128x1024 .f32} (hM : Seen v1 280 M) :
    Seen v1 328 (k0_pay15 v1 protoIota M (k0_pay14 v1)) :=
  seen_step slices_S128x400_o0_320_S128x8 (seen_step slices_S128x400_o0_312_S128x8 (seen_step slices_S128x400_o0_304_S128x8
    (seen_step slices_S128x400_o0_296_S128x8 (seen_step slices_S128x400_o0_288_S128x8 (seen_step slices_S128x400_o0_280_S128x8 hM)))))

theorem pay17_seen {v1 : IVec S128x400 32} {M : FVec Ideal S128x1024 .f32} (hM : Seen v1 328 M) :
    Seen v1 376 (k0_pay17 v1 protoIota M (k0_pay16 v1)) :=
  seen_step slices_S128x400_o0_368_S128x8 (seen_step slices_S128x400_o0_360_S128x8 (seen_step slices_S128x400_o0_352_S128x8
    (seen_step slices_S128x400_o0_344_S128x8 (seen_step slices_S128x400_o0_336_S128x8 (seen_step slices_S128x400_o0_328_S128x8 hM)))))

/-- The last three slices complete the mask; the stored value is what the body makes of it. -/
theorem pay1_eq (v1 : IVec S128x400 32) (M : FVec Ideal S128x1024 .f32) (x1 : Vec Ideal S1024x128 .f32) :
    k0_pay1 v1 protoIota M (k0_pay18 v1) x1
      = tail (stepM protoIota (stepM protoIota (stepM protoIota M (cut v1 376 slices_S128x400_o0_376_S128x8))
          (cut v1 384 slices_S128x400_o0_384_S128x8)) (cut v1 392 slices_S128x400_o0_392_S128x8)) x1 := rfl

theorem pay1_apply {v1 : IVec S128x400 32} {M : FVec Ideal S128x1024 .f32} (hM : Seen v1 376 M)
    (x1 : Vec Ideal S1024x128 .f32) (r d : Fin 128) :
    k0_pay1 v1 protoIota M (k0_pay18 v1) x1 (ix2 r d)
      = Ideal.div (∑ p : Fin 1024, Spec.mask (fun j => v1 (ix2 r j)) p * x1 (ix2 p d))
          (max (Spec.count (fun j => v1 (ix2 r j))) 1) := by
  have hW := seen_step slices_S128x400_o0_392_S128x8 (seen_step slices_S128x400_o0_384_S128x8
    (seen_step slices_S128x400_o0_376_S128x8 hM))
  rw [pay1_eq, tail_apply]
  unfold Spec.count
  congr 1
  · exact Finset.sum_congr rfl fun p _ => by rw [seen_all hW]
  · exact congrArg (max · 1) (Finset.sum_congr rfl fun p _ => seen_all hW r p)

end Seg

open Seg

/-- The value the body stores, as the generated frame composes it from the two input blocks. -/
abbrev segPay (x0 : Vec Ideal S128x400 .i32) (x1 : Vec Ideal S1024x128 .f32) : FVec Ideal S128x128 .f32 :=
  k0_pay1 (k0_pay2 x0) (iota .tc S1x1x1024 32 [2] iota_S1x1x1024_d2_w32) (k0_pay17 (k0_pay2 x0) (iota .tc S1x1x1024 32 [2] iota_S1x1x1024_d2_w32) (k0_pay15 (k0_pay2 x0) (iota .tc S1x1x1024 32 [2] iota_S1x1x1024_d2_w32) (k0_pay13 (k0_pay2 x0) (iota .tc S1x1x1024 32 [2] iota_S1x1x1024_d2_w32) (k0_pay11 (k0_pay2 x0) (iota .tc S1x1x1024 32 [2] iota_S1x1x1024_d2_w32) (k0_pay9 (k0_pay2 x0) (iota .tc S1x1x1024 32 [2] iota_S1x1x1024_d2_w32) (k0_pay7 (k0_pay2 x0) (iota .tc S1x1x1024 32 [2] iota_S1x1x1024_d2_w32) (k0_pay5 (k0_pay2 x0) (iota .tc S1x1x1024 32 [2] iota_S1x1x1024_d2_w32) (k0_pay3 x0) (k0_pay4 x0)) (k0_pay6 (k0_pay2 x0))) (k0_pay8 (k0_pay2 x0))) (k0_pay10 (k0_pay2 x0))) (k0_pay12 (k0_pay2 x0))) (k0_pay14 (k0_pay2 x0))) (k0_pay16 (k0_pay2 x0))) (k0_pay18 (k0_pay2 x0)) x1

/-- Entry `(r, d)` of the stored block: the marked prototypes' coordinate-`d` sum over the larger of the row's
    count and one. -/
theorem seg_payload (x0 : Vec Ideal S128x400 .i32) (x1 : Vec Ideal S1024x128 .f32) (r d : Fin 128) :
    segPay x0 x1 (ix2 r d)
      = Ideal.div (∑ p : Fin 1024, Spec.mask (fun j => x0 (ix2 r j)) p * x1 (ix2 p d))
          (max (Spec.count (fun j => x0 (ix2 r j))) 1) := by
  have h17 := pay17_seen (pay15_seen (pay13_seen (pay11_seen (pay9_seen (pay7_seen (pay5_seen (pay3_seen x0)))))))
  refine (pay1_apply h17 x1 r d).trans ?_
  rw [pay2_eq]

end Cert.Bridge

end
-- ==== Proof.Blocks0.lean ====
/-
  The segment-mean call, from blocks to the array. Grid point `t` (of 32) reads rows `128 t … 128 t + 127` of the
  merged ids and the whole prototype table, and writes back rows `128 t … 128 t + 127` of the result. The rows of
  the 32 points tile the 4096 samples, so the result array after the call is one function of the two arrays the
  call finds: at `(b, d)` the sum of the prototypes marked by row `b`'s ids, coordinate `d`, over the larger of
  the row's count and one.
-/
import proofs.«413471_j87076166959612_3_alg».proof.Proof.FrameI
import proofs.«413471_j87076166959612_3_alg».proof.Proof.SegPayload
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

namespace Cert.Bridge

variable (V : (c : Dev nD) → (b : Ref sig .tc) → Buf (Elt Ideal) ((c : Thread nD τ).loc b))

theorem hz2 : (![0, 0] : Fin 2 → Nat) = fun _ => 0 := funext fun a => by fin_cases a <;> rfl

/-- The call's index maps over its 32 grid points: the id window and the result window move down the rows with
    the point, the prototype window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 32 :=
  (by decide +kernel : ∀ t : Fin grid0.N, _)

/-- The result array as one function of the merged ids and the prototype table. -/
def segArr (mg : S4096x400.Idx → Elt Ideal .i32) (proto : S1024x128.Idx → Elt Ideal .f32) : S4096x128.Idx → Elt Ideal .f32 :=
  fun i => Ideal.div (∑ p : Fin 1024, Spec.mask (fun j => mg (ix2 ⟨(i 0).val, idx2_lt0 i⟩ j)) p * proto (ix2 p ⟨(i 1).val, idx2_lt1 i⟩))
    (max (Spec.count (fun j => mg (ix2 ⟨(i 0).val, idx2_lt0 i⟩ j))) 1)

/-- The id window's block at point `t` is rows `128 t …` of the merged ids. -/
theorem iblk0_ids (c : Dev nD) (t : Fin cfg0.N) (r : Fin 128) (j : Fin 400) (k : S4096x400.Idx)
    (hk0 : (k 0).val = 128 * t.val + r.val) (hk1 : (k 1).val = j.val) :
    (iblk0 V c 0 t : Vec Ideal S128x400 .i32) (ix2 r j) = (V c main_v54 : S4096x400.Idx → Elt Ideal .i32) k := by
  obtain ⟨e0, e1, -⟩ := idx0 t
  unfold iblk0
  rw [View.read_apply]
  show V c main_v54 _ = V c main_v54 _
  congr 1
  funext a
  apply Fin.ext
  match a with
  | ⟨0, _⟩ => show win0_0.index t (0 : Fin 2) * 128 + 1 * r.val = (k 0).val; rw [e0, hk0]; omega
  | ⟨1, _⟩ => show win0_0.index t (1 : Fin 2) * 400 + 1 * j.val = (k 1).val; rw [e1, hk1]; omega

/-- The prototype window's block at every point is the whole table. -/
theorem iblk0_proto (c : Dev nD) (t : Fin cfg0.N) (p : Fin 1024) (d : Fin 128) :
    (iblk0 V c 1 t : Vec Ideal S1024x128 .f32) (ix2 p d) = (V c main_arg5 : S1024x128.Idx → Elt Ideal .f32) (ix2 p d) := by
  obtain ⟨-, -, e2, e3, -⟩ := idx0 t
  unfold iblk0
  rw [View.read_apply]
  show V c main_arg5 _ = V c main_arg5 _
  congr 1
  funext a
  apply Fin.ext
  match a with
  | ⟨0, _⟩ => show win0_1.index t (0 : Fin 2) * 1024 + 1 * p.val = p.val; rw [e2]; omega
  | ⟨1, _⟩ => show win0_1.index t (1 : Fin 2) * 128 + 1 * d.val = d.val; rw [e3]; omega

/-- What point `t` writes back is block `t` of `segArr` of the arrays the call finds. -/
theorem flushed0_eq (c : Dev nD) (t : Fin cfg0.N) (hf : (cfg0.win 2).flush t = true) :
    (dat0 V c).flushed 2 t = ((cfg0.win 2).blk t).view.read (Elt Ideal) (segArr (V c main_v54) (V c main_arg5)) := by
  obtain ⟨-, -, -, -, e4, e5, hN⟩ := idx0 t
  show (cfg0.win 2).cut (grid0.coords t) ((dat0 V c).after 2 t) = _
  rw [after0_2]
  unfold out0_2
  rw [View.canon_unit_zero hz2]
  simp only [View.ld_unit_zero (S := S128x400) hz2, View.ld_unit_zero (S := S1024x128) hz2]
  funext y
  obtain ⟨r, d, rfl⟩ : ∃ (r : Fin 128) (d : Fin 128), y = ix2 r d := ⟨y 0, y 1, eq_ix2 y⟩
  rw [View.read_apply]
  show segPay (iblk0 V c 0 t) (iblk0 V c 1 t) (ix2 r d) = _
  refine (seg_payload (iblk0 V c 0 t) (iblk0 V c 1 t) r d).trans ?_
  have hi0 : ((((cfg0.win 2).blk t).view.emb (ix2 r d)) 0).val = 128 * t.val + r.val := by
    show win0_2.index t (0 : Fin 2) * 128 + 1 * r.val = _; rw [e4]; omega
  have hi1 : ((((cfg0.win 2).blk t).view.emb (ix2 r d)) 1).val = d.val := by
    show win0_2.index t (1 : Fin 2) * 128 + 1 * d.val = _; rw [e5]; omega
  have hrow : (fun j : Fin 400 => (iblk0 V c 0 t : Vec Ideal S128x400 .i32) (ix2 r j))
      = fun j => (V c main_v54 : S4096x400.Idx → Elt Ideal .i32) (ix2 ⟨((((cfg0.win 2).blk t).view.emb (ix2 r d)) 0).val, idx2_lt0 _⟩ j) :=
    funext fun j => iblk0_ids V c t r j _ hi0 rfl
  unfold segArr
  rw [hrow]
  refine congrArg (fun s => Ideal.div s _) (Finset.sum_congr rfl fun p _ => ?_)
  rw [iblk0_proto V c t p d]
  refine congrArg (fun q => _ * (V c main_arg5 : S1024x128.Idx → Elt Ideal .f32) (ix2 p q)) (Fin.ext hi1.symm)

/-- The 32 blocks cover the array: sample `b` lies in the block of point `b / 128`. -/
theorem cover0 (i : S4096x128.Idx) : ∃ t : Fin cfg0.N, (cfg0.win 2).flush t = true ∧ i ∈ ((cfg0.win 2).blk t).view.set := by
  have h0 : (i 0).val < 4096 := (i 0).isLt
  have h1 : (i 1).val < 128 := (i 1).isLt
  have hN : cfg0.N = 32 := N_0
  obtain ⟨t, ht⟩ : ∃ t : Fin cfg0.N, t.val = (i 0).val / 128 := ⟨⟨(i 0).val / 128, by rw [hN]; omega⟩, rfl⟩
  refine ⟨t, flush0_2 t, ?_⟩
  obtain ⟨-, -, -, -, e4, e5, -⟩ := idx0 t
  show i ∈ ((View.whole main_v55).slice (win0_2.rect t)).set
  rw [View.set_slice_whole, Rect.mem_set_unit]
  intro a
  match a with
  | ⟨0, _⟩ => show win0_2.index t (0 : Fin 2) * 128 ≤ (i 0).val ∧ (i 0).val < win0_2.index t (0 : Fin 2) * 128 + 128; rw [e4, ht]; omega
  | ⟨1, _⟩ => show win0_2.index t (1 : Fin 2) * 128 ≤ (i 1).val ∧ (i 1).val < win0_2.index t (1 : Fin 2) * 128 + 128; rw [e5]; omega

/-- The result array after the call. -/
theorem final0 (c : Dev nD) : (dat0 V c).arrAt 2 cfg0.N = segArr (V c main_v54) (V c main_arg5) :=
  (dat0 V c).arrAt_eq_of_cover 2 (segArr (V c main_v54) (V c main_arg5)) (flushed0_eq V c) (cover0)

end Cert.Bridge

end
-- ==== Proof.Mlp1Payload.lean ====
/-
  The first layer's kernel on one block of 1024 samples, read at an entry: each sample's row is the
  first layer of `Spec.z1row` applied to that sample's rows of the block's inputs.
-/
import proofs.«413471_j87076166959612_3_alg».proof.Proof.Spec
import proofs.«413471_j87076166959612_3_alg».proof.Proof.Gen.KernelIdeal.Skeleton
import Idealize.ShloMosaic.Lib.Pipeline.Value
import Idealize.ShloMosaic.Lib.ValueLayout

noncomputable section

open Idealize.ShloMosaic Idealize.ShloMosaic.TcCoe Idealize.ShloMosaic.ValueIdx
open Cert.KernelIdeal Cert.KernelIdeal.Gen

namespace Cert.Bridge

/-! ## A product with a zero accumulator, read at an entry

For each of the three dimension records the body uses (contraction over 384, 768 and 128 coordinates) the operand
indices at the result index `(r, n)` and the contraction coordinate `k` are `(r, k)` and `(k, n)`; the four
coordinate facts are stated axis by axis. -/

/-! ### Contraction over the 384 text coordinates -/

theorem lhsT_0 (i : S1024x128.Idx) (q : dot_S1024x384_S384x128_S1024x128_1_0_0_1_n_n.contr.Idx) :
    (dot_S1024x384_S384x128_S1024x128_1_0_0_1_n_n.lhsIdx i q 0).val = (i 0).val := by
  unfold DotDims.lhsIdx
  rw [dif_neg (show ¬(0 : Fin S1024x384.rank) ∈ dot_S1024x384_S384x128_S1024x128_1_0_0_1_n_n.lhsBatch by decide),
    dif_pos (show (0 : Fin S1024x384.rank) ∈ dot_S1024x384_S384x128_S1024x128_1_0_0_1_n_n.lhsNonContracting by decide)]
  rfl
theorem lhsT_1 (i : S1024x128.Idx) (q : dot_S1024x384_S384x128_S1024x128_1_0_0_1_n_n.contr.Idx) :
    (dot_S1024x384_S384x128_S1024x128_1_0_0_1_n_n.lhsIdx i q 1).val = (q ⟨0, by decide⟩).val :=
  dot_S1024x384_S384x128_S1024x128_1_0_0_1_n_n.lhsIdx_val_of_single rfl i q
theorem rhsT_0 (i : S1024x128.Idx) (q : dot_S1024x384_S384x128_S1024x128_1_0_0_1_n_n.contr.Idx) :
    (dot_S1024x384_S384x128_S1024x128_1_0_0_1_n_n.rhsIdx i q 0).val = (q ⟨0, by decide⟩).val :=
  dot_S1024x384_S384x128_S1024x128_1_0_0_1_n_n.rhsIdx_val_of_single rfl i q
theorem rhsT_1 (i : S1024x128.Idx) (q : dot_S1024x384_S384x128_S1024x128_1_0_0_1_n_n.contr.Idx) :
    (dot_S1024x384_S384x128_S1024x128_1_0_0_1_n_n.rhsIdx i q 1).val = (i 1).val := by
  unfold DotDims.rhsIdx
  rw [dif_neg (show ¬(1 : Fin S384x128.rank) ∈ dot_S1024x384_S384x128_S1024x128_1_0_0_1_n_n.rhsBatch by decide),
    dif_pos (show (1 : Fin S384x128.rank) ∈ dot_S1024x384_S384x128_S1024x128_1_0_0_1_n_n.rhsNonContracting by decide)]
  rfl

/-- Entry `(r, n)` of the product is the sum over the 384 coordinates of row `r` against column `n`. -/
theorem matmulT_apply (a : FVec Ideal S1024x384 .bf16) (b : FVec Ideal S384x128 .bf16) (r : Fin 1024) (n : Fin 128) :
    matmul dot_S1024x384_S384x128_S1024x128_1_0_0_1_n_n none a b (constant (F := Ideal) S1024x128 .f32 0x00000000#32) (ix2 r n)
      = ∑ k : Fin 384, a (ix2 r k) * b (ix2 k n) := by
  simp only [matmul]
  rw [Ideal.matmul_constant_zero_apply,
    ← Equiv.sum_comp (contrEquiv1 dot_S1024x384_S384x128_S1024x128_1_0_0_1_n_n 384 rfl rfl).symm]
  refine Finset.sum_congr rfl fun k _ => ?_
  have hk := contrEquiv1_symm_val dot_S1024x384_S384x128_S1024x128_1_0_0_1_n_n 384 rfl rfl k
  have el : dot_S1024x384_S384x128_S1024x128_1_0_0_1_n_n.lhsIdx (ix2 r n)
      ((contrEquiv1 dot_S1024x384_S384x128_S1024x128_1_0_0_1_n_n 384 rfl rfl).symm k) = ix2 r k :=
    funext fun ax => Fin.ext (by
      match ax with
      | ⟨0, _⟩ => exact lhsT_0 _ _
      | ⟨1, _⟩ => exact (lhsT_1 _ _).trans hk)
  have er : dot_S1024x384_S384x128_S1024x128_1_0_0_1_n_n.rhsIdx (ix2 r n)
      ((contrEquiv1 dot_S1024x384_S384x128_S1024x128_1_0_0_1_n_n 384 rfl rfl).symm k) = ix2 k n :=
    funext fun ax => Fin.ext (by
      match ax with
      | ⟨0, _⟩ => exact (rhsT_0 _ _).trans hk
      | ⟨1, _⟩ => exact rhsT_1 _ _)
  rw [el, er]

/-! ### Contraction over the 768 visual coordinates -/

theorem lhsV_0 (i : S1024x128.Idx) (q : dot_S1024x768_S768x128_S1024x128_1_0_0_1_n_n.contr.Idx) :
    (dot_S1024x768_S768x128_S1024x128_1_0_0_1_n_n.lhsIdx i q 0).val = (i 0).val := by
  unfold DotDims.lhsIdx
  rw [dif_neg (show ¬(0 : Fin S1024x768.rank) ∈ dot_S1024x768_S768x128_S1024x128_1_0_0_1_n_n.lhsBatch by decide),
    dif_pos (show (0 : Fin S1024x768.rank) ∈ dot_S1024x768_S768x128_S1024x128_1_0_0_1_n_n.lhsNonContracting by decide)]
  rfl
theorem lhsV_1 (i : S1024x128.Idx) (q : dot_S1024x768_S768x128_S1024x128_1_0_0_1_n_n.contr.Idx) :
    (dot_S1024x768_S768x128_S1024x128_1_0_0_1_n_n.lhsIdx i q 1).val = (q ⟨0, by decide⟩).val :=
  dot_S1024x768_S768x128_S1024x128_1_0_0_1_n_n.lhsIdx_val_of_single rfl i q
theorem rhsV_0 (i : S1024x128.Idx) (q : dot_S1024x768_S768x128_S1024x128_1_0_0_1_n_n.contr.Idx) :
    (dot_S1024x768_S768x128_S1024x128_1_0_0_1_n_n.rhsIdx i q 0).val = (q ⟨0, by decide⟩).val :=
  dot_S1024x768_S768x128_S1024x128_1_0_0_1_n_n.rhsIdx_val_of_single rfl i q
theorem rhsV_1 (i : S1024x128.Idx) (q : dot_S1024x768_S768x128_S1024x128_1_0_0_1_n_n.contr.Idx) :
    (dot_S1024x768_S768x128_S1024x128_1_0_0_1_n_n.rhsIdx i q 1).val = (i 1).val := by
  unfold DotDims.rhsIdx
  rw [dif_neg (show ¬(1 : Fin S768x128.rank) ∈ dot_S1024x768_S768x128_S1024x128_1_0_0_1_n_n.rhsBatch by decide),
    dif_pos (show (1 : Fin S768x128.rank) ∈ dot_S1024x768_S768x128_S1024x128_1_0_0_1_n_n.rhsNonContracting by decide)]
  rfl

/-- Entry `(r, n)` of the product is the sum over the 768 coordinates of row `r` against column `n`. -/
theorem matmulV_apply (a : FVec Ideal S1024x768 .bf16) (b : FVec Ideal S768x128 .bf16) (r : Fin 1024) (n : Fin 128) :
    matmul dot_S1024x768_S768x128_S1024x128_1_0_0_1_n_n none a b (constant (F := Ideal) S1024x128 .f32 0x00000000#32) (ix2 r n)
      = ∑ k : Fin 768, a (ix2 r k) * b (ix2 k n) := by
  simp only [matmul]
  rw [Ideal.matmul_constant_zero_apply,
    ← Equiv.sum_comp (contrEquiv1 dot_S1024x768_S768x128_S1024x128_1_0_0_1_n_n 768 rfl rfl).symm]
  refine Finset.sum_congr rfl fun k _ => ?_
  have hk := contrEquiv1_symm_val dot_S1024x768_S768x128_S1024x128_1_0_0_1_n_n 768 rfl rfl k
  have el : dot_S1024x768_S768x128_S1024x128_1_0_0_1_n_n.lhsIdx (ix2 r n)
      ((contrEquiv1 dot_S1024x768_S768x128_S1024x128_1_0_0_1_n_n 768 rfl rfl).symm k) = ix2 r k :=
    funext fun ax => Fin.ext (by
      match ax with
      | ⟨0, _⟩ => exact lhsV_0 _ _
      | ⟨1, _⟩ => exact (lhsV_1 _ _).trans hk)
  have er : dot_S1024x768_S768x128_S1024x128_1_0_0_1_n_n.rhsIdx (ix2 r n)
      ((contrEquiv1 dot_S1024x768_S768x128_S1024x128_1_0_0_1_n_n 768 rfl rfl).symm k) = ix2 k n :=
    funext fun ax => Fin.ext (by
      match ax with
      | ⟨0, _⟩ => exact (rhsV_0 _ _).trans hk
      | ⟨1, _⟩ => exact rhsV_1 _ _)
  rw [el, er]

/-! ### Contraction over the 128 feature coordinates (both halves of the first layer use this record) -/

theorem lhsW_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhsW_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhsW_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhsW_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- Entry `(r, n)` of the product is the sum over the 128 coordinates of row `r` against column `n`. -/
theorem matmulW_apply (a : FVec Ideal S1024x128 .bf16) (b : FVec Ideal S128x128 .bf16) (r : Fin 1024) (n : Fin 128) :
    matmul dot_S1024x128_S128x128_S1024x128_1_0_0_1_n_n none a b (constant (F := Ideal) S1024x128 .f32 0x00000000#32) (ix2 r n)
      = ∑ k : Fin 128, a (ix2 r k) * b (ix2 k n) := by
  simp only [matmul]
  rw [Ideal.matmul_constant_zero_apply,
    ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r n)
      ((contrEquiv1 dot_S1024x128_S128x128_S1024x128_1_0_0_1_n_n 128 rfl rfl).symm k) = ix2 r k :=
    funext fun ax => Fin.ext (by
      match ax with
      | ⟨0, _⟩ => exact lhsW_0 _ _
      | ⟨1, _⟩ => exact (lhsW_1 _ _).trans hk)
  have er : dot_S1024x128_S128x128_S1024x128_1_0_0_1_n_n.rhsIdx (ix2 r n)
      ((contrEquiv1 dot_S1024x128_S128x128_S1024x128_1_0_0_1_n_n 128 rfl rfl).symm k) = ix2 k n :=
    funext fun ax => Fin.ext (by
      match ax with
      | ⟨0, _⟩ => exact (rhsW_0 _ _).trans hk
      | ⟨1, _⟩ => exact rhsW_1 _ _)
  rw [el, er]

/-! ## The bias rows -/

/-- A bias of length `K`, laid out as one row and repeated over the 1024 rows, reads at `(r, j)` the bias at `j`. -/
theorem biasRows_apply {α : Type} {K : ℕ} (x : (⟨1, ![K]⟩ : Shape).Idx → α) (h1 : (⟨1, ![K]⟩ : Shape).ShapeCasts ⟨2, ![1, K]⟩)
    (h2 : (⟨2, ![1, K]⟩ : Shape).Broadcasts ⟨2, ![1024, K]⟩) (r : Fin 1024) (j : Fin K) :
    broadcastTo ⟨2, ![1024, K]⟩ (shapeCast ⟨2, ![1, K]⟩ x h1) h2 (ix2 r j) = x (ix1 j) := by
  rw [broadcastTo_1b_ab_apply, shapeCast_a_1a_apply]

/-! ## The four intermediate values at an entry -/

/-- The history feature: the segment mean plus the domain prompt (the cast to the same shape and the narrowing of the
    format are the identity on the extended reals). -/
theorem pay2_apply (x6 x7 : Vec Ideal S1024x128 .f32) (r : Fin 1024) (k : Fin 128) :
    k1_pay2 x6 x7 (ix2 r k) = x6 (ix2 r k) + x7 (ix2 r k) := by
  unfold k1_pay2
  simp only [shapeCast_self]
  rfl

/-- The left half of the first layer's weight is passed on unchanged. -/
theorem pay4_apply (x9 : Vec Ideal S128x128 .f32) (k n : Fin 128) :
    k1_pay4 x9 (ix2 k n) = x9 (ix2 k n) := by
  unfold k1_pay4
  simp only [shapeCast_self]
  rfl

/-- The item feature: the item prompt plus the projected text feature plus the projected visual feature, each
    projection being the centred row against the transposed weight. -/
theorem pay3_apply (x0 : Vec Ideal S1024x384 .f32) (x2 : Vec Ideal S384 .f32) (x1 : Vec Ideal S1024x768 .f32)
    (x3 : Vec Ideal S768 .f32) (x4 : Vec Ideal S384x128 .f32) (x5 : Vec Ideal S768x128 .f32) (x8 : Vec Ideal S1024x128 .f32)
    (r : Fin 1024) (k : Fin 128) :
    k1_pay3 x0 x2 x1 x3 x4 x5 x8 (ix2 r k)
      = x8 (ix2 r k) + (∑ j : Fin 384, (x0 (ix2 r j) - x2 (ix1 j)) * x4 (ix2 j k))
          + ∑ j : Fin 768, (x1 (ix2 r j) - x3 (ix1 j)) * x5 (ix2 j k) := by
  unfold k1_pay3
  simp only [shapeCast_self]
  rw [truncf_apply, addf_apply, addf_apply, matmulT_apply, matmulV_apply]
  simp only [truncf_apply, subf_apply, biasRows_apply]

/-- The stored value from its four operands: both products, their sum, the bias row, and the maximum with zero. -/
theorem pay1_apply (a c : FVec Ideal S1024x128 .bf16) (b : FVec Ideal S128x128 .bf16) (x10 : Vec Ideal S128x128 .f32)
    (x11 : Vec Ideal S128 .f32) (r : Fin 1024) (n : Fin 128) :
    k1_pay1 a c b x10 x11 (ix2 r n)
      = max (((∑ k : Fin 128, a (ix2 r k) * b (ix2 k n)) + ∑ k : Fin 128, c (ix2 r k) * x10 (ix2 k n)) + x11 (ix1 n)) 0 := by
  unfold k1_pay1
  simp only [shapeCast_self]
  rw [maximumf_apply, addf_apply, addf_apply, matmulW_apply, matmulW_apply, biasRows_apply, broadcast_apply]
  simp only [truncf_apply]
  show max _ (Ideal.ofBits .f32 0x00000000#32) = _
  rw [Ideal.ofBits_zero_f32]

/-- The value the body stores, as the generated frame composes it from the twelve input blocks. -/
abbrev mlp1Pay (x0 : Vec Ideal S1024x384 .f32) (x1 : Vec Ideal S1024x768 .f32) (x2 : Vec Ideal S384 .f32) (x3 : Vec Ideal S768 .f32)
    (x4 : Vec Ideal S384x128 .f32) (x5 : Vec Ideal S768x128 .f32) (x6 x7 x8 : Vec Ideal S1024x128 .f32)
    (x9 x10 : Vec Ideal S128x128 .f32) (x11 : Vec Ideal S128 .f32) : FVec Ideal S1024x128 .f32 :=
  k1_pay1 (k1_pay2 x6 x7) (k1_pay3 x0 x2 x1 x3 x4 x5 x8) (k1_pay4 x9) x10 x11

/-- Entry `(r, n)` of the stored block. `x6, x7, x8`: the segment mean, the domain prompt and the item prompt rows;
    `x0, x1`: the gathered text and visual rows; `x2, x3`: their biases; `x4, x5`: the projections, transposed;
    `x9, x10`: the two halves of the first layer's weight, transposed; `x11`: its bias. -/
theorem mlp1_payload (x0 : Vec Ideal S1024x384 .f32) (x1 : Vec Ideal S1024x768 .f32) (x2 : Vec Ideal S384 .f32) (x3 : Vec Ideal S768 .f32)
    (x4 : Vec Ideal S384x128 .f32) (x5 : Vec Ideal S768x128 .f32) (x6 x7 x8 : Vec Ideal S1024x128 .f32)
    (x9 x10 : Vec Ideal S128x128 .f32) (x11 : Vec Ideal S128 .f32) (r : Fin 1024) (n : Fin 128) :
    mlp1Pay x0 x1 x2 x3 x4 x5 x6 x7 x8 x9 x10 x11 (ix2 r n)
      = Spec.z1row (fun k => x6 (ix2 r k)) (fun k => x7 (ix2 r k)) (fun k => x8 (ix2 r k))
          (fun j => x0 (ix2 r j)) (fun j => x2 (ix1 j)) (fun j => x1 (ix2 r j)) (fun j => x3 (ix1 j))
          (fun j k => x4 (ix2 j k)) (fun j k => x5 (ix2 j k)) (fun k n => x9 (ix2 k n)) (fun k n => x10 (ix2 k n))
          (fun n => x11 (ix1 n)) n := by
  unfold mlp1Pay Spec.z1row Spec.proj
  rw [pay1_apply]
  simp only [pay2_apply, pay3_apply, pay4_apply]

end Cert.Bridge

end
-- ==== Proof.Blocks1.lean ====
/-
  The first layer's call, from blocks to the array. Grid point `t` (of 4) reads rows `1024 t … 1024 t + 1023` of the
  five row-blocked arrays (gathered text rows, gathered visual rows, segment mean, domain prompt rows, item prompt
  rows) and the whole of the seven others (the two biases, the two projections, the two halves of the first layer's
  weight, its bias), and writes back rows `1024 t … 1024 t + 1023` of the result. The four row blocks tile the 4096
  samples, so the result array after the call is one function of the twelve arrays the call finds: row `b` is
  `Spec.z1row` of row `b` of the row-blocked arrays and the whole others.
-/
import proofs.«413471_j87076166959612_3_alg».proof.Proof.FrameI
import proofs.«413471_j87076166959612_3_alg».proof.Proof.Mlp1Payload
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

namespace Cert.Bridge

variable (V : (c : Dev nD) → (b : Ref sig .tc) → Buf (Elt Ideal) ((c : Thread nD τ).loc b))

/-- The result array as one function of the twelve arrays the call finds (in the call's operand order: gathered
    text rows, gathered visual rows, text bias, visual bias, text projection, visual projection, segment mean,
    domain prompt rows, item prompt rows, left and right half of the first layer's weight, its bias). -/
def z1Arr (a0 : S4096x384.Idx → Elt Ideal .f32) (a1 : S4096x768.Idx → Elt Ideal .f32) (a2 : S384.Idx → Elt Ideal .f32)
    (a3 : S768.Idx → Elt Ideal .f32) (a4 : S384x128.Idx → Elt Ideal .f32) (a5 : S768x128.Idx → Elt Ideal .f32)
    (a6 a7 a8 : S4096x128.Idx → Elt Ideal .f32) (a9 a10 : S128x128.Idx → Elt Ideal .f32) (a11 : S128.Idx → Elt Ideal .f32) :
    S4096x128.Idx → Elt Ideal .f32 :=
  fun i => Spec.z1row (fun k => a6 (ix2 ⟨(i 0).val, idx2_lt0 i⟩ k)) (fun k => a7 (ix2 ⟨(i 0).val, idx2_lt0 i⟩ k))
    (fun k => a8 (ix2 ⟨(i 0).val, idx2_lt0 i⟩ k)) (fun j => a0 (ix2 ⟨(i 0).val, idx2_lt0 i⟩ j)) (fun j => a2 (ix1 j))
    (fun j => a1 (ix2 ⟨(i 0).val, idx2_lt0 i⟩ j)) (fun j => a3 (ix1 j)) (fun j k => a4 (ix2 j k)) (fun j k => a5 (ix2 j k))
    (fun k n => a9 (ix2 k n)) (fun k n => a10 (ix2 k n)) (fun n => a11 (ix1 n)) ⟨(i 1).val, idx2_lt1 i⟩

namespace Blocks1

/-! ## The index maps, decided over the four grid points -/

theorem zero2 : (![0, 0] : Fin 2 → Nat) = fun _ => 0 := funext fun a => by fin_cases a <;> rfl
theorem zero1 : (![0] : Fin 1 → Nat) = fun _ => 0 := funext fun a => by fin_cases a; rfl

/-- The row-blocked windows (the gathered text and visual rows, the segment mean, the two prompt rows, the result)
    sit at block `(t, 0)` at point `t`. -/
theorem idxRows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_12.index t (0 : Fin 2) = t.val ∧ win1_12.index t (1 : Fin 2) = 0) ∧ t.val < 4 :=
  (by decide +kernel : ∀ t : Fin grid1.N, _)

/-- The whole windows (the biases, the projections, the two halves of the weight) sit at block `0` on every axis
    at every point. -/
theorem idxWhole : ∀ t : Fin cfg1.N,
    win1_2.index t (0 : Fin 1) = 0 ∧ win1_3.index t (0 : Fin 1) = 0
    ∧ (win1_4.index t (0 : Fin 2) = 0 ∧ win1_4.index t (1 : Fin 2) = 0)
    ∧ (win1_5.index t (0 : Fin 2) = 0 ∧ win1_5.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ win1_11.index t (0 : Fin 1) = 0 :=
  (by decide +kernel : ∀ t : Fin grid1.N, _)

/-! ## Each window's block at a point, read at an entry

A block's coordinate on an axis is the block index times the block's extent plus the coordinate inside the block:
entry `(r, j)` of a row block at point `t` is entry `(1024 t + r, j)` of the array, and a whole window's block is the
array. -/

theorem read0 (A : S4096x384.Idx → Elt Ideal .f32) (t : Fin cfg1.N) (r : Fin 1024) (j : Fin 384) (k : S4096x384.Idx)
    (hk0 : (k 0).val = 1024 * t.val + r.val) (hk1 : (k 1).val = j.val) :
    (((cfg1.win 0).blk t).view.read (Elt Ideal) A : Vec Ideal S1024x384 .f32) (ix2 r j) = A k := by
  obtain ⟨⟨e0, e1⟩, -⟩ := idxRows t
  rw [View.read_apply]
  show A _ = A _
  congr 1
  funext a
  apply Fin.ext
  match a with
  | ⟨0, _⟩ => show win1_0.index t (0 : Fin 2) * 1024 + 1 * r.val = (k 0).val; rw [e0, hk0]; omega
  | ⟨1, _⟩ => show win1_0.index t (1 : Fin 2) * 384 + 1 * j.val = (k 1).val; rw [e1, hk1]; omega

theorem read1 (A : S4096x768.Idx → Elt Ideal .f32) (t : Fin cfg1.N) (r : Fin 1024) (j : Fin 768) (k : S4096x768.Idx)
    (hk0 : (k 0).val = 1024 * t.val + r.val) (hk1 : (k 1).val = j.val) :
    (((cfg1.win 1).blk t).view.read (Elt Ideal) A : Vec Ideal S1024x768 .f32) (ix2 r j) = A k := by
  obtain ⟨-, ⟨e0, e1⟩, -⟩ := idxRows t
  rw [View.read_apply]
  show A _ = A _
  congr 1
  funext a
  apply Fin.ext
  match a with
  | ⟨0, _⟩ => show win1_1.index t (0 : Fin 2) * 1024 + 1 * r.val = (k 0).val; rw [e0, hk0]; omega
  | ⟨1, _⟩ => show win1_1.index t (1 : Fin 2) * 768 + 1 * j.val = (k 1).val; rw [e1, hk1]; omega

theorem read2 (A : S384.Idx → Elt Ideal .f32) (t : Fin cfg1.N) (j : Fin 384) :
    (((cfg1.win 2).blk t).view.read (Elt Ideal) A : Vec Ideal S384 .f32) (ix1 j) = A (ix1 j) := by
  obtain ⟨e0, -⟩ := idxWhole t
  rw [View.read_apply]
  show A _ = A _
  congr 1
  funext a
  apply Fin.ext
  match a with
  | ⟨0, _⟩ => show win1_2.index t (0 : Fin 1) * 384 + 1 * j.val = j.val; rw [e0]; omega

theorem read3 (A : S768.Idx → Elt Ideal .f32) (t : Fin cfg1.N) (j : Fin 768) :
    (((cfg1.win 3).blk t).view.read (Elt Ideal) A : Vec Ideal S768 .f32) (ix1 j) = A (ix1 j) := by
  obtain ⟨-, e0, -⟩ := idxWhole t
  rw [View.read_apply]
  show A _ = A _
  congr 1
  funext a
  apply Fin.ext
  match a with
  | ⟨0, _⟩ => show win1_3.index t (0 : Fin 1) * 768 + 1 * j.val = j.val; rw [e0]; omega

theorem read4 (A : S384x128.Idx → Elt Ideal .f32) (t : Fin cfg1.N) (j : Fin 384) (k : Fin 128) :
    (((cfg1.win 4).blk t).view.read (Elt Ideal) A : Vec Ideal S384x128 .f32) (ix2 j k) = A (ix2 j k) := by
  obtain ⟨-, -, ⟨e0, e1⟩, -⟩ := idxWhole t
  rw [View.read_apply]
  show A _ = A _
  congr 1
  funext a
  apply Fin.ext
  match a with
  | ⟨0, _⟩ => show win1_4.index t (0 : Fin 2) * 384 + 1 * j.val = j.val; rw [e0]; omega
  | ⟨1, _⟩ => show win1_4.index t (1 : Fin 2) * 128 + 1 * k.val = k.val; rw [e1]; omega

theorem read5 (A : S768x128.Idx → Elt Ideal .f32) (t : Fin cfg1.N) (j : Fin 768) (k : Fin 128) :
    (((cfg1.win 5).blk t).view.read (Elt Ideal) A : Vec Ideal S768x128 .f32) (ix2 j k) = A (ix2 j k) := by
  obtain ⟨-, -, -, ⟨e0, e1⟩, -⟩ := idxWhole t
  rw [View.read_apply]
  show A _ = A _
  congr 1
  funext a
  apply Fin.ext
  match a with
  | ⟨0, _⟩ => show win1_5.index t (0 : Fin 2) * 768 + 1 * j.val = j.val; rw [e0]; omega
  | ⟨1, _⟩ => show win1_5.index t (1 : Fin 2) * 128 + 1 * k.val = k.val; rw [e1]; omega

theorem read6 (A : S4096x128.Idx → Elt Ideal .f32) (t : Fin cfg1.N) (r : Fin 1024) (j : Fin 128) (k : S4096x128.Idx)
    (hk0 : (k 0).val = 1024 * t.val + r.val) (hk1 : (k 1).val = j.val) :
    (((cfg1.win 6).blk t).view.read (Elt Ideal) A : Vec Ideal S1024x128 .f32) (ix2 r j) = A k := by
  obtain ⟨-, -, ⟨e0, e1⟩, -⟩ := idxRows t
  rw [View.read_apply]
  show A _ = A _
  congr 1
  funext a
  apply Fin.ext
  match a with
  | ⟨0, _⟩ => show win1_6.index t (0 : Fin 2) * 1024 + 1 * r.val = (k 0).val; rw [e0, hk0]; omega
  | ⟨1, _⟩ => show win1_6.index t (1 : Fin 2) * 128 + 1 * j.val = (k 1).val; rw [e1, hk1]; omega

theorem read7 (A : S4096x128.Idx → Elt Ideal .f32) (t : Fin cfg1.N) (r : Fin 1024) (j : Fin 128) (k : S4096x128.Idx)
    (hk0 : (k 0).val = 1024 * t.val + r.val) (hk1 : (k 1).val = j.val) :
    (((cfg1.win 7).blk t).view.read (Elt Ideal) A : Vec Ideal S1024x128 .f32) (ix2 r j) = A k := by
  obtain ⟨-, -, -, ⟨e0, e1⟩, -⟩ := idxRows t
  rw [View.read_apply]
  show A _ = A _
  congr 1
  funext a
  apply Fin.ext
  match a with
  | ⟨0, _⟩ => show win1_7.index t (0 : Fin 2) * 1024 + 1 * r.val = (k 0).val; rw [e0, hk0]; omega
  | ⟨1, _⟩ => show win1_7.index t (1 : Fin 2) * 128 + 1 * j.val = (k 1).val; rw [e1, hk1]; omega

theorem read8 (A : S4096x128.Idx → Elt Ideal .f32) (t : Fin cfg1.N) (r : Fin 1024) (j : Fin 128) (k : S4096x128.Idx)
    (hk0 : (k 0).val = 1024 * t.val + r.val) (hk1 : (k 1).val = j.val) :
    (((cfg1.win 8).blk t).view.read (Elt Ideal) A : Vec Ideal S1024x128 .f32) (ix2 r j) = A k := by
  obtain ⟨-, -, -, -, ⟨e0, e1⟩, -⟩ := idxRows t
  rw [View.read_apply]
  show A _ = A _
  congr 1
  funext a
  apply Fin.ext
  match a with
  | ⟨0, _⟩ => show win1_8.index t (0 : Fin 2) * 1024 + 1 * r.val = (k 0).val; rw [e0, hk0]; omega
  | ⟨1, _⟩ => show win1_8.index t (1 : Fin 2) * 128 + 1 * j.val = (k 1).val; rw [e1, hk1]; omega

theorem read9 (A : S128x128.Idx → Elt Ideal .f32) (t : Fin cfg1.N) (j : Fin 128) (k : Fin 128) :
    (((cfg1.win 9).blk t).view.read (Elt Ideal) A : Vec Ideal S128x128 .f32) (ix2 j k) = A (ix2 j k) := by
  obtain ⟨-, -, -, -, ⟨e0, e1⟩, -⟩ := idxWhole t
  rw [View.read_apply]
  show A _ = A _
  congr 1
  funext a
  apply Fin.ext
  match a with
  | ⟨0, _⟩ => show win1_9.index t (0 : Fin 2) * 128 + 1 * j.val = j.val; rw [e0]; omega
  | ⟨1, _⟩ => show win1_9.index t (1 : Fin 2) * 128 + 1 * k.val = k.val; rw [e1]; omega

theorem read10 (A : S128x128.Idx → Elt Ideal .f32) (t : Fin cfg1.N) (j : Fin 128) (k : Fin 128) :
    (((cfg1.win 10).blk t).view.read (Elt Ideal) A : Vec Ideal S128x128 .f32) (ix2 j k) = A (ix2 j k) := by
  obtain ⟨-, -, -, -, -, ⟨e0, e1⟩, -⟩ := idxWhole t
  rw [View.read_apply]
  show A _ = A _
  congr 1
  funext a
  apply Fin.ext
  match a with
  | ⟨0, _⟩ => show win1_10.index t (0 : Fin 2) * 128 + 1 * j.val = j.val; rw [e0]; omega
  | ⟨1, _⟩ => show win1_10.index t (1 : Fin 2) * 128 + 1 * k.val = k.val; rw [e1]; omega

theorem read11 (A : S128.Idx → Elt Ideal .f32) (t : Fin cfg1.N) (j : Fin 128) :
    (((cfg1.win 11).blk t).view.read (Elt Ideal) A : Vec Ideal S128 .f32) (ix1 j) = A (ix1 j) := by
  obtain ⟨-, -, -, -, -, -, e0⟩ := idxWhole t
  rw [View.read_apply]
  show A _ = A _
  congr 1
  funext a
  apply Fin.ext
  match a with
  | ⟨0, _⟩ => show win1_11.index t (0 : Fin 1) * 128 + 1 * j.val = j.val; rw [e0]; omega

/-! ## One stored entry -/

/-- Entry `(r, n)` of the block a point stores, when the point's twelve blocks are the rows and the whole arrays
    that array index `i` names (row `i 0` of the row-blocked arrays, column `i 1 = n`), is `z1Arr` at `i`. -/
theorem blockEntry (a0 : S4096x384.Idx → Elt Ideal .f32) (a1 : S4096x768.Idx → Elt Ideal .f32) (a2 : S384.Idx → Elt Ideal .f32)
    (a3 : S768.Idx → Elt Ideal .f32) (a4 : S384x128.Idx → Elt Ideal .f32) (a5 : S768x128.Idx → Elt Ideal .f32)
    (a6 a7 a8 : S4096x128.Idx → Elt Ideal .f32) (a9 a10 : S128x128.Idx → Elt Ideal .f32) (a11 : S128.Idx → Elt Ideal .f32)
    (x0 : Vec Ideal S1024x384 .f32) (x1 : Vec Ideal S1024x768 .f32) (x2 : Vec Ideal S384 .f32) (x3 : Vec Ideal S768 .f32)
    (x4 : Vec Ideal S384x128 .f32) (x5 : Vec Ideal S768x128 .f32) (x6 x7 x8 : Vec Ideal S1024x128 .f32)
    (x9 x10 : Vec Ideal S128x128 .f32) (x11 : Vec Ideal S128 .f32)
    (i : S4096x128.Idx) (r : Fin 1024) (n : Fin 128) (hn : n = ⟨(i 1).val, idx2_lt1 i⟩)
    (h0 : ∀ j, x0 (ix2 r j) = a0 (ix2 ⟨(i 0).val, idx2_lt0 i⟩ j))
    (h1 : ∀ j, x1 (ix2 r j) = a1 (ix2 ⟨(i 0).val, idx2_lt0 i⟩ j))
    (h2 : ∀ j, x2 (ix1 j) = a2 (ix1 j)) (h3 : ∀ j, x3 (ix1 j) = a3 (ix1 j))
    (h4 : ∀ j k, x4 (ix2 j k) = a4 (ix2 j k)) (h5 : ∀ j k, x5 (ix2 j k) = a5 (ix2 j k))
    (h6 : ∀ k, x6 (ix2 r k) = a6 (ix2 ⟨(i 0).val, idx2_lt0 i⟩ k))
    (h7 : ∀ k, x7 (ix2 r k) = a7 (ix2 ⟨(i 0).val, idx2_lt0 i⟩ k))
    (h8 : ∀ k, x8 (ix2 r k) = a8 (ix2 ⟨(i 0).val, idx2_lt0 i⟩ k))
    (h9 : ∀ k m, x9 (ix2 k m) = a9 (ix2 k m)) (h10 : ∀ k m, x10 (ix2 k m) = a10 (ix2 k m))
    (h11 : ∀ m, x11 (ix1 m) = a11 (ix1 m)) :
    mlp1Pay x0 x1 x2 x3 x4 x5 x6 x7 x8 x9 x10 x11 (ix2 r n) = z1Arr a0 a1 a2 a3 a4 a5 a6 a7 a8 a9 a10 a11 i := by
  refine (mlp1_payload x0 x1 x2 x3 x4 x5 x6 x7 x8 x9 x10 x11 r n).trans ?_
  subst hn
  unfold z1Arr
  rw [funext h0, funext h1, funext h2, funext h3, funext fun j => funext (h4 j), funext fun j => funext (h5 j),
    funext h6, funext h7, funext h8, funext fun k => funext (h9 k), funext fun k => funext (h10 k), funext h11]
/-! ## The block a point writes back, and the cover -/

/-- What a point stores, cut to its block, is the block of `z1Arr` of the twelve arrays: entry by entry, the block's
    entry `(r, n)` sits at array index `(1024 t + r, n)`, whose row of each row-blocked array is row `r` of the
    point's block of it, the whole arrays being read whole. -/
theorem storedBlock (A0 : S4096x384.Idx → Elt Ideal .f32) (A1 : S4096x768.Idx → Elt Ideal .f32) (A2 : S384.Idx → Elt Ideal .f32)
    (A3 : S768.Idx → Elt Ideal .f32) (A4 : S384x128.Idx → Elt Ideal .f32) (A5 : S768x128.Idx → Elt Ideal .f32)
    (A6 A7 A8 : S4096x128.Idx → Elt Ideal .f32) (A9 A10 : S128x128.Idx → Elt Ideal .f32) (A11 : S128.Idx → Elt Ideal .f32)
    (t : Fin cfg1.N) :
    (cfg1.win 12).cut (grid1.coords t)
      (mlp1Pay (((cfg1.win 0).blk t).view.read (Elt Ideal) A0) (((cfg1.win 1).blk t).view.read (Elt Ideal) A1)
        (((cfg1.win 2).blk t).view.read (Elt Ideal) A2) (((cfg1.win 3).blk t).view.read (Elt Ideal) A3)
        (((cfg1.win 4).blk t).view.read (Elt Ideal) A4) (((cfg1.win 5).blk t).view.read (Elt Ideal) A5)
        (((cfg1.win 6).blk t).view.read (Elt Ideal) A6) (((cfg1.win 7).blk t).view.read (Elt Ideal) A7)
        (((cfg1.win 8).blk t).view.read (Elt Ideal) A8) (((cfg1.win 9).blk t).view.read (Elt Ideal) A9)
        (((cfg1.win 10).blk t).view.read (Elt Ideal) A10) (((cfg1.win 11).blk t).view.read (Elt Ideal) A11))
      = ((cfg1.win 12).blk t).view.read (Elt Ideal) (z1Arr A0 A1 A2 A3 A4 A5 A6 A7 A8 A9 A10 A11) := by
  obtain ⟨-, -, -, -, -, ⟨e0, e1⟩, hN⟩ := idxRows t
  funext y
  obtain ⟨r, n, rfl⟩ : ∃ (r : Fin 1024) (n : Fin 128), y = ix2 r n := ⟨y 0, y 1, eq_ix2 y⟩
  rw [View.read_apply]
  have hi0 : ((((cfg1.win 12).blk t).view.emb (ix2 r n)) 0).val = 1024 * t.val + r.val := by
    show win1_12.index t (0 : Fin 2) * 1024 + 1 * r.val = _; rw [e0]; omega
  have hi1 : ((((cfg1.win 12).blk t).view.emb (ix2 r n)) 1).val = n.val := by
    show win1_12.index t (1 : Fin 2) * 128 + 1 * n.val = _; rw [e1]; omega
  exact blockEntry A0 A1 A2 A3 A4 A5 A6 A7 A8 A9 A10 A11 _ _ _ _ _ _ _ _ _ _ _ _
    (((cfg1.win 12).blk t).view.emb (ix2 r n)) r n (Fin.ext hi1.symm)
    (fun j => read0 A0 t r j _ hi0 rfl) (fun j => read1 A1 t r j _ hi0 rfl)
    (fun j => read2 A2 t j) (fun j => read3 A3 t j) (fun j k => read4 A4 t j k) (fun j k => read5 A5 t j k)
    (fun k => read6 A6 t r k _ hi0 rfl) (fun k => read7 A7 t r k _ hi0 rfl) (fun k => read8 A8 t r k _ hi0 rfl)
    (fun k m => read9 A9 t k m) (fun k m => read10 A10 t k m) (fun m => read11 A11 t m)

/-- An index of the array is in point `t`'s block iff each coordinate is in the block's range on its axis. -/
theorem memBlock (t : Fin cfg1.N) (i : S4096x128.Idx) :
    i ∈ ((cfg1.win 12).blk t).view.set ↔ ∀ a : Fin 2, win1_12.index t a * S1024x128.size a ≤ (i a).val
      ∧ (i a).val < win1_12.index t a * S1024x128.size a + S1024x128.size a := by
  show i ∈ ((View.whole main_v60).slice (win1_12.rect t)).set ↔ _
  rw [View.set_slice_whole, Rect.mem_set_unit]
  exact Iff.rfl

/-- The four row blocks cover the array: sample `b` lies in the block of point `b / 1024`. -/
theorem cover (i : S4096x128.Idx) : ∃ t : Fin cfg1.N, (cfg1.win 12).flush t = true ∧ i ∈ ((cfg1.win 12).blk t).view.set := by
  have h0 : (i 0).val < 4096 := (i 0).isLt
  have h1 : (i 1).val < 128 := (i 1).isLt
  have hN : cfg1.N = 4 := N_1
  have ht : (i 0).val / 1024 < cfg1.N := by rw [hN]; omega
  obtain ⟨-, -, -, -, -, ⟨e0, e1⟩, -⟩ := idxRows ⟨(i 0).val / 1024, ht⟩
  refine ⟨⟨(i 0).val / 1024, ht⟩, flush1_12 _, ?_⟩
  rw [memBlock]
  intro a
  match a with
  | ⟨0, _⟩ =>
    show win1_12.index ⟨(i 0).val / 1024, ht⟩ (0 : Fin 2) * 1024 ≤ (i 0).val
      ∧ (i 0).val < win1_12.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win1_12.index ⟨(i 0).val / 1024, ht⟩ (1 : Fin 2) * 128 ≤ (i 1).val
      ∧ (i 1).val < win1_12.index ⟨(i 0).val / 1024, ht⟩ (1 : Fin 2) * 128 + 128
    rw [e1]; omega

/-- What point `t` writes back is block `t` of `z1Arr` of the arrays the call finds: the body's one store fills the
    whole staging block with the payload of the twelve loaded blocks, each loaded whole. -/
theorem flushed1_eq (c : Dev nD) (t : Fin cfg1.N) (hf : (cfg1.win 12).flush t = true) :
    (dat1 V c).flushed 12 t = ((cfg1.win 12).blk t).view.read (Elt Ideal)
      (z1Arr (V c main_v29) (V c main_v36) (V c main_arg9) (V c main_arg11) (V c main_v0) (V c main_v1)
        (V c main_v55) (V c main_v22) (V c main_v15) (V c main_v57) (V c main_v59) (V c main_arg16)) := by
  show (cfg1.win 12).cut (grid1.coords t) ((dat1 V c).after 12 t) = _
  rw [after1_12]
  unfold out1_12
  rw [View.canon_unit_zero zero2]
  simp only [View.ld_unit_zero (S := S1024x384) zero2, View.ld_unit_zero (S := S1024x768) zero2,
    View.ld_unit_zero (S := S384) zero1, View.ld_unit_zero (S := S768) zero1,
    View.ld_unit_zero (S := S384x128) zero2, View.ld_unit_zero (S := S768x128) zero2,
    View.ld_unit_zero (S := S1024x128) zero2, View.ld_unit_zero (S := S128x128) zero2,
    View.ld_unit_zero (S := S128) zero1]
  exact storedBlock (V c main_v29) (V c main_v36) (V c main_arg9) (V c main_arg11) (V c main_v0) (V c main_v1)
    (V c main_v55) (V c main_v22) (V c main_v15) (V c main_v57) (V c main_v59) (V c main_arg16) t

end Blocks1

/-- The result array after the call. -/
theorem final1 (c : Dev nD) : (dat1 V c).arrAt 12 cfg1.N
    = z1Arr (V c main_v29) (V c main_v36) (V c main_arg9) (V c main_arg11) (V c main_v0) (V c main_v1)
        (V c main_v55) (V c main_v22) (V c main_v15) (V c main_v57) (V c main_v59) (V c main_arg16) :=
  (dat1 V c).arrAt_eq_of_cover 12
    (z1Arr (V c main_v29) (V c main_v36) (V c main_arg9) (V c main_arg11) (V c main_v0) (V c main_v1)
      (V c main_v55) (V c main_v22) (V c main_v15) (V c main_v57) (V c main_v59) (V c main_arg16))
    (Blocks1.flushed1_eq V c) Blocks1.cover

end Cert.Bridge

end
-- ==== Proof.HeadPayload.lean ====
/-
  The head's kernel on its one block (all 4096 samples), read at an entry: the two column normalisations, the
  second layer between them, the last layer and the logistic of `Spec.pred`.
-/
import proofs.«413471_j87076166959612_3_alg».proof.Proof.Spec
import proofs.«413471_j87076166959612_3_alg».proof.Proof.Gen.KernelIdeal.Skeleton
import Idealize.ShloMosaic.Lib.Pipeline.Value
import Idealize.ShloMosaic.Lib.ValueLayout

noncomputable section

open Idealize.ShloMosaic Idealize.ShloMosaic.TcCoe Idealize.ShloMosaic.ValueIdx
open Cert.KernelIdeal Cert.KernelIdeal.Gen

namespace Cert.Bridge

namespace Head

/-! ## A column of a `4096 × n` array: its sum, its mean, its normalisation -/

section Column
variable {n : ℕ}

/-- The reduced index `k` with the row `r` put back on the dropped axis is `(r, k)`. -/
theorem lift_col (h : (⟨2, ![4096, n]⟩ : Shape).Reduces [0] (⟨1, ![n]⟩ : Shape)) (k : Fin n) (r : Fin 4096) :
    h.lift (ix1 k) r = ix2 r k := by
  funext c
  match c with
  | ⟨0, _⟩ => exact Fin.ext rfl
  | ⟨1, _⟩ => exact Fin.ext rfl

/-- The sum over the rows, started from the word `0`, read at column `k`. -/
theorem colSum_apply (X : FVec Ideal ⟨2, ![4096, n]⟩ .f32) (h : (⟨2, ![4096, n]⟩ : Shape).Reduces [0] (⟨1, ![n]⟩ : Shape))
    (hφ : FKind.Formats .f32) (hacc : (0x00000000#32 : BitVec 32) = FKind.add.neutral .f32 hφ) (k : Fin n) :
    multiReduction .add [0] ⟨1, ![n]⟩ X 0x00000000#32 h hφ hacc (ix1 k) = ∑ r : Fin 4096, X (ix2 r k) :=
  (Ideal.multiReduction_add_single X 0x00000000#32 h hφ hacc (ix1 k)).trans
    (Finset.sum_congr rfl fun r _ => congrArg X (lift_col h k r))

/-- The column means as the kernel forms them: the column sums laid out as one row, divided by the word `4096.0`. -/
def meanRow (X : FVec Ideal ⟨2, ![4096, n]⟩ .f32) (h : (⟨2, ![4096, n]⟩ : Shape).Reduces [0] (⟨1, ![n]⟩ : Shape))
    (hφ : FKind.Formats .f32) (hacc : (0x00000000#32 : BitVec 32) = FKind.add.neutral .f32 hφ)
    (hc : (⟨1, ![n]⟩ : Shape).ShapeCasts ⟨2, ![1, n]⟩) : FVec Ideal ⟨2, ![1, n]⟩ .f32 :=
  divf (shapeCast ⟨2, ![1, n]⟩ (multiReduction .add [0] ⟨1, ![n]⟩ X 0x00000000#32 h hφ hacc) hc)
    (broadcast ⟨2, ![1, n]⟩ (Scalar.ofBits (F := Ideal) .f32 0x45800000#32))

/-- That row at column `k` is the mean of column `k`. -/
theorem meanRow_apply (X : FVec Ideal ⟨2, ![4096, n]⟩ .f32) (h : (⟨2, ![4096, n]⟩ : Shape).Reduces [0] (⟨1, ![n]⟩ : Shape))
    (hφ : FKind.Formats .f32) (hacc : (0x00000000#32 : BitVec 32) = FKind.add.neutral .f32 hφ)
    (hc : (⟨1, ![n]⟩ : Shape).ShapeCasts ⟨2, ![1, n]⟩) (u : Fin 1) (k : Fin n) :
    meanRow X h hφ hacc hc (ix2 u k) = Spec.colMean (fun r k => X (ix2 r k)) k := by
  show Ideal.div (shapeCast ⟨2, ![1, n]⟩ (multiReduction .add [0] ⟨1, ![n]⟩ X 0x00000000#32 h hφ hacc) hc (ix2 u k))
      (Ideal.ofBits .f32 0x45800000#32) = _
  rw [shapeCast_a_1a_apply, colSum_apply]
  rfl

end Column

section Normalise
variable {n : ℕ}

/-- The normalisation as the kernel forms it from the array `X`, a row `mean` of column means, and the scale and shift:
    `((g · (X − mean)) · rsqrt (var + ε)) + be`, the variance being the column mean of `(X − mean)²`. -/
def normBlock (X : FVec Ideal ⟨2, ![4096, n]⟩ .f32) (mean : FVec Ideal ⟨2, ![1, n]⟩ .f32) (g be : FVec Ideal ⟨1, ![n]⟩ .f32)
    (h : (⟨2, ![4096, n]⟩ : Shape).Reduces [0] (⟨1, ![n]⟩ : Shape))
    (hφ : FKind.Formats .f32) (hacc : (0x00000000#32 : BitVec 32) = FKind.add.neutral .f32 hφ)
    (hc : (⟨1, ![n]⟩ : Shape).ShapeCasts ⟨2, ![1, n]⟩) (hb : (⟨2, ![1, n]⟩ : Shape).Broadcasts ⟨2, ![4096, n]⟩) :
    FVec Ideal ⟨2, ![4096, n]⟩ .f32 :=
  addf
    (mulf
      (mulf (broadcastTo ⟨2, ![4096, n]⟩ (shapeCast ⟨2, ![1, n]⟩ g hc) hb) (subf X (broadcastTo ⟨2, ![4096, n]⟩ mean hb)))
      (broadcastTo ⟨2, ![4096, n]⟩
        (rsqrt (addf
          (meanRow (mulf (subf X (broadcastTo ⟨2, ![4096, n]⟩ mean hb)) (subf X (broadcastTo ⟨2, ![4096, n]⟩ mean hb))) h hφ hacc hc)
          (broadcast ⟨2, ![1, n]⟩ (Scalar.ofBits (F := Ideal) .f32 0x3727C5AC#32)))) hb))
    (broadcastTo ⟨2, ![4096, n]⟩ (shapeCast ⟨2, ![1, n]⟩ be hc) hb)

/-- Read at `(r, k)`, with `mean` the row of `X`'s column means, it is the column normalisation of the specification. -/
theorem normBlock_apply (X : FVec Ideal ⟨2, ![4096, n]⟩ .f32) (mean : FVec Ideal ⟨2, ![1, n]⟩ .f32) (g be : FVec Ideal ⟨1, ![n]⟩ .f32)
    (h : (⟨2, ![4096, n]⟩ : Shape).Reduces [0] (⟨1, ![n]⟩ : Shape))
    (hφ : FKind.Formats .f32) (hacc : (0x00000000#32 : BitVec 32) = FKind.add.neutral .f32 hφ)
    (hc : (⟨1, ![n]⟩ : Shape).ShapeCasts ⟨2, ![1, n]⟩) (hb : (⟨2, ![1, n]⟩ : Shape).Broadcasts ⟨2, ![4096, n]⟩)
    (hmean : ∀ k : Fin n, mean (ix2 (0 : Fin 1) k) = Spec.colMean (fun r k => X (ix2 r k)) k) (r : Fin 4096) (k : Fin n) :
    normBlock X mean g be h hφ hacc hc hb (ix2 r k)
      = Spec.bnorm (fun r k => X (ix2 r k)) (fun k => g (ix1 k)) (fun k => be (ix1 k)) r k := by
  have hcen : ∀ (r : Fin 4096) (k : Fin n), subf X (broadcastTo ⟨2, ![4096, n]⟩ mean hb) (ix2 r k)
      = X (ix2 r k) - Spec.colMean (fun r k => X (ix2 r k)) k := fun r k => by
    show X (ix2 r k) - broadcastTo ⟨2, ![4096, n]⟩ mean hb (ix2 r k) = _
    rw [broadcastTo_1b_ab_apply, hmean]
  have hvar : meanRow (mulf (subf X (broadcastTo ⟨2, ![4096, n]⟩ mean hb)) (subf X (broadcastTo ⟨2, ![4096, n]⟩ mean hb))) h hφ hacc hc
      (ix2 (0 : Fin 1) k) = Spec.colVar (fun r k => X (ix2 r k)) k := by
    rw [meanRow_apply]
    unfold Spec.colVar
    refine congrArg (fun f => Spec.colMean f k) (funext fun r => funext fun k => ?_)
    show subf X (broadcastTo ⟨2, ![4096, n]⟩ mean hb) (ix2 r k) * subf X (broadcastTo ⟨2, ![4096, n]⟩ mean hb) (ix2 r k) = _
    rw [hcen]
  show broadcastTo ⟨2, ![4096, n]⟩ (shapeCast ⟨2, ![1, n]⟩ g hc) hb (ix2 r k)
        * subf X (broadcastTo ⟨2, ![4096, n]⟩ mean hb) (ix2 r k)
        * broadcastTo ⟨2, ![4096, n]⟩
            (rsqrt (addf
              (meanRow (mulf (subf X (broadcastTo ⟨2, ![4096, n]⟩ mean hb)) (subf X (broadcastTo ⟨2, ![4096, n]⟩ mean hb))) h hφ hacc hc)
              (broadcast ⟨2, ![1, n]⟩ (Scalar.ofBits (F := Ideal) .f32 0x3727C5AC#32)))) hb (ix2 r k)
      + broadcastTo ⟨2, ![4096, n]⟩ (shapeCast ⟨2, ![1, n]⟩ be hc) hb (ix2 r k) = _
  rw [broadcastTo_1b_ab_apply, broadcastTo_1b_ab_apply, broadcastTo_1b_ab_apply, shapeCast_a_1a_apply, shapeCast_a_1a_apply, hcen]
  show g (ix1 k) * (X (ix2 r k) - Spec.colMean (fun r k => X (ix2 r k)) k)
        * Ideal.rsqrt (meanRow (mulf (subf X (broadcastTo ⟨2, ![4096, n]⟩ mean hb)) (subf X (broadcastTo ⟨2, ![4096, n]⟩ mean hb))) h hφ hacc hc
            (ix2 (0 : Fin 1) k) + Ideal.ofBits .f32 0x3727C5AC#32)
      + be (ix1 k) = _
  rw [hvar]
  rfl

end Normalise

/-! ## The two products, read at an entry

  Each is a plain `M × K` by `K × N` product: the left operand's index at output `(r, j)` and contraction position `k`
  is `(r, k)`, the right operand's is `(k, j)`; the contraction index is its one coordinate. -/

theorem lhsA_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhsA_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhsA_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhsA_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The product into a zero accumulator, read at `(r, j)`: the sum over the 128 contracted coordinates. -/
theorem matmulA_apply {φ₁ φ₂ : FTy} (L : FVec Ideal S4096x128 φ₁) (R : FVec Ideal S128x64 φ₂) (r : Fin 4096) (j : Fin 64) :
    matmul dot_S4096x128_S128x64_S4096x64_1_0_0_1_n_n none L R (constant S4096x64 .f32 0x00000000#32) (ix2 r j)
      = ∑ k : Fin 128, L (ix2 r k) * R (ix2 k j) := by
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 r j) ((contrEquiv1 dot_S4096x128_S128x64_S4096x64_1_0_0_1_n_n 128 rfl rfl).symm k) = ix2 r k := funext fun a => Fin.ext (by
    match a with
    | ⟨0, _⟩ => exact lhsA_0 _ _
    | ⟨1, _⟩ => exact (lhsA_1 _ _).trans hk)
  have er : dot_S4096x128_S128x64_S4096x64_1_0_0_1_n_n.rhsIdx (ix2 r j) ((contrEquiv1 dot_S4096x128_S128x64_S4096x64_1_0_0_1_n_n 128 rfl rfl).symm k) = ix2 k j := funext fun a => Fin.ext (by
    match a with
    | ⟨0, _⟩ => exact (rhsA_0 _ _).trans hk
    | ⟨1, _⟩ => exact rhsA_1 _ _)
  rw [el, er]

theorem lhsB_0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem lhsB_1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
theorem rhsB_0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
theorem rhsB_1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

/-- The product into a zero accumulator, read at `(r, j)`: the sum over the 64 contracted coordinates. -/
theorem matmulB_apply {φ₁ φ₂ : FTy} (L : FVec Ideal S4096x64 φ₁) (R : FVec Ideal S64x1 φ₂) (r : Fin 4096) (j : Fin 1) :
    matmul dot_S4096x64_S64x1_S4096x1_1_0_0_1_n_n none L R (constant S4096x1 .f32 0x00000000#32) (ix2 r j)
      = ∑ k : Fin 64, L (ix2 r k) * R (ix2 k j) := by
  simp only [matmul]
  rw [Ideal.matmul_constant_zero_apply, ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 r j) ((contrEquiv1 dot_S4096x64_S64x1_S4096x1_1_0_0_1_n_n 64 rfl rfl).symm k) = ix2 r k := funext fun a => Fin.ext (by
    match a with
    | ⟨0, _⟩ => exact lhsB_0 _ _
    | ⟨1, _⟩ => exact (lhsB_1 _ _).trans hk)
  have er : dot_S4096x64_S64x1_S4096x1_1_0_0_1_n_n.rhsIdx (ix2 r j) ((contrEquiv1 dot_S4096x64_S64x1_S4096x1_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-! ## The second layer -/

/-- The second layer as the kernel forms it from the array `X`: normalise the 128 columns, multiply by the weight into a
    zero accumulator, add the bias row, take the maximum with the word `0`. -/
def layer2 (X : FVec Ideal S4096x128 .f32) (g be : FVec Ideal S128 .f32) (W : FVec Ideal S128x64 .f32) (b : FVec Ideal S64 .f32) :
    FVec Ideal S4096x64 .f32 :=
  maximumf
    (addf
      (matmul dot_S4096x128_S128x64_S4096x64_1_0_0_1_n_n none
        (truncf .bf16
          (normBlock X (meanRow X reduces_S4096x128_S128 (.inl rfl) rfl shapeCasts_S128_S1x128) g be
            reduces_S4096x128_S128 (.inl rfl) rfl shapeCasts_S128_S1x128 broadcasts_S1x128_S4096x128)
          bitsLt_bf16_f32)
        (truncf .bf16 W bitsLt_bf16_f32) (constant S4096x64 .f32 0x00000000#32))
      (broadcastTo S4096x64 (shapeCast S1x64 b shapeCasts_S64_S1x64) broadcasts_S1x64_S4096x64))
    (broadcast S4096x64 (Scalar.ofBits (F := Ideal) .f32 0x00000000#32))

/-- The generated payload is that composition (its two casts to the same shape kept). -/
theorem pay2_eq (x0 : Vec Ideal S4096x128 .f32) (x1 x2 : Vec Ideal S128 .f32) (x3 : Vec Ideal S128x64 .f32) (x4 : Vec Ideal S64 .f32) :
    k2_pay2 x0 x1 x2 x3 x4
      = layer2 (shapeCast S4096x128 x0 shapeCasts_S4096x128_S4096x128) x1 x2 (shapeCast S128x64 x3 shapeCasts_S128x64_S128x64) x4 :=
  rfl

/-- Read at `(r, j)`: the specification's second layer. -/
theorem layer2_apply (X : FVec Ideal S4096x128 .f32) (g be : FVec Ideal S128 .f32) (W : FVec Ideal S128x64 .f32) (b : FVec Ideal S64 .f32)
    (r : Fin 4096) (j : Fin 64) :
    layer2 X g be W b (ix2 r j)
      = Spec.z2 (fun r k => X (ix2 r k)) (fun k => g (ix1 k)) (fun k => be (ix1 k)) (fun k j => W (ix2 k j)) (fun j => b (ix1 j)) r j := by
  show max
      (matmul dot_S4096x128_S128x64_S4096x64_1_0_0_1_n_n none
          (truncf .bf16
            (normBlock X (meanRow X reduces_S4096x128_S128 (.inl rfl) rfl shapeCasts_S128_S1x128) g be
              reduces_S4096x128_S128 (.inl rfl) rfl shapeCasts_S128_S1x128 broadcasts_S1x128_S4096x128)
            bitsLt_bf16_f32)
          (truncf .bf16 W bitsLt_bf16_f32) (constant S4096x64 .f32 0x00000000#32) (ix2 r j)
        + broadcastTo S4096x64 (shapeCast S1x64 b shapeCasts_S64_S1x64) broadcasts_S1x64_S4096x64 (ix2 r j))
      (Ideal.ofBits .f32 0x00000000#32) = _
  rw [matmulA_apply, broadcastTo_1b_ab_apply, shapeCast_a_1a_apply, Ideal.ofBits_zero_f32]
  unfold Spec.z2
  refine congrArg (fun s => max (s + b (ix1 j)) 0) (Finset.sum_congr rfl fun k _ => ?_)
  show normBlock X (meanRow X reduces_S4096x128_S128 (.inl rfl) rfl shapeCasts_S128_S1x128) g be
        reduces_S4096x128_S128 (.inl rfl) rfl shapeCasts_S128_S1x128 broadcasts_S1x128_S4096x128 (ix2 r k) * W (ix2 k j) = _
  exact congrArg (· * W (ix2 k j)) (normBlock_apply X _ g be _ _ _ _ _ (fun k => meanRow_apply X _ _ _ _ 0 k) r k)

/-- The second layer's payload at `(r, j)`. -/
theorem pay2_apply (x0 : Vec Ideal S4096x128 .f32) (x1 x2 : Vec Ideal S128 .f32) (x3 : Vec Ideal S128x64 .f32) (x4 : Vec Ideal S64 .f32)
    (r : Fin 4096) (j : Fin 64) :
    k2_pay2 x0 x1 x2 x3 x4 (ix2 r j)
      = Spec.z2 (fun r k => x0 (ix2 r k)) (fun k => x1 (ix1 k)) (fun k => x2 (ix1 k)) (fun k j => x3 (ix2 k j)) (fun j => x4 (ix1 j)) r j := by
  rw [pay2_eq, shapeCast_self, shapeCast_self, layer2_apply]

/-! ## The last layer -/

/-- The row the kernel carries beside the second layer's output is the row of its column means. -/
theorem pay3_eq (x0 : Vec Ideal S4096x128 .f32) (x1 x2 : Vec Ideal S128 .f32) (x3 : Vec Ideal S128x64 .f32) (x4 : Vec Ideal S64 .f32) :
    k2_pay3 x0 x1 x2 x3 x4 = meanRow (k2_pay2 x0 x1 x2 x3 x4) reduces_S4096x64_S64 (.inl rfl) rfl shapeCasts_S64_S1x64 :=
  rfl

/-- The last layer as the kernel forms it from the array `Z` and a row `mean`: normalise the 64 columns about `mean`,
    multiply by the weight column into a zero accumulator, add the bias, take the logistic. -/
def layer3 (Z : FVec Ideal S4096x64 .f32) (mean : FVec Ideal S1x64 .f32) (g be : FVec Ideal S64 .f32) (W : FVec Ideal S64x1 .f32)
    (b : FVec Ideal S1 .f32) : FVec Ideal S4096x1 .f32 :=
  logistic
    (addf
      (matmul dot_S4096x64_S64x1_S4096x1_1_0_0_1_n_n none
        (truncf .bf16
          (normBlock Z mean g be reduces_S4096x64_S64 (.inl rfl) rfl shapeCasts_S64_S1x64 broadcasts_S1x64_S4096x64)
          bitsLt_bf16_f32)
        (truncf .bf16 W bitsLt_bf16_f32) (constant S4096x1 .f32 0x00000000#32))
      (broadcastTo S4096x1 (shapeCast S1x1 b shapeCasts_S1_S1x1) broadcasts_S1x1_S4096x1))

/-- The generated payload is that composition (its cast to the same shape kept). -/
theorem pay1_eq (v38 : FVec Ideal S4096x64 .f32) (v42 : FVec Ideal S1x64 .f32) (v50 v61 : Vec Ideal S64 .f32) (v66 : Vec Ideal S64x1 .f32)
    (v70 : Vec Ideal S1 .f32) :
    k2_pay1 v38 v42 v50 v61 v66 v70 = layer3 v38 v42 v50 v61 (shapeCast S64x1 v66 shapeCasts_S64x1_S64x1) v70 :=
  rfl

/-- Read at `(r, 0)`, with `mean` the row of `Z`'s column means: the logistic of the normalised row against the weight
    column, plus the bias. -/
theorem layer3_apply (Z : FVec Ideal S4096x64 .f32) (mean : FVec Ideal S1x64 .f32) (g be : FVec Ideal S64 .f32) (W : FVec Ideal S64x1 .f32)
    (b : FVec Ideal S1 .f32) (hmean : ∀ k : Fin 64, mean (ix2 (0 : Fin 1) k) = Spec.colMean (fun r k => Z (ix2 r k)) k) (r : Fin 4096) :
    layer3 Z mean g be W b (ix2 r 0)
      = Ideal.logistic ((∑ k : Fin 64, Spec.bnorm (fun r k => Z (ix2 r k)) (fun k => g (ix1 k)) (fun k => be (ix1 k)) r k * W (ix2 k 0))
          + b (ix1 0)) := by
  show Ideal.logistic
      (matmul dot_S4096x64_S64x1_S4096x1_1_0_0_1_n_n none
          (truncf .bf16
            (normBlock Z mean g be reduces_S4096x64_S64 (.inl rfl) rfl shapeCasts_S64_S1x64 broadcasts_S1x64_S4096x64)
            bitsLt_bf16_f32)
          (truncf .bf16 W bitsLt_bf16_f32) (constant S4096x1 .f32 0x00000000#32) (ix2 r 0)
        + broadcastTo S4096x1 (shapeCast S1x1 b shapeCasts_S1_S1x1) broadcasts_S1x1_S4096x1 (ix2 r 0)) = _
  rw [matmulB_apply, broadcastTo_1b_ab_apply, shapeCast_a_1a_apply]
  refine congrArg (fun s => Ideal.logistic (s + b (ix1 0))) (Finset.sum_congr rfl fun k _ => ?_)
  show normBlock Z mean g be reduces_S4096x64_S64 (.inl rfl) rfl shapeCasts_S64_S1x64 broadcasts_S1x64_S4096x64 (ix2 r k)
      * W (ix2 k 0) = _
  exact congrArg (· * W (ix2 k 0)) (normBlock_apply Z mean g be _ _ _ _ _ hmean r k)

end Head

/-- The value the body stores, as the generated frame composes it from the nine input blocks. -/
abbrev headPay (x0 : Vec Ideal S4096x128 .f32) (x1 x2 : Vec Ideal S128 .f32) (x3 : Vec Ideal S128x64 .f32)
    (x4 x5 x6 : Vec Ideal S64 .f32) (x7 : Vec Ideal S64x1 .f32) (x8 : Vec Ideal S1 .f32) : FVec Ideal S4096x1 .f32 :=
  k2_pay1 (k2_pay2 x0 x1 x2 x3 x4) (k2_pay3 x0 x1 x2 x3 x4) x5 x6 x7 x8

/-- Entry `(r, 0)` of the stored block. `x0`: the first layer's output; `x1, x2`: the first normalisation's scale
    and shift; `x3, x4`: the second layer's weight (transposed) and bias; `x5, x6`: the second normalisation's
    scale and shift; `x7, x8`: the last layer's weight (transposed) and bias. -/
theorem head_payload (x0 : Vec Ideal S4096x128 .f32) (x1 x2 : Vec Ideal S128 .f32) (x3 : Vec Ideal S128x64 .f32)
    (x4 x5 x6 : Vec Ideal S64 .f32) (x7 : Vec Ideal S64x1 .f32) (x8 : Vec Ideal S1 .f32) (r : Fin 4096) :
    headPay x0 x1 x2 x3 x4 x5 x6 x7 x8 (ix2 r 0)
      = Spec.pred (fun r k => x0 (ix2 r k)) (fun k => x1 (ix1 k)) (fun k => x2 (ix1 k)) (fun k n => x3 (ix2 k n))
          (fun n => x4 (ix1 n)) (fun n => x5 (ix1 n)) (fun n => x6 (ix1 n)) (fun k => x7 (ix2 k 0)) (x8 (ix1 0)) r := by
  show k2_pay1 (k2_pay2 x0 x1 x2 x3 x4) (k2_pay3 x0 x1 x2 x3 x4) x5 x6 x7 x8 (ix2 r 0) = _
  rw [Head.pay1_eq, Head.pay3_eq, shapeCast_self]
  refine (Head.layer3_apply _ _ x5 x6 x7 x8 (fun k => Head.meanRow_apply (k2_pay2 x0 x1 x2 x3 x4) _ _ _ _ 0 k) r).trans ?_
  have hz : (fun (r : Fin 4096) (k : Fin 64) => k2_pay2 x0 x1 x2 x3 x4 (ix2 r k))
      = Spec.z2 (fun r k => x0 (ix2 r k)) (fun k => x1 (ix1 k)) (fun k => x2 (ix1 k)) (fun k n => x3 (ix2 k n)) (fun n => x4 (ix1 n)) :=
    funext fun r => funext fun k => Head.pay2_apply x0 x1 x2 x3 x4 r k
  rw [hz]
  rfl

end Cert.Bridge

end
-- ==== Proof.Blocks2.lean ====
/-
  The head's call, from its one block to the array. The call has a single grid point; every window's block is its
  whole array, and the one write-back covers the whole result array. So the result array after the call is the
  body's value of the nine arrays the call finds: at `(r, 0)` the prediction `Spec.pred … r`.
-/
import proofs.«413471_j87076166959612_3_alg».proof.Proof.FrameI
import proofs.«413471_j87076166959612_3_alg».proof.Proof.HeadPayload
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

namespace Cert.Bridge

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a <;> rfl

/-- The call's index maps at its one grid point: every block index is zero. -/
theorem idx2 : ∀ t : Fin cfg2.N, win2_0.index t (0 : Fin 2) = 0 ∧ win2_0.index t (1 : Fin 2) = 0
    ∧ win2_1.index t (0 : Fin 1) = 0 ∧ win2_2.index t (0 : Fin 1) = 0
    ∧ win2_3.index t (0 : Fin 2) = 0 ∧ win2_3.index t (1 : Fin 2) = 0
    ∧ win2_4.index t (0 : Fin 1) = 0 ∧ win2_5.index t (0 : Fin 1) = 0 ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = 0 ∧ win2_9.index t (1 : Fin 2) = 0 :=
  (by decide +kernel : ∀ t : Fin grid2.N, _)

/-- The result array as one function of the nine arrays the call finds. -/
def headArr (a0 : S4096x128.Idx → Elt Ideal .f32) (a1 a2 : S128.Idx → Elt Ideal .f32) (a3 : S128x64.Idx → Elt Ideal .f32)
    (a4 a5 a6 : S64.Idx → Elt Ideal .f32) (a7 : S64x1.Idx → Elt Ideal .f32) (a8 : S1.Idx → Elt Ideal .f32) : S4096x1.Idx → Elt Ideal .f32 :=
  fun i => Spec.pred (fun r k => a0 (ix2 r k)) (fun k => a1 (ix1 k)) (fun k => a2 (ix1 k)) (fun k n => a3 (ix2 k n))
    (fun n => a4 (ix1 n)) (fun n => a5 (ix1 n)) (fun n => a6 (ix1 n)) (fun k => a7 (ix2 k 0)) (a8 (ix1 0)) ⟨(i 0).val, idx2_lt0 i⟩

/-! ## Every input block is its whole array -/

/-- Window 0's block at the call's one point is its whole array, entry by entry. -/
theorem iblk2_0_apply (c : Dev nD) (t : Fin cfg2.N) (p : Fin 4096) (q : Fin 128) :
    (iblk2 V c 0 t : Vec Ideal S4096x128 .f32) (ix2 p q) = (V c main_v60 : S4096x128.Idx → Elt Ideal .f32) (ix2 p q) := by
  obtain ⟨e0a, e0b, e1a, e2a, e3a, e3b, e4a, e5a, e6a, e7a, e7b, e8a, e9a, e9b⟩ := idx2 t
  unfold iblk2
  rw [View.read_apply]
  show V c main_v60 _ = V c main_v60 _
  congr 1
  funext a
  apply Fin.ext
  match a with
  | ⟨0, _⟩ => show win2_0.index t (0 : Fin 2) * 4096 + 1 * p.val = p.val; rw [e0a]; omega
  | ⟨1, _⟩ => show win2_0.index t (1 : Fin 2) * 128 + 1 * q.val = q.val; rw [e0b]; omega

theorem iblk2_0_eq (c : Dev nD) (t : Fin cfg2.N) :
    (iblk2 V c 0 t : Vec Ideal S4096x128 .f32) = (V c main_v60 : S4096x128.Idx → Elt Ideal .f32) :=
  funext fun y => by
    obtain ⟨p, q, rfl⟩ : ∃ (p : Fin 4096) (q : Fin 128), y = ix2 p q := ⟨y 0, y 1, eq_ix2 y⟩
    exact iblk2_0_apply V c t p q

/-- Window 1's block at the call's one point is its whole array, entry by entry. -/
theorem iblk2_1_apply (c : Dev nD) (t : Fin cfg2.N) (p : Fin 128) :
    (iblk2 V c 1 t : Vec Ideal S128 .f32) (ix1 p) = (V c main_arg17 : S128.Idx → Elt Ideal .f32) (ix1 p) := by
  obtain ⟨e0a, e0b, e1a, e2a, e3a, e3b, e4a, e5a, e6a, e7a, e7b, e8a, e9a, e9b⟩ := idx2 t
  unfold iblk2
  rw [View.read_apply]
  show V c main_arg17 _ = V c main_arg17 _
  congr 1
  funext a
  apply Fin.ext
  match a with
  | ⟨0, _⟩ => show win2_1.index t (0 : Fin 1) * 128 + 1 * p.val = p.val; rw [e1a]; omega

theorem iblk2_1_eq (c : Dev nD) (t : Fin cfg2.N) :
    (iblk2 V c 1 t : Vec Ideal S128 .f32) = (V c main_arg17 : S128.Idx → Elt Ideal .f32) :=
  funext fun y => by
    obtain ⟨p, rfl⟩ : ∃ (p : Fin 128), y = ix1 p := ⟨y 0, eq_ix1 y⟩
    exact iblk2_1_apply V c t p

/-- Window 2's block at the call's one point is its whole array, entry by entry. -/
theorem iblk2_2_apply (c : Dev nD) (t : Fin cfg2.N) (p : Fin 128) :
    (iblk2 V c 2 t : Vec Ideal S128 .f32) (ix1 p) = (V c main_arg18 : S128.Idx → Elt Ideal .f32) (ix1 p) := by
  obtain ⟨e0a, e0b, e1a, e2a, e3a, e3b, e4a, e5a, e6a, e7a, e7b, e8a, e9a, e9b⟩ := idx2 t
  unfold iblk2
  rw [View.read_apply]
  show V c main_arg18 _ = V c main_arg18 _
  congr 1
  funext a
  apply Fin.ext
  match a with
  | ⟨0, _⟩ => show win2_2.index t (0 : Fin 1) * 128 + 1 * p.val = p.val; rw [e2a]; omega

theorem iblk2_2_eq (c : Dev nD) (t : Fin cfg2.N) :
    (iblk2 V c 2 t : Vec Ideal S128 .f32) = (V c main_arg18 : S128.Idx → Elt Ideal .f32) :=
  funext fun y => by
    obtain ⟨p, rfl⟩ : ∃ (p : Fin 128), y = ix1 p := ⟨y 0, eq_ix1 y⟩
    exact iblk2_2_apply V c t p

/-- Window 3's block at the call's one point is its whole array, entry by entry. -/
theorem iblk2_3_apply (c : Dev nD) (t : Fin cfg2.N) (p : Fin 128) (q : Fin 64) :
    (iblk2 V c 3 t : Vec Ideal S128x64 .f32) (ix2 p q) = (V c main_v61 : S128x64.Idx → Elt Ideal .f32) (ix2 p q) := by
  obtain ⟨e0a, e0b, e1a, e2a, e3a, e3b, e4a, e5a, e6a, e7a, e7b, e8a, e9a, e9b⟩ := idx2 t
  unfold iblk2
  rw [View.read_apply]
  show V c main_v61 _ = V c main_v61 _
  congr 1
  funext a
  apply Fin.ext
  match a with
  | ⟨0, _⟩ => show win2_3.index t (0 : Fin 2) * 128 + 1 * p.val = p.val; rw [e3a]; omega
  | ⟨1, _⟩ => show win2_3.index t (1 : Fin 2) * 64 + 1 * q.val = q.val; rw [e3b]; omega

theorem iblk2_3_eq (c : Dev nD) (t : Fin cfg2.N) :
    (iblk2 V c 3 t : Vec Ideal S128x64 .f32) = (V c main_v61 : S128x64.Idx → Elt Ideal .f32) :=
  funext fun y => by
    obtain ⟨p, q, rfl⟩ : ∃ (p : Fin 128) (q : Fin 64), y = ix2 p q := ⟨y 0, y 1, eq_ix2 y⟩
    exact iblk2_3_apply V c t p q

/-- Window 4's block at the call's one point is its whole array, entry by entry. -/
theorem iblk2_4_apply (c : Dev nD) (t : Fin cfg2.N) (p : Fin 64) :
    (iblk2 V c 4 t : Vec Ideal S64 .f32) (ix1 p) = (V c main_arg20 : S64.Idx → Elt Ideal .f32) (ix1 p) := by
  obtain ⟨e0a, e0b, e1a, e2a, e3a, e3b, e4a, e5a, e6a, e7a, e7b, e8a, e9a, e9b⟩ := idx2 t
  unfold iblk2
  rw [View.read_apply]
  show V c main_arg20 _ = V c main_arg20 _
  congr 1
  funext a
  apply Fin.ext
  match a with
  | ⟨0, _⟩ => show win2_4.index t (0 : Fin 1) * 64 + 1 * p.val = p.val; rw [e4a]; omega

theorem iblk2_4_eq (c : Dev nD) (t : Fin cfg2.N) :
    (iblk2 V c 4 t : Vec Ideal S64 .f32) = (V c main_arg20 : S64.Idx → Elt Ideal .f32) :=
  funext fun y => by
    obtain ⟨p, rfl⟩ : ∃ (p : Fin 64), y = ix1 p := ⟨y 0, eq_ix1 y⟩
    exact iblk2_4_apply V c t p

/-- Window 5's block at the call's one point is its whole array, entry by entry. -/
theorem iblk2_5_apply (c : Dev nD) (t : Fin cfg2.N) (p : Fin 64) :
    (iblk2 V c 5 t : Vec Ideal S64 .f32) (ix1 p) = (V c main_arg21 : S64.Idx → Elt Ideal .f32) (ix1 p) := by
  obtain ⟨e0a, e0b, e1a, e2a, e3a, e3b, e4a, e5a, e6a, e7a, e7b, e8a, e9a, e9b⟩ := idx2 t
  unfold iblk2
  rw [View.read_apply]
  show V c main_arg21 _ = V c main_arg21 _
  congr 1
  funext a
  apply Fin.ext
  match a with
  | ⟨0, _⟩ => show win2_5.index t (0 : Fin 1) * 64 + 1 * p.val = p.val; rw [e5a]; omega

theorem iblk2_5_eq (c : Dev nD) (t : Fin cfg2.N) :
    (iblk2 V c 5 t : Vec Ideal S64 .f32) = (V c main_arg21 : S64.Idx → Elt Ideal .f32) :=
  funext fun y => by
    obtain ⟨p, rfl⟩ : ∃ (p : Fin 64), y = ix1 p := ⟨y 0, eq_ix1 y⟩
    exact iblk2_5_apply V c t p

/-- Window 6's block at the call's one point is its whole array, entry by entry. -/
theorem iblk2_6_apply (c : Dev nD) (t : Fin cfg2.N) (p : Fin 64) :
    (iblk2 V c 6 t : Vec Ideal S64 .f32) (ix1 p) = (V c main_arg22 : S64.Idx → Elt Ideal .f32) (ix1 p) := by
  obtain ⟨e0a, e0b, e1a, e2a, e3a, e3b, e4a, e5a, e6a, e7a, e7b, e8a, e9a, e9b⟩ := idx2 t
  unfold iblk2
  rw [View.read_apply]
  show V c main_arg22 _ = V c main_arg22 _
  congr 1
  funext a
  apply Fin.ext
  match a with
  | ⟨0, _⟩ => show win2_6.index t (0 : Fin 1) * 64 + 1 * p.val = p.val; rw [e6a]; omega

theorem iblk2_6_eq (c : Dev nD) (t : Fin cfg2.N) :
    (iblk2 V c 6 t : Vec Ideal S64 .f32) = (V c main_arg22 : S64.Idx → Elt Ideal .f32) :=
  funext fun y => by
    obtain ⟨p, rfl⟩ : ∃ (p : Fin 64), y = ix1 p := ⟨y 0, eq_ix1 y⟩
    exact iblk2_6_apply V c t p

/-- Window 7's block at the call's one point is its whole array, entry by entry. -/
theorem iblk2_7_apply (c : Dev nD) (t : Fin cfg2.N) (p : Fin 64) (q : Fin 1) :
    (iblk2 V c 7 t : Vec Ideal S64x1 .f32) (ix2 p q) = (V c main_v62 : S64x1.Idx → Elt Ideal .f32) (ix2 p q) := by
  obtain ⟨e0a, e0b, e1a, e2a, e3a, e3b, e4a, e5a, e6a, e7a, e7b, e8a, e9a, e9b⟩ := idx2 t
  unfold iblk2
  rw [View.read_apply]
  show V c main_v62 _ = V c main_v62 _
  congr 1
  funext a
  apply Fin.ext
  match a with
  | ⟨0, _⟩ => show win2_7.index t (0 : Fin 2) * 64 + 1 * p.val = p.val; rw [e7a]; omega
  | ⟨1, _⟩ => show win2_7.index t (1 : Fin 2) * 1 + 1 * q.val = q.val; rw [e7b]; omega

theorem iblk2_7_eq (c : Dev nD) (t : Fin cfg2.N) :
    (iblk2 V c 7 t : Vec Ideal S64x1 .f32) = (V c main_v62 : S64x1.Idx → Elt Ideal .f32) :=
  funext fun y => by
    obtain ⟨p, q, rfl⟩ : ∃ (p : Fin 64) (q : Fin 1), y = ix2 p q := ⟨y 0, y 1, eq_ix2 y⟩
    exact iblk2_7_apply V c t p q

/-- Window 8's block at the call's one point is its whole array, entry by entry. -/
theorem iblk2_8_apply (c : Dev nD) (t : Fin cfg2.N) (p : Fin 1) :
    (iblk2 V c 8 t : Vec Ideal S1 .f32) (ix1 p) = (V c main_arg24 : S1.Idx → Elt Ideal .f32) (ix1 p) := by
  obtain ⟨e0a, e0b, e1a, e2a, e3a, e3b, e4a, e5a, e6a, e7a, e7b, e8a, e9a, e9b⟩ := idx2 t
  unfold iblk2
  rw [View.read_apply]
  show V c main_arg24 _ = V c main_arg24 _
  congr 1
  funext a
  apply Fin.ext
  match a with
  | ⟨0, _⟩ => show win2_8.index t (0 : Fin 1) * 1 + 1 * p.val = p.val; rw [e8a]; omega

theorem iblk2_8_eq (c : Dev nD) (t : Fin cfg2.N) :
    (iblk2 V c 8 t : Vec Ideal S1 .f32) = (V c main_arg24 : S1.Idx → Elt Ideal .f32) :=
  funext fun y => by
    obtain ⟨p, rfl⟩ : ∃ (p : Fin 1), y = ix1 p := ⟨y 0, eq_ix1 y⟩
    exact iblk2_8_apply V c t p

/-! ## The one write-back -/

/-- What the call's one point writes back is the one block of `headArr` of the arrays the call finds. -/
theorem flushed2_eq (c : Dev nD) (t : Fin cfg2.N) (hf : (cfg2.win 9).flush t = true) :
    (dat2 V c).flushed 9 t
      = ((cfg2.win 9).blk t).view.read (Elt Ideal) (headArr (V c main_v60) (V c main_arg17) (V c main_arg18) (V c main_v61) (V c main_arg20) (V c main_arg21) (V c main_arg22) (V c main_v62) (V c main_arg24)) := by
  obtain ⟨e0a, e0b, e1a, e2a, e3a, e3b, e4a, e5a, e6a, e7a, e7b, e8a, e9a, e9b⟩ := idx2 t
  show (cfg2.win 9).cut (grid2.coords t) ((dat2 V c).after 9 t) = _
  rw [after2_9]
  unfold out2_9
  rw [View.canon_unit_zero hz2']
  simp only [View.ld_unit_zero (S := S4096x128) hz2', View.ld_unit_zero (S := S128) hz1', View.ld_unit_zero (S := S128x64) hz2',
    View.ld_unit_zero (S := S64) hz1', View.ld_unit_zero (S := S64x1) hz2', View.ld_unit_zero (S := S1) hz1']
  funext y
  obtain ⟨r, z, rfl⟩ : ∃ (r : Fin 4096) (z : Fin 1), y = ix2 r z := ⟨y 0, y 1, eq_ix2 y⟩
  obtain rfl : z = 0 := Subsingleton.elim z 0
  rw [View.read_apply]
  show headPay (iblk2 V c 0 t) (iblk2 V c 1 t) (iblk2 V c 2 t) (iblk2 V c 3 t) (iblk2 V c 4 t) (iblk2 V c 5 t) (iblk2 V c 6 t) (iblk2 V c 7 t) (iblk2 V c 8 t) (ix2 r 0)
      = headArr (V c main_v60) (V c main_arg17) (V c main_arg18) (V c main_v61) (V c main_arg20) (V c main_arg21) (V c main_arg22) (V c main_v62) (V c main_arg24) (((cfg2.win 9).blk t).view.emb (ix2 r 0))
  rw [iblk2_0_eq V c t, iblk2_1_eq V c t, iblk2_2_eq V c t, iblk2_3_eq V c t, iblk2_4_eq V c t, iblk2_5_eq V c t,
    iblk2_6_eq V c t, iblk2_7_eq V c t, iblk2_8_eq V c t]
  refine (head_payload _ _ _ _ _ _ _ _ _ r).trans ?_
  unfold headArr
  refine congrArg (Spec.pred _ _ _ _ _ _ _ _ _) (Fin.ext ?_)
  show r.val = win2_9.index t (0 : Fin 2) * 4096 + 1 * r.val
  rw [e9a]; omega

/-- The one block covers the result array. -/
theorem cover2 (i : S4096x1.Idx) : ∃ t : Fin cfg2.N, (cfg2.win 9).flush t = true ∧ i ∈ ((cfg2.win 9).blk t).view.set := by
  have h0 : (i 0).val < 4096 := (i 0).isLt
  have h1 : (i 1).val < 1 := (i 1).isLt
  refine ⟨t2_0, flush2_9 _, ?_⟩
  obtain ⟨e0a, e0b, e1a, e2a, e3a, e3b, e4a, e5a, e6a, e7a, e7b, e8a, e9a, e9b⟩ := idx2 t2_0
  show i ∈ ((View.whole main_v63).slice (win2_9.rect t2_0)).set
  rw [View.set_slice_whole, Rect.mem_set_unit]
  intro a
  match a with
  | ⟨0, _⟩ => show win2_9.index t2_0 (0 : Fin 2) * 4096 ≤ (i 0).val ∧ (i 0).val < win2_9.index t2_0 (0 : Fin 2) * 4096 + 4096; rw [e9a]; omega
  | ⟨1, _⟩ => show win2_9.index t2_0 (1 : Fin 2) * 1 ≤ (i 1).val ∧ (i 1).val < win2_9.index t2_0 (1 : Fin 2) * 1 + 1; rw [e9b]; omega

/-- The result array after the call. -/
theorem final2 (c : Dev nD) : (dat2 V c).arrAt 9 cfg2.N
    = headArr (V c main_v60) (V c main_arg17) (V c main_arg18) (V c main_v61) (V c main_arg20) (V c main_arg21)
        (V c main_arg22) (V c main_v62) (V c main_arg24) :=
  (dat2 V c).arrAt_eq_of_cover 9 (headArr (V c main_v60) (V c main_arg17) (V c main_arg18) (V c main_v61) (V c main_arg20) (V c main_arg21) (V c main_arg22) (V c main_v62) (V c main_arg24)) (flushed2_eq V c) cover2

end Cert.Bridge

end
-- ==== Proof.Glue1.lean ====
/-
  What the kernel program's first stretch of host operations leaves for its calls, as terms of the launch
  memory. The stretch gathers the three prompt rows, the text and visual rows of each sample's item, and the
  merged prototype ids, and transposes the two projections: the same operations the reference performs on the
  same arguments, so each is the reference's own stage of the launch arrays. The arguments it does not write stay
  as launched.
-/
import proofs.«413471_j87076166959612_3_alg».proof.Proof.FrameI
import proofs.«413471_j87076166959612_3_alg».proof.Proof.RefRead
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Cert.KernelIdeal Cert.KernelIdeal.Gen Cert.KernelIdeal.GenP

namespace Cert.Bridge

variable (m : (ℓ : Loc nD τ sig) → Buf (Elt Ideal) ℓ) (ρ : Dev nD → PrngReg)

/-! ## The arguments the first stretch does not write -/
theorem V1_arg5 (c : Dev nD) : V1 m ρ c main_arg5 = (m ((c : Thread nD τ).loc main_arg5)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg5) = W0 m ρ c (Proc.devRef .tc main_arg5))
theorem V1_arg9 (c : Dev nD) : V1 m ρ c main_arg9 = (m ((c : Thread nD τ).loc main_arg9)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg9) = W0 m ρ c (Proc.devRef .tc main_arg9))
theorem V1_arg11 (c : Dev nD) : V1 m ρ c main_arg11 = (m ((c : Thread nD τ).loc main_arg11)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg11) = W0 m ρ c (Proc.devRef .tc main_arg11))
theorem V1_arg15 (c : Dev nD) : V1 m ρ c main_arg15 = (m ((c : Thread nD τ).loc main_arg15)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg15) = W0 m ρ c (Proc.devRef .tc main_arg15))
theorem V1_arg16 (c : Dev nD) : V1 m ρ c main_arg16 = (m ((c : Thread nD τ).loc main_arg16)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg16) = W0 m ρ c (Proc.devRef .tc main_arg16))
theorem V1_arg17 (c : Dev nD) : V1 m ρ c main_arg17 = (m ((c : Thread nD τ).loc main_arg17)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg17) = W0 m ρ c (Proc.devRef .tc main_arg17))
theorem V1_arg18 (c : Dev nD) : V1 m ρ c main_arg18 = (m ((c : Thread nD τ).loc main_arg18)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg18) = W0 m ρ c (Proc.devRef .tc main_arg18))
theorem V1_arg19 (c : Dev nD) : V1 m ρ c main_arg19 = (m ((c : Thread nD τ).loc main_arg19)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg19) = W0 m ρ c (Proc.devRef .tc main_arg19))
theorem V1_arg20 (c : Dev nD) : V1 m ρ c main_arg20 = (m ((c : Thread nD τ).loc main_arg20)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg20) = W0 m ρ c (Proc.devRef .tc main_arg20))
theorem V1_arg21 (c : Dev nD) : V1 m ρ c main_arg21 = (m ((c : Thread nD τ).loc main_arg21)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg21) = W0 m ρ c (Proc.devRef .tc main_arg21))
theorem V1_arg22 (c : Dev nD) : V1 m ρ c main_arg22 = (m ((c : Thread nD τ).loc main_arg22)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg22) = W0 m ρ c (Proc.devRef .tc main_arg22))
theorem V1_arg23 (c : Dev nD) : V1 m ρ c main_arg23 = (m ((c : Thread nD τ).loc main_arg23)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg23) = W0 m ρ c (Proc.devRef .tc main_arg23))
theorem V1_arg24 (c : Dev nD) : V1 m ρ c main_arg24 = (m ((c : Thread nD τ).loc main_arg24)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg24) = W0 m ρ c (Proc.devRef .tc main_arg24))

/-! ## What it writes -/

set_option maxHeartbeats 4000000 in
/-- The user prompt rows. -/
theorem V1_v8 (c : Dev nD) : V1 m ρ c main_v8 = Cert.ReferenceIdeal.ReadP.val_main_v16 (F := Ideal) (m ((c : Thread nD τ).loc main_arg0)) (m ((c : Thread nD τ).loc main_arg12)) := by
  show StableHlo.after hostOps0 (W0 m ρ c) (Proc.devRef .tc main_v8) = _
  after_results_simp <;> rfl

set_option maxHeartbeats 4000000 in
/-- The item prompt rows. -/
theorem V1_v15 (c : Dev nD) : V1 m ρ c main_v15 = Cert.ReferenceIdeal.ReadP.val_main_v23 (F := Ideal) (m ((c : Thread nD τ).loc main_arg1)) (m ((c : Thread nD τ).loc main_arg13)) := by
  show StableHlo.after hostOps0 (W0 m ρ c) (Proc.devRef .tc main_v15) = _
  after_results_simp <;> rfl

set_option maxHeartbeats 4000000 in
/-- The domain prompt rows. -/
theorem V1_v22 (c : Dev nD) : V1 m ρ c main_v22 = Cert.ReferenceIdeal.ReadP.val_main_v30 (F := Ideal) (m ((c : Thread nD τ).loc main_arg2)) (m ((c : Thread nD τ).loc main_arg14)) := by
  show StableHlo.after hostOps0 (W0 m ρ c) (Proc.devRef .tc main_v22) = _
  after_results_simp <;> rfl

/-- A reshape of two joined pieces depends only on the pieces. -/
theorem shapeCast_concat2_congr {α : Type} {t u S1 S2 : Shape} {a : Fin t.rank} {A A' : S1.Idx → α} {B B' : S2.Idx → α}
    (h : Shape.Concatenates [S1, S2] t a) (hn : t.ShapeCasts u) (hA : A = A') (hB : B = B') :
    shapeCast u (concatenate t a [⟨S1, A⟩, ⟨S2, B⟩] h) hn = shapeCast u (concatenate t a [⟨S1, A'⟩, ⟨S2, B'⟩] h) hn := by
  subst hA; subst hB; rfl

set_option maxHeartbeats 4000000 in
/-- The merged prototype ids after the stretch, from any contents and at any float family: the two gathered halves are
    each the reference's stage, and the joined and reshaped array depends only on them. -/
theorem hostOps0_v54 {F : FTy → Type} [FloatOps F] (W : Valuation τ sig (Elt F)) :
    StableHlo.after (hostOps0 (F := F)) W (Proc.devRef .tc main_v54)
      = Cert.ReferenceIdeal.ReadP.val_main_v48 (F := F) (W (Proc.devRef .tc main_arg3)) (W (Proc.devRef .tc main_arg4)) := by
  after_results_simp
  unfold Cert.ReferenceIdeal.ReadP.val_main_v48 Cert.ReferenceIdeal.ReadP.val_main_v47
  refine shapeCast_concat2_congr _ _ ?_ ?_
  · after_results_simp <;> rfl
  · after_results_simp <;> rfl

/-- The merged prototype ids. -/
theorem V1_v54 (c : Dev nD) : V1 m ρ c main_v54 = Cert.ReferenceIdeal.ReadP.val_main_v48 (F := Ideal) (m ((c : Thread nD τ).loc main_arg3)) (m ((c : Thread nD τ).loc main_arg4)) :=
  hostOps0_v54 (W0 m ρ c)

set_option maxHeartbeats 4000000 in
/-- The text projection, transposed. -/
theorem V1_v0 (c : Dev nD) : V1 m ρ c main_v0 = transpose S384x128 [1, 0] (m ((c : Thread nD τ).loc main_arg8)) transposes_S128x384_S384x128_1_0 := by
  show StableHlo.after hostOps0 (W0 m ρ c) (Proc.devRef .tc main_v0) = _
  after_results_simp <;> rfl

set_option maxHeartbeats 4000000 in
/-- The visual projection, transposed. -/
theorem V1_v1 (c : Dev nD) : V1 m ρ c main_v1 = transpose S768x128 [1, 0] (m ((c : Thread nD τ).loc main_arg10)) transposes_S128x768_S768x128_1_0 := by
  show StableHlo.after hostOps0 (W0 m ρ c) (Proc.devRef .tc main_v1) = _
  after_results_simp <;> rfl

set_option maxHeartbeats 4000000 in
/-- The gathered text rows: the text table's rows at the item index array. -/
theorem V1_v29 (c : Dev nD) : V1 m ρ c main_v29
    = Host.gather gather_S100000x384_S4096x1_S4096x384_1_0_n_n_0_1_1384 (m ((c : Thread nD τ).loc main_arg6)) (Cert.ReferenceIdeal.ReadP.val_main_v78 (F := Ideal) (m ((c : Thread nD τ).loc main_arg1))) := by
  show StableHlo.after hostOps0 (W0 m ρ c) (Proc.devRef .tc main_v29) = _
  after_results_simp <;> rfl

set_option maxHeartbeats 4000000 in
/-- The gathered visual rows. -/
theorem V1_v36 (c : Dev nD) : V1 m ρ c main_v36
    = Host.gather gather_S100000x768_S4096x1_S4096x768_1_0_n_n_0_1_1768 (m ((c : Thread nD τ).loc main_arg7)) (Cert.ReferenceIdeal.ReadP.val_main_v78 (F := Ideal) (m ((c : Thread nD τ).loc main_arg1))) := by
  show StableHlo.after hostOps0 (W0 m ρ c) (Proc.devRef .tc main_v36) = _
  after_results_simp <;> rfl

end Cert.Bridge

end
-- ==== Proof.Glue2.lean ====
/-
  The contents of each buffer the calls read, and of each result, walked back through the run's boundaries. A
  stretch of host operations leaves a buffer it does not write as it found it; a call leaves a buffer that is
  none of its arrays as it found it, an input array as it found it, and its output array at the function the
  "from blocks to the array" step gives. So every buffer a call reads is a term of the launch memory or an earlier
  call's output, and each result is: the user prompt rows and the domain prompt rows as the first stretch left
  them, the segment mean as the first call left it, and the reshaped output of the last call.
-/
import proofs.«413471_j87076166959612_3_alg».proof.Proof.FrameI
import proofs.«413471_j87076166959612_3_alg».proof.Proof.Blocks0
import proofs.«413471_j87076166959612_3_alg».proof.Proof.Blocks1
import proofs.«413471_j87076166959612_3_alg».proof.Proof.Blocks2
import proofs.«413471_j87076166959612_3_alg».proof.Proof.Glue1

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.GenP

namespace Cert.Bridge

variable (m : (ℓ : Loc nD τ sig) → Buf (Elt Ideal) ℓ) (ρ : Dev nD → PrngReg)

/-! ## The first call's output -/

theorem W2_v55 (c : Dev nD) : W2 m ρ c (Proc.devRef .tc main_v55) = segArr (V1 m ρ c main_v54) (V1 m ρ c main_arg5) :=
  (W2_arr m ρ c 2).trans (final0 (V1 m ρ) c)

/-! ## What the second call finds -/

theorem V3_v29 (c : Dev nD) : V3 m ρ c main_v29 = V1 m ρ c main_v29 :=
  calc V3 m ρ c main_v29
    _ = W2 m ρ c (Proc.devRef .tc main_v29) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v29) := W2_of_ne m ρ c main_v29 (by decide)

theorem V3_v36 (c : Dev nD) : V3 m ρ c main_v36 = V1 m ρ c main_v36 :=
  calc V3 m ρ c main_v36
    _ = W2 m ρ c (Proc.devRef .tc main_v36) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v36) := W2_of_ne m ρ c main_v36 (by decide)

theorem V3_arg9 (c : Dev nD) : V3 m ρ c main_arg9 = V1 m ρ c main_arg9 :=
  calc V3 m ρ c main_arg9
    _ = W2 m ρ c (Proc.devRef .tc main_arg9) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := W2_of_ne m ρ c main_arg9 (by decide)

theorem V3_arg11 (c : Dev nD) : V3 m ρ c main_arg11 = V1 m ρ c main_arg11 :=
  calc V3 m ρ c main_arg11
    _ = W2 m ρ c (Proc.devRef .tc main_arg11) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := W2_of_ne m ρ c main_arg11 (by decide)

theorem V3_v0 (c : Dev nD) : V3 m ρ c main_v0 = V1 m ρ c main_v0 :=
  calc V3 m ρ c main_v0
    _ = W2 m ρ c (Proc.devRef .tc main_v0) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v0) := W2_of_ne m ρ c main_v0 (by decide)

theorem V3_v1 (c : Dev nD) : V3 m ρ c main_v1 = V1 m ρ c main_v1 :=
  calc V3 m ρ c main_v1
    _ = W2 m ρ c (Proc.devRef .tc main_v1) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)

theorem V3_v22 (c : Dev nD) : V3 m ρ c main_v22 = V1 m ρ c main_v22 :=
  calc V3 m ρ c main_v22
    _ = W2 m ρ c (Proc.devRef .tc main_v22) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v22) := W2_of_ne m ρ c main_v22 (by decide)

theorem V3_v15 (c : Dev nD) : V3 m ρ c main_v15 = V1 m ρ c main_v15 :=
  calc V3 m ρ c main_v15
    _ = W2 m ρ c (Proc.devRef .tc main_v15) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v15) := W2_of_ne m ρ c main_v15 (by decide)

theorem V3_arg16 (c : Dev nD) : V3 m ρ c main_arg16 = V1 m ρ c main_arg16 :=
  calc V3 m ρ c main_arg16
    _ = W2 m ρ c (Proc.devRef .tc main_arg16) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg16) := W2_of_ne m ρ c main_arg16 (by decide)

theorem V3_v55 (c : Dev nD) : V3 m ρ c main_v55 = segArr (V1 m ρ c main_v54) (V1 m ρ c main_arg5) :=
  calc V3 m ρ c main_v55
    _ = W2 m ρ c (Proc.devRef .tc main_v55) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = _ := W2_v55 m ρ c

theorem W2_arg15 (c : Dev nD) : W2 m ρ c (Proc.devRef .tc main_arg15) = m ((c : Thread nD τ).loc main_arg15) :=
  (W2_of_ne m ρ c main_arg15 (by decide)).trans (V1_arg15 m ρ c)

/-- The left half of the first layer's weight, transposed. -/
theorem V3_v57 (c : Dev nD) : V3 m ρ c main_v57
    = transpose S128x128 [1, 0] (extractStridedSlice S128x128 ![0, 0] (m ((c : Thread nD τ).loc main_arg15)) slices_S128x256_S128x128_0_0) transposes_S128x128_S128x128_1_0 := by
  rw [← W2_arg15 m ρ c]
  show StableHlo.after hostOps1 (W2 m ρ c) (Proc.devRef .tc main_v57) = _
  after_results <;> rfl

/-- The right half of the first layer's weight, transposed. -/
theorem V3_v59 (c : Dev nD) : V3 m ρ c main_v59
    = transpose S128x128 [1, 0] (extractStridedSlice S128x128 ![0, 128] (m ((c : Thread nD τ).loc main_arg15)) slices_S128x256_S128x128_0_128) transposes_S128x128_S128x128_1_0 := by
  rw [← W2_arg15 m ρ c]
  show StableHlo.after hostOps1 (W2 m ρ c) (Proc.devRef .tc main_v59) = _
  after_results <;> rfl

/-! ## The second call's output, and what the third call finds -/

theorem W4_v60 (c : Dev nD) : W4 m ρ c (Proc.devRef .tc main_v60)
    = z1Arr (V3 m ρ c main_v29) (V3 m ρ c main_v36) (V3 m ρ c main_arg9) (V3 m ρ c main_arg11) (V3 m ρ c main_v0) (V3 m ρ c main_v1)
        (V3 m ρ c main_v55) (V3 m ρ c main_v22) (V3 m ρ c main_v15) (V3 m ρ c main_v57) (V3 m ρ c main_v59) (V3 m ρ c main_arg16) :=
  (W4_arr m ρ c 12).trans (final1 (V3 m ρ) c)

theorem V5_v60 (c : Dev nD) : V5 m ρ c main_v60 = W4 m ρ c (Proc.devRef .tc main_v60) :=
  StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem V5_arg17 (c : Dev nD) : V5 m ρ c main_arg17 = m ((c : Thread nD τ).loc main_arg17) :=
  calc V5 m ρ c main_arg17
    _ = W4 m ρ c (Proc.devRef .tc main_arg17) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg17) := W2_of_ne m ρ c main_arg17 (by decide)
    _ = _ := V1_arg17 m ρ c

theorem V5_arg18 (c : Dev nD) : V5 m ρ c main_arg18 = m ((c : Thread nD τ).loc main_arg18) :=
  calc V5 m ρ c main_arg18
    _ = W4 m ρ c (Proc.devRef .tc main_arg18) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg18) := W2_of_ne m ρ c main_arg18 (by decide)
    _ = _ := V1_arg18 m ρ c

theorem V5_arg20 (c : Dev nD) : V5 m ρ c main_arg20 = m ((c : Thread nD τ).loc main_arg20) :=
  calc V5 m ρ c main_arg20
    _ = W4 m ρ c (Proc.devRef .tc main_arg20) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg20) := W2_of_ne m ρ c main_arg20 (by decide)
    _ = _ := V1_arg20 m ρ c

theorem V5_arg21 (c : Dev nD) : V5 m ρ c main_arg21 = m ((c : Thread nD τ).loc main_arg21) :=
  calc V5 m ρ c main_arg21
    _ = W4 m ρ c (Proc.devRef .tc main_arg21) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg21) := W2_of_ne m ρ c main_arg21 (by decide)
    _ = _ := V1_arg21 m ρ c

theorem V5_arg22 (c : Dev nD) : V5 m ρ c main_arg22 = m ((c : Thread nD τ).loc main_arg22) :=
  calc V5 m ρ c main_arg22
    _ = W4 m ρ c (Proc.devRef .tc main_arg22) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg22) := W2_of_ne m ρ c main_arg22 (by decide)
    _ = _ := V1_arg22 m ρ c

theorem V5_arg24 (c : Dev nD) : V5 m ρ c main_arg24 = m ((c : Thread nD τ).loc main_arg24) :=
  calc V5 m ρ c main_arg24
    _ = W4 m ρ c (Proc.devRef .tc main_arg24) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg24) := W2_of_ne m ρ c main_arg24 (by decide)
    _ = _ := V1_arg24 m ρ c

theorem W4_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg19) := W2_of_ne m ρ c main_arg19 (by decide)
    _ = _ := V1_arg19 m ρ c

theorem W4_arg23 (c : Dev nD) : W4 m ρ c (Proc.devRef .tc main_arg23) = m ((c : Thread nD τ).loc main_arg23) :=
  calc W4 m ρ c (Proc.devRef .tc main_arg23)
    _ = W3 m ρ c (Proc.devRef .tc main_arg23) := W4_of_ne m ρ c main_arg23 (by decide)
    _ = W2 m ρ c (Proc.devRef .tc main_arg23) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg23) := W2_of_ne m ρ c main_arg23 (by decide)
    _ = _ := V1_arg23 m ρ c

/-- The second layer's weight, transposed. -/
theorem V5_v61 (c : Dev nD) : V5 m ρ c main_v61 = transpose S128x64 [1, 0] (m ((c : Thread nD τ).loc main_arg19)) transposes_S64x128_S128x64_1_0 := by
  rw [← W4_arg19 m ρ c]
  show StableHlo.after hostOps2 (W4 m ρ c) (Proc.devRef .tc main_v61) = _
  after_results <;> rfl

/-- The last layer's weight, transposed. -/
theorem V5_v62 (c : Dev nD) : V5 m ρ c main_v62 = transpose S64x1 [1, 0] (m ((c : Thread nD τ).loc main_arg23)) transposes_S1x64_S64x1_1_0 := by
  rw [← W4_arg23 m ρ c]
  show StableHlo.after hostOps2 (W4 m ρ c) (Proc.devRef .tc main_v62) = _
  after_results <;> rfl

/-! ## The results -/

theorem W6_v63 (c : Dev nD) : W6 m ρ c (Proc.devRef .tc main_v63)
    = headArr (V5 m ρ c main_v60) (V5 m ρ c main_arg17) (V5 m ρ c main_arg18) (V5 m ρ c main_v61) (V5 m ρ c main_arg20) (V5 m ρ c main_arg21)
        (V5 m ρ c main_arg22) (V5 m ρ c main_v62) (V5 m ρ c main_arg24) :=
  (W6_arr m ρ c 9).trans (final2 (V5 m ρ) c)

/-- The prediction: the last call's output reshaped. -/
theorem W7_v64 (c : Dev nD) : W7 m ρ c (Proc.devRef .tc main_v64) = shapeCast S4096 (W6 m ρ c (Proc.devRef .tc main_v63)) shapeCasts_S4096x1_S4096 := by
  show StableHlo.after hostOps3 (W6 m ρ c) (Proc.devRef .tc main_v64) = _
  after_results <;> rfl

/-- The user prompt rows end as the first stretch left them. -/
theorem W7_v8 (c : Dev nD) : W7 m ρ c (Proc.devRef .tc main_v8) = V1 m ρ c main_v8 :=
  calc W7 m ρ c (Proc.devRef .tc main_v8)
    _ = W6 m ρ c (Proc.devRef .tc main_v8) := StableHlo.after_of_forall_not_mem _ _ (List.forall_iff_forall_mem.mp (by
      simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v8) := W6_of_ne m ρ c main_v8 (by decide)
    _ = W4 m ρ c (Proc.devRef .tc main_v8) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v8) := W4_of_ne m ρ c main_v8 (by decide)
    _ = W2 m ρ c (Proc.devRef .tc main_v8) := StableHlo.after_of_forall_not_mem _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v8) := W2_of_ne m ρ c main_v8 (by decide)

/-- The domain prompt rows end as the first stretch left them (the second call reads them and leaves them). -/
theorem W7_v22 (c : Dev nD) : W7 m ρ c (Proc.devRef .tc main_v22) = V1 m ρ c main_v22 :=
  calc W7 m ρ c (Proc.devRef .tc main_v22)
    _ = W6 m ρ c (Proc.devRef .tc main_v22) := StableHlo.after_of_forall_not_mem _ _ (List.forall_iff_forall_mem.mp (by
      simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v22) := W6_of_ne m ρ c main_v22 (by decide)
    _ = W4 m ρ c (Proc.devRef .tc main_v22) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v22) := (W4_arr m ρ c 7).trans (((dat1 (V3 m ρ) c).arrAt_in 7 rfl _).trans (A_eq1 (V3 m ρ) c 7))
    _ = _ := V3_v22 m ρ c

/-- The segment mean ends as the first call left it (the second call reads it and leaves it). -/
theorem W7_v55 (c : Dev nD) : W7 m ρ c (Proc.devRef .tc main_v55) = segArr (V1 m ρ c main_v54) (V1 m ρ c main_arg5) :=
  calc W7 m ρ c (Proc.devRef .tc main_v55)
    _ = W6 m ρ c (Proc.devRef .tc main_v55) := StableHlo.after_of_forall_not_mem _ _ (List.forall_iff_forall_mem.mp (by
      simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v55) := W6_of_ne m ρ c main_v55 (by decide)
    _ = W4 m ρ c (Proc.devRef .tc main_v55) := StableHlo.after_of_forall_not_mem _ _ (List.forall_iff_forall_mem.mp (by
      simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v55) := (W4_arr m ρ c 6).trans (((dat1 (V3 m ρ) c).arrAt_in 6 rfl _).trans (A_eq1 (V3 m ρ) c 6))
    _ = _ := V3_v55 m ρ c

end Cert.Bridge

end
-- ==== Proof.LibGather.lean ====
/-
  General lemmas, independent of any program.

  * A row gather: a table of `N` rows and `C` columns, one signed start index per result row (an `R × 1` array),
    whole rows taken. Result entry `(b, k)` is the table's entry `(pickedRow N w, k)` where `w` is row `b`'s index
    word: the word read as a signed integer, below zero taken as 0, above the last row taken as the last row.
    The picked row depends on the word and on `N` alone, not on the row width, so two gathers by the same index
    array out of tables of the same height pick the same rows.
  * A host scatter that writes one constant into a constant array: the result at an index is the written
    constant exactly when some update lands there.
-/
import Idealize.ShloMosaic.PureOps.ShapeOps
import Idealize.ShloMosaic.PureOps.Dims
import Idealize.ShloMosaic.Lib.ValueIdx

noncomputable section

open Idealize.ShloMosaic Idealize.ShloMosaic.ValueIdx

namespace Cert.Lib

/-- The table row a signed index word picks among `N` rows: `min (max w 0) (N − 1)`. -/
def pickedRow (N : ℕ) [NeZero N] (w : BitVec 32) : Fin N :=
  ⟨min w.toInt.toNat (N - 1), by have := NeZero.pos N; omega⟩

/-- A row gather read at an entry. The seven hypotheses say that the dimension numbers are a row gather's
    (they hold by `rfl` of a printed record of that kind). -/
theorem rowGather_apply {N R C : ℕ} [NeZero N] (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    {α : Type} (x : (⟨2, ![N, C]⟩ : Shape).Idx → α) (idx : IVec ⟨2, ![R, 1]⟩ 32) (b : Fin R) (k : Fin C) :
    Host.gather d x idx (ix2 b k) = x (ix2 (pickedRow N (idx (ix2 b 0))) k) := by
  obtain ⟨od, cs, ob, sb, sim, ivd, ss, wf⟩ := d
  simp only at h1 h2 h3 h4 h5 h6 h7
  subst h1 h2 h3 h4 h5 h6 h7
  unfold Host.gather
  congr 1
  refine (eq_ix2 _).trans ?_
  congr 1
  · -- axis 0 (collapsed, named by the start index map): the clamped start alone
    refine Fin.ext ?_
    show GatherDims.start _ (ix2 b k) idx 0 + GatherDims.batchCoord _ (ix2 b k) 0 + GatherDims.offCoord _ (ix2 b k) 0
      = min (idx (ix2 b 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ :
          GatherDims ⟨2, ![N, C]⟩ ⟨2, ![R, 1]⟩ ⟨2, ![R, C]⟩) (ix2 b k)
        ⟨List.idxOf (0 : Fin 2) [0], List.idxOf_lt_length_iff.2 (List.mem_singleton.mpr rfl)⟩ = ix2 b 0 := by
      funext c; refine Fin.ext ?_
      match c with
      | ⟨0, _⟩ => rfl
      | ⟨1, _⟩ => rfl
    rw [hsi]
    rfl
  · -- axis 1 (an offset axis, not named by the start index map): the offset coordinate alone
    refine Fin.ext ?_
    show GatherDims.start _ (ix2 b k) idx 1 + GatherDims.batchCoord _ (ix2 b k) 1 + GatherDims.offCoord _ (ix2 b k) 1
      = k.val
    rw [GatherDims.batchCoord_eq_zero _ _ _ List.not_mem_nil]
    unfold GatherDims.start GatherDims.offCoord
    rw [dif_neg (fun h => absurd (List.mem_singleton.mp h) (show ¬ ((1 : Fin 2) = 0) by decide)),
      dif_pos ((GatherDims.mem_sKept _ _).mpr
        ⟨fun h => absurd (List.mem_singleton.mp h) (show ¬ ((1 : Fin 2) = 0) by decide), List.not_mem_nil⟩)]
    simp only [Nat.add_zero, Nat.zero_add]
    rfl

/-- A left fold of steps that each either leave the array alone or overwrite ONE index (the step's own, `g n`) with
    the constant `v`: afterwards an index holds `v` exactly when some step of the list wrote it, else its first value. -/
theorem foldl_const_write {ι κ α : Type} (F : (ι → α) → κ → ι → α) (g : κ → Option ι) (v : α)
    (hF : ∀ (r : ι → α) (n : κ) (i : ι), F r n i = open Classical in if g n = some i then v else r i)
    (l : List κ) (r₀ : ι → α) (i : ι) :
    l.foldl F r₀ i = open Classical in if ∃ n ∈ l, g n = some i then v else r₀ i := by
  classical
  induction l generalizing r₀ with
  | nil => simp
  | cons a l ih =>
    rw [List.foldl_cons, ih, hF]
    by_cases ha : g a = some i
    · simp [ha]
    · simp [ha]

/-- The host scatter's fold when every update writes the same value `v` (the body returns the update) into an
    array that holds `z` everywhere: an index holds `v` exactly when some update's result index is that index. -/
theorem scatter_const_apply {s si u : Shape} {w : ℕ} {α : Type} (d : ScatterDims s si u) (z v : α) (idx : IVec si w) (i : s.Idx) :
    Host.scatter d (fun _ b => b) (fun _ => z) idx (fun _ => v) i
      = open Classical in if ∃ n : u.Idx, d.resultIdx? n idx = some i then v else z := by
  classical
  unfold Host.scatter
  refine (foldl_const_write _ (fun n : Fin u.numel => d.resultIdx? (u.rowMajor.symm n) idx) v ?_
    (List.finRange u.numel) (fun _ => z) i).trans ?_
  · intro r n i'
    cases hg : d.resultIdx? (u.rowMajor.symm n) idx with
    | none => simp
    | some j =>
      by_cases hji : i' = j
      · subst hji; simp
      · have hne : ¬ (j = i') := fun h => hji h.symm
        simp [hji, hne]
  · have hiff : (∃ n ∈ List.finRange u.numel, d.resultIdx? (u.rowMajor.symm n) idx = some i)
        ↔ ∃ n : u.Idx, d.resultIdx? n idx = some i := by
      constructor
      · rintro ⟨n, _, hn⟩
        exact ⟨u.rowMajor.symm n, hn⟩
      · rintro ⟨n, hn⟩
        exact ⟨u.rowMajor n, List.mem_finRange _, by rw [Equiv.symm_apply_apply]; exact hn⟩
    simp only [hiff]

end Cert.Lib

end
-- ==== Proof.HostReads.lean ====
/-
  The kernel program's host operations around its three calls, each read at an entry.
  * The two row gathers of the text and visual tables: entry `(b, j)` is the table's entry at the row sample `b`'s
    index word picks (`Cert.Lib.pickedRow`) and column `j`.
  * The transposes: entry `(j, k)` of the transposed array is entry `(k, j)` of the array.
  * The two halves of the first layer's weight: columns `0 … 127` and `128 … 255` of the 128 × 256 array, each
    transposed.
  * The final reshape of the 4096 × 1 predictions to 4096.
-/
import proofs.«413471_j87076166959612_3_alg».proof.KernelIdeal
import proofs.«413471_j87076166959612_3_alg».proof.Proof.LibGather
import Idealize.ShloMosaic.Lib.Pipeline.Value
import Idealize.ShloMosaic.Lib.ValueLayout
import Idealize.ShloMosaic.Lib.ValueIdx

noncomputable section

open Idealize.ShloMosaic Idealize.ShloMosaic.TcCoe Idealize.ShloMosaic.ValueIdx
open Cert.KernelIdeal

namespace Cert.Bridge

variable [Facts₀]
open Facts₀

theorem k_gather384 (x : Vec Ideal S100000x384 .f32) (idx : IVec S4096x1 32) (b : Fin 4096) (j : Fin 384) :
    Host.gather gather_S100000x384_S4096x1_S4096x384_1_0_n_n_0_1_1384 x idx (ix2 b j)
      = x (ix2 (Cert.Lib.pickedRow 100000 (idx (ix2 b 0))) j) := by
  exact Cert.Lib.rowGather_apply _ rfl rfl rfl rfl rfl rfl rfl x idx b j

theorem k_gather768 (x : Vec Ideal S100000x768 .f32) (idx : IVec S4096x1 32) (b : Fin 4096) (j : Fin 768) :
    Host.gather gather_S100000x768_S4096x1_S4096x768_1_0_n_n_0_1_1768 x idx (ix2 b j)
      = x (ix2 (Cert.Lib.pickedRow 100000 (idx (ix2 b 0))) j) := by
  exact Cert.Lib.rowGather_apply _ rfl rfl rfl rfl rfl rfl rfl x idx b j

theorem k_gather128 (x : Vec Ideal S100000x128 .f32) (idx : IVec S4096x1 32) (b : Fin 4096) (k : Fin 128) :
    Host.gather gather_S100000x128_S4096x1_S4096x128_1_0_n_n_0_1_1128 x idx (ix2 b k)
      = x (ix2 (Cert.Lib.pickedRow 100000 (idx (ix2 b 0))) k) := by
  exact Cert.Lib.rowGather_apply _ rfl rfl rfl rfl rfl rfl rfl x idx b k

theorem k_transpose_wt (x : Vec Ideal S128x384 .f32) (j : Fin 384) (k : Fin 128) :
    transpose S384x128 [1, 0] x transposes_S128x384_S384x128_1_0 (ix2 j k) = x (ix2 k j) := by
  exact transpose_ix2_apply x _ j k

theorem k_transpose_wv (x : Vec Ideal S128x768 .f32) (j : Fin 768) (k : Fin 128) :
    transpose S768x128 [1, 0] x transposes_S128x768_S768x128_1_0 (ix2 j k) = x (ix2 k j) := by
  exact transpose_ix2_apply x _ j k

theorem k_w1a (x : Vec Ideal S128x256 .f32) (k n : Fin 128) :
    transpose S128x128 [1, 0] (extractStridedSlice S128x128 ![0, 0] x slices_S128x256_S128x128_0_0) transposes_S128x128_S128x128_1_0 (ix2 k n)
      = x (ix2 n (⟨k.val, by omega⟩ : Fin 256)) := by
  rw [transpose_ix2_apply]
  exact slice2_axis1_apply 0 x _ n k _ (Nat.zero_add _).symm

theorem k_w1b (x : Vec Ideal S128x256 .f32) (k n : Fin 128) :
    transpose S128x128 [1, 0] (extractStridedSlice S128x128 ![0, 128] x slices_S128x256_S128x128_0_128) transposes_S128x128_S128x128_1_0 (ix2 k n)
      = x (ix2 n (⟨128 + k.val, by omega⟩ : Fin 256)) := by
  rw [transpose_ix2_apply]
  exact slice2_axis1_apply 128 x _ n k _ rfl

theorem k_transpose_w2 (x : Vec Ideal S64x128 .f32) (k : Fin 128) (n : Fin 64) :
    transpose S128x64 [1, 0] x transposes_S64x128_S128x64_1_0 (ix2 k n) = x (ix2 n k) := by
  exact transpose_ix2_apply x _ k n

theorem k_transpose_wp (x : Vec Ideal S1x64 .f32) (k : Fin 64) :
    transpose S64x1 [1, 0] x transposes_S1x64_S64x1_1_0 (ix2 k 0) = x (ix2 0 k) := by
  exact transpose_ix2_apply x _ k 0

theorem k_reshape_pred (x : Vec Ideal S4096x1 .f32) (r : Fin 4096) :
    shapeCast S4096 x shapeCasts_S4096x1_S4096 (ix1 r) = x (ix2 r 0) := by
  refine shapeCast_apply x _ (ix1 r) (ix2 r 0) ?_
  rw [Shape.rowMajor_val_two, Shape.rowMajor_val_one]
  show r.val * 1 + 0 = r.val
  omega

end Cert.Bridge

end
-- ==== Proof.PreDecode.lean ====
/-
  What the precondition says about the prototype-id table. The precondition's last conjunct is the conjunction,
  over every entry `x` of the table, of `0 ≤ x` and `x < 1024` as signed words; the whole precondition being all
  ones, that conjunct is one, so every entry is a prototype number.
  Beside it: a row of ids that are prototype numbers marks at least one prototype, so its count is at least one.
-/
import proofs.«413471_j87076166959612_3_alg».proof.Defs
import proofs.«413471_j87076166959612_3_alg».proof.Proof.Spec
import Idealize.ShloMosaic.Lib.ReduceAll
import Idealize.ShloMosaic.Lib.StableHlo.Predicate

noncomputable section

open Idealize.ShloMosaic Idealize.ShloMosaic.TcCoe Idealize.ShloMosaic.ValueIdx Idealize.SL.Sem

namespace Cert.Bridge.PreDecode

section Parts
open Cert.Pre_finite_inputs
variable [Cert.Pre_finite_inputs.Facts] {F : FTy → Type} [FloatOps F]

/-- The last stretch of the predicate is `and` of everything before it with the conjunction, over the whole table,
    of the two comparison words. If the result is one, both halves are one; a conjunction over all entries that is
    one has a one at every entry; and an `and` of two words that is one has both words one. -/
theorem lastConj (a4 : IVec S200000x4 32) (v98 : IVec S_ 1) (v100 : IVec S200000x4 1) (v101 : IVec S200000x4 32) (i : S_.Idx)
    (h : fn_part6 (F := F) a4 v98 v100 v101 i = 1#1) (j : S200000x4.Idx) :
    v100 j = 1#1 ∧ IntOp.cmpi .slt (a4 j) (v101 j) = 1#1 := by
  haveI : Subsingleton S_.Idx := ⟨fun a b => funext fun d => d.elim0⟩
  have h2 := (IntOp.andi_eq_one.1 h).2
  exact IntOp.andi_eq_one.1 (Host.reduce_andi_all _ _ _ _ i h2 j)

/-- The stretch before it makes the two comparison words: entry `j` against the constant `0` by signed `≥`, and against
    the constant `1024` by signed `<` (a constant broadcast over the table reads the constant at every entry). A signed
    comparison word that is one says the comparison of the signed values. -/
theorem inRange_of_part5 (a4 : IVec S200000x4 32) (a23 : FVec F S1x64 .f32) (a24 : FVec F S1 .f32) (v83 : IVec S_ 1)
    (v84 : FVec F S64 .f32) (c32 : FVec F S_ .f32) (i : S_.Idx)
    (h : fn_part5 (F := F) a4 a23 a24 v83 v84 c32 i = 1#1) : Spec.InRange a4 := by
  intro j
  obtain ⟨h0, h1⟩ := lastConj (F := F) a4 _ _ _ i h j
  have h0' : IntOp.cmpi .sge (a4 j) 0#32 = 1#1 := h0
  have h1' : IntOp.cmpi .slt (a4 j) 1024#32 = 1#1 := h1
  rw [IntOp.cmpi_sge] at h0'
  rw [IntOp.cmpi_slt] at h1'
  exact ⟨h0', h1'⟩

end Parts

/-- A 32-bit word whose signed value is not negative is the word of that value. -/
theorem word_eq_ofNat (w : BitVec 32) (h0 : 0 ≤ w.toInt) : w = BitVec.ofNat 32 w.toInt.toNat := by
  apply BitVec.eq_of_toNat_eq
  rw [BitVec.toNat_ofNat]
  have hw := w.isLt
  rw [BitVec.toInt_eq_toNat_cond] at h0 ⊢
  split at h0 <;> omega

/-- A mark is zero or one, so not negative. -/
theorem mask_nonneg (row : Fin 400 → BitVec 32) (p : Fin 1024) : 0 ≤ Spec.mask row p := by
  unfold Spec.mask
  split
  · exact zero_le_one
  · exact le_refl _

end Cert.Bridge.PreDecode

namespace Cert.Bridge

/-- Under the precondition every entry of the prototype-id table is a prototype number. -/
theorem inRange_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Spec.InRange (m ((c.tc : Thread Cert.KernelIdeal.nD Cert.KernelIdeal.τ).loc Cert.KernelIdeal.main_arg4)) := by
  -- the predicate at its one index is one; its chain of operations ends in the stretch read above
  have e := congrFun (h c) ix0
  exact PreDecode.inRange_of_part5 (F := Ideal) _ _ _ _ _ _ ix0 e

/-- A row whose ids are prototype numbers marks at least one prototype. -/
theorem count_ge_one (row : Fin 400 → BitVec 32) (h : Spec.InRange row) : 1 ≤ Spec.count row := by
  -- the row's first id is the word of a number `p < 1024`, so prototype `p` is marked; the count, a sum of
  -- marks none of which is negative, is at least that one mark
  obtain ⟨h0, h1⟩ := h 0
  have hp : (row 0).toInt.toNat < 1024 := by omega
  have hm : Spec.mask row ⟨(row 0).toInt.toNat, hp⟩ = 1 := by
    unfold Spec.mask
    exact if_pos ⟨0, PreDecode.word_eq_ofNat _ h0⟩
  calc (1 : EReal) = Spec.mask row ⟨(row 0).toInt.toNat, hp⟩ := hm.symm
    _ ≤ ∑ q, Spec.mask row q :=
      Finset.single_le_sum (f := Spec.mask row) (fun q _ => PreDecode.mask_nonneg row q) (Finset.mem_univ _)

/-- The count is never negative (a sum of zeros and ones), so the larger of it and one is it once it is at least one. -/
theorem max_count_one (row : Fin 400 → BitVec 32) (h : Spec.InRange row) : max (Spec.count row) 1 = Spec.count row :=
  max_eq_left (count_ge_one row h)

end Cert.Bridge

end
-- ==== Proof.RefSeg.lean ====
/-
  The reference's segment mean read at an entry. The reference writes 1.0 into a zero 4096 × 1024 array at
  (sample, id) for each of the sample's 400 ids (an id below zero first shifted up by 1024, an index outside
  the array dropped), sums the array's rows for the counts, multiplies it with the prototype table and divides.
  Where every id is a prototype number the shift never fires and nothing is dropped, so the array is the
  presence mask of `Spec.mask`.
-/
import proofs.«413471_j87076166959612_3_alg».proof.Proof.Spec
import proofs.«413471_j87076166959612_3_alg».proof.Proof.RefRead
import proofs.«413471_j87076166959612_3_alg».proof.Proof.LibGather
import Idealize.ShloMosaic.Lib.Pipeline.Value
import Idealize.ShloMosaic.Lib.ValueLayout

noncomputable section

open Idealize.ShloMosaic Idealize.ShloMosaic.TcCoe Idealize.ShloMosaic.ValueIdx
open Cert.ReferenceIdeal Cert.ReferenceIdeal.ReadP

namespace Cert.Bridge.RefSeg

/-! ## Signed words -/

/-- A small natural number, written as a 32-bit word and read back signed, is itself. -/
theorem toInt_ofNat_small (n : ℕ) (h : n < 2147483648) : (BitVec.ofNat 32 n).toInt = (n : ℤ) := by
  rw [BitVec.toInt_eq_toNat_cond, BitVec.toNat_ofNat]
  have e : (2 : ℕ) ^ 32 = 4294967296 := by norm_num
  rw [e, Nat.mod_eq_of_lt (by omega), if_pos (by omega)]

/-- A word whose signed value is the natural number `n` is the word of `n`. -/
theorem eq_ofNat_of_toInt (w : BitVec 32) (n : ℕ) (h : w.toInt = (n : ℤ)) : w = BitVec.ofNat 32 n := by
  rw [← BitVec.ofInt_toInt (x := w), h, BitVec.ofInt_natCast]

/-- The index normalisation `select (w < 0) (w + c) w` leaves a word that is not negative alone. -/
theorem select_neg_shift (w c : BitVec 32) (h : 0 ≤ w.toInt) :
    Scalar.select (IntOp.cmpi .slt w 0#32) (IntOp.addi w c) w = w := by
  have hs : w.slt 0#32 = false := by
    rw [BitVec.slt_eq_decide, BitVec.toInt_zero]; exact decide_eq_false (by omega)
  unfold Scalar.select IntOp.cmpi
  simp only [hs]
  rw [if_neg (by decide)]

/-! ## Where an update of a scatter lands -/

/-- An update lands at `i` exactly when, on every axis, its start plus its window coordinate is `i`'s coordinate. -/
theorem resultIdx?_eq_some_iff {s si u : Shape} {w : ℕ} (d : ScatterDims s si u) (n : u.Idx) (idx : IVec si w) (i : s.Idx) :
    d.resultIdx? n idx = some i ↔ ∀ a, d.start n idx a + (d.window n a : ℤ) = ((i a).val : ℤ) := by
  unfold ScatterDims.resultIdx?
  split
  · next h =>
    rw [Option.some.injEq]
    constructor
    · rintro rfl a
      have := h a
      show _ = ((d.start n idx a + (d.window n a : ℤ)).toNat : ℤ)
      omega
    · intro h'
      funext a
      apply Fin.ext
      have := h a
      have := h' a
      show (d.start n idx a + (d.window n a : ℤ)).toNat = _
      omega
  · next h =>
    constructor
    · intro h'; cases h'
    · intro h'
      exact absurd (fun a => by have := h' a; have := (i a).isLt; omega) h

/-! ## The reference's scatter: one (row, id) pair per update, no window -/

theorem scat_window_0 (n : S4096x400.Idx) :
    scatter_S4096x1024_S4096x400x2_S4096x400_n_01_01_2.window n 0 = 0 := by
  unfold ScatterDims.window
  rw [dif_neg (show ¬(0 : Fin S4096x1024.rank) ∈ scatter_S4096x1024_S4096x400x2_S4096x400_n_01_01_2.sKept by decide)]

theorem scat_window_1 (n : S4096x400.Idx) :
    scatter_S4096x1024_S4096x400x2_S4096x400_n_01_01_2.window n 1 = 0 := by
  unfold ScatterDims.window
  rw [dif_neg (show ¬(1 : Fin S4096x1024.rank) ∈ scatter_S4096x1024_S4096x400x2_S4096x400_n_01_01_2.sKept by decide)]

theorem scat_start_0 (b : Fin 4096) (j : Fin 400) (idx : IVec S4096x400x2 32) :
    scatter_S4096x1024_S4096x400x2_S4096x400_n_01_01_2.start (ix2 b j) idx 0 = (idx (ix3 b j 0)).toInt := by
  unfold ScatterDims.start
  rw [dif_pos (show (0 : Fin S4096x1024.rank) ∈ scatter_S4096x1024_S4096x400x2_S4096x400_n_01_01_2.scatterDimsToOperandDims by decide)]
  refine congrArg (fun k => (idx k).toInt) (funext fun a => Fin.ext ?_)
  match a with
  | ⟨0, _⟩ => rfl
  | ⟨1, _⟩ => rfl
  | ⟨2, _⟩ => rfl

theorem scat_start_1 (b : Fin 4096) (j : Fin 400) (idx : IVec S4096x400x2 32) :
    scatter_S4096x1024_S4096x400x2_S4096x400_n_01_01_2.start (ix2 b j) idx 1 = (idx (ix3 b j 1)).toInt := by
  unfold ScatterDims.start
  rw [dif_pos (show (1 : Fin S4096x1024.rank) ∈ scatter_S4096x1024_S4096x400x2_S4096x400_n_01_01_2.scatterDimsToOperandDims by decide)]
  refine congrArg (fun k => (idx k).toInt) (funext fun a => Fin.ext ?_)
  match a with
  | ⟨0, _⟩ => rfl
  | ⟨1, _⟩ => rfl
  | ⟨2, _⟩ => rfl

/-! ## The (row, id) pairs -/

/-- The word `1.0`. -/
theorem ofBits_one_f32 : Ideal.ofBits .f32 0x3F800000#32 = 1 := by
  simp [Ideal.ofBits, Ideal.ieee, -EReal.coe_mul]; norm_num

/-- The first component of the pair at `(b, j)` is the row number `b`: a row number is never negative, so its
    normalisation leaves it alone. -/
theorem pairs_row (x3 : (⟨S4096x50, .i32⟩ : BufTy).Contents (Elt Ideal)) (x4 : (⟨S200000x4, .i32⟩ : BufTy).Contents (Elt Ideal))
    (b : Fin 4096) (j : Fin 400) :
    val_main_v65 (F := Ideal) x3 x4 (ix3 b j (0 : Fin 2)) = BitVec.ofNat 32 b.val := by
  unfold val_main_v65
  rw [concatenate_pair_apply_left _ _ _ Gen.concatenates_S4096x400x1_S4096x400x1_S4096x400x2_d2 (ix3 b j (0 : Fin 2)) rfl
    (ix3 b j (0 : Fin 1)) (fun a => by match a with | ⟨0, _⟩ => rfl | ⟨1, _⟩ => rfl | ⟨2, _⟩ => rfl)]
  rw [val_main_v63_apply, val_main_v62_apply, val_main_v56_apply, val_main_v53_apply, val_main_v55_apply,
    val_main_v52_apply, val_main_c_10_apply, val_main_v50_apply, val_main_v49_apply]
  have hb := b.isLt
  exact select_neg_shift (BitVec.ofNat 32 b.val) _ (by rw [toInt_ofNat_small _ (by omega)]; omega)

/-- The second component of the pair at `(b, j)` is the merged id at `(b, j)` where that id is not negative. -/
theorem pairs_id (x3 : (⟨S4096x50, .i32⟩ : BufTy).Contents (Elt Ideal)) (x4 : (⟨S200000x4, .i32⟩ : BufTy).Contents (Elt Ideal))
    (b : Fin 4096) (j : Fin 400) (h : 0 ≤ (val_main_v48 (F := Ideal) x3 x4 (ix2 b j)).toInt) :
    val_main_v65 (F := Ideal) x3 x4 (ix3 b j (1 : Fin 2)) = val_main_v48 (F := Ideal) x3 x4 (ix2 b j) := by
  unfold val_main_v65
  rw [concatenate_pair_apply_right _ _ _ Gen.concatenates_S4096x400x1_S4096x400x1_S4096x400x2_d2 (ix3 b j (1 : Fin 2)) rfl rfl
    (ix3 b j (0 : Fin 1))
    (fun a => by
      match a with
      | ⟨0, _⟩ => intro _; rfl
      | ⟨1, _⟩ => intro _; rfl
      | ⟨2, _⟩ => intro h2; exact absurd rfl h2)
    rfl]
  have hk : idx_main_v64 (ix3 b j (0 : Fin 1)) = ix2 b j :=
    funext fun a => Fin.ext (by match a with | ⟨0, _⟩ => rfl | ⟨1, _⟩ => rfl)
  rw [val_main_v64_apply, hk, val_main_v61_apply, val_main_v58_apply, val_main_v60_apply, val_main_v57_apply,
    val_main_c_12_apply]
  exact select_neg_shift _ _ h

/-! ## The scattered array is the presence mask -/

/-- Some update lands at `(b, p)` exactly when one of sample `b`'s ids is `p`. -/
theorem lands_iff (x3 : (⟨S4096x50, .i32⟩ : BufTy).Contents (Elt Ideal)) (x4 : (⟨S200000x4, .i32⟩ : BufTy).Contents (Elt Ideal))
    (hin : Spec.InRange (val_main_v48 (F := Ideal) x3 x4)) (b : Fin 4096) (p : Fin 1024) :
    (∃ n : S4096x400.Idx, scatter_S4096x1024_S4096x400x2_S4096x400_n_01_01_2.resultIdx? n (val_main_v65 (F := Ideal) x3 x4)
        = some (ix2 b p))
      ↔ ∃ j : Fin 400, val_main_v48 (F := Ideal) x3 x4 (ix2 b j) = BitVec.ofNat 32 p.val := by
  have hb := b.isLt
  have hp := p.isLt
  constructor
  · rintro ⟨n, hn⟩
    obtain ⟨b', j, rfl⟩ : ∃ (b' : Fin 4096) (j : Fin 400), n = ix2 b' j := ⟨n 0, n 1, eq_ix2 n⟩
    have hb' := b'.isLt
    rw [resultIdx?_eq_some_iff] at hn
    have h0 : _ = (b.val : ℤ) := hn 0
    have h1 : _ = (p.val : ℤ) := hn 1
    rw [scat_start_0, scat_window_0, pairs_row, toInt_ofNat_small _ (by omega)] at h0
    rw [scat_start_1, scat_window_1, pairs_id _ _ _ _ (hin _).1] at h1
    have hbb : b' = b := Fin.ext (by omega)
    subst hbb
    exact ⟨j, eq_ofNat_of_toInt _ _ (by omega)⟩
  · rintro ⟨j, hj⟩
    refine ⟨ix2 b j, (resultIdx?_eq_some_iff _ _ _ _).2 fun a => ?_⟩
    match a with
    | ⟨0, _⟩ =>
      show scatter_S4096x1024_S4096x400x2_S4096x400_n_01_01_2.start (ix2 b j) _ 0
        + (scatter_S4096x1024_S4096x400x2_S4096x400_n_01_01_2.window (ix2 b j) 0 : ℤ) = (b.val : ℤ)
      rw [scat_start_0, scat_window_0, pairs_row, toInt_ofNat_small _ (by omega)]
      omega
    | ⟨1, _⟩ =>
      show scatter_S4096x1024_S4096x400x2_S4096x400_n_01_01_2.start (ix2 b j) _ 1
        + (scatter_S4096x1024_S4096x400x2_S4096x400_n_01_01_2.window (ix2 b j) 1 : ℤ) = (p.val : ℤ)
      rw [scat_start_1, scat_window_1, pairs_id _ _ _ _ (hin _).1, hj, toInt_ofNat_small _ (by omega)]
      omega

/-- The scattered array at `(b, p)`: `1` where `p` occurs among sample `b`'s ids, else `0`. -/
theorem scattered_apply (x3 : (⟨S4096x50, .i32⟩ : BufTy).Contents (Elt Ideal)) (x4 : (⟨S200000x4, .i32⟩ : BufTy).Contents (Elt Ideal))
    (hin : Spec.InRange (val_main_v48 (F := Ideal) x3 x4)) (b : Fin 4096) (p : Fin 1024) :
    val_main_v67 (F := Ideal) x3 x4 (ix2 b p) = Spec.mask (fun j => val_main_v48 (F := Ideal) x3 x4 (ix2 b j)) p := by
  have hz : val_main_v51 (F := Ideal) = fun _ => (0 : EReal) :=
    funext fun i => by rw [val_main_v51_apply, val_main_cst_apply, Ideal.ofBits_def, Ideal.ofBits_zero_f32]
  have ho : val_main_v66 (F := Ideal) = fun _ => (1 : EReal) :=
    funext fun i => by rw [val_main_v66_apply, val_main_cst_14_apply, Ideal.ofBits_def, ofBits_one_f32]
  unfold val_main_v67
  rw [hz, ho, Cert.Lib.scatter_const_apply]
  unfold Spec.mask
  by_cases h : ∃ j : Fin 400, val_main_v48 (F := Ideal) x3 x4 (ix2 b j) = BitVec.ofNat 32 p.val
  · rw [if_pos ((lands_iff x3 x4 hin b p).2 h), if_pos h]
  · rw [if_neg (mt (lands_iff x3 x4 hin b p).1 h), if_neg h]

end Cert.Bridge.RefSeg

namespace Cert.Bridge

open RefSeg

/-! ## The two facts the frame uses -/

/-- Every merged id is one of the table's entries: the two gathers, the joining and the reshape only move entries. -/
theorem merged_mem (x3 : (⟨S4096x50, .i32⟩ : BufTy).Contents (Elt Ideal)) (x4 : (⟨S200000x4, .i32⟩ : BufTy).Contents (Elt Ideal)) (i : S4096x400.Idx) :
    ∃ i', val_main_v48 (F := Ideal) x3 x4 i = x4 i' := by
  rw [val_main_v48_apply]
  generalize idx_main_v48 i = j
  have h0 : (j 0).val < 4096 := (j 0).isLt
  have h1 : (j 1).val < 100 := (j 1).isLt
  have h2 : (j 2).val < 4 := (j 2).isLt
  unfold val_main_v47
  by_cases hj : (j 1).val < 50
  · exact ⟨_, concatenate_pair_apply_left _ (val_main_v37 (F := Ideal) x3 x4) (val_main_v46 (F := Ideal) x3 x4)
      Gen.concatenates_S4096x50x4_S4096x50x4_S4096x100x4_d1 j rfl
      (ix3 (⟨(j 0).val, h0⟩ : Fin 4096) (⟨(j 1).val, hj⟩ : Fin 50) (⟨(j 2).val, h2⟩ : Fin 4))
      (fun a => by match a with | ⟨0, _⟩ => rfl | ⟨1, _⟩ => rfl | ⟨2, _⟩ => rfl)⟩
  · exact ⟨_, concatenate_pair_apply_right _ (val_main_v37 (F := Ideal) x3 x4) (val_main_v46 (F := Ideal) x3 x4)
      Gen.concatenates_S4096x50x4_S4096x50x4_S4096x100x4_d1 j rfl rfl
      (ix3 (⟨(j 0).val, h0⟩ : Fin 4096) (⟨(j 1).val - 50, by omega⟩ : Fin 50) (⟨(j 2).val, h2⟩ : Fin 4))
      (fun a => by
        match a with
        | ⟨0, _⟩ => intro _; rfl
        | ⟨1, _⟩ => intro h; exact absurd rfl h
        | ⟨2, _⟩ => intro _; rfl)
      (by show (j 1).val - 50 + 50 = (j 1).val; omega)⟩

/-- Entry `(b, d)` of the reference's segment mean, where the merged ids are prototype numbers. -/
theorem ref_segmean (x3 : (⟨S4096x50, .i32⟩ : BufTy).Contents (Elt Ideal)) (x4 : (⟨S200000x4, .i32⟩ : BufTy).Contents (Elt Ideal)) (x5 : (⟨S1024x128, .f32⟩ : BufTy).Contents (Elt Ideal))
    (hin : Spec.InRange (val_main_v48 (F := Ideal) x3 x4)) (b : Fin 4096) (d : Fin 128) :
    val_main_v72 (F := Ideal) x3 x4 x5 (ix2 b d)
      = Spec.segMean (fun b j => val_main_v48 (F := Ideal) x3 x4 (ix2 b j)) (fun p d => x5 (ix2 p d)) b d := by
  have hm := scattered_apply x3 x4 hin b
  have hl : ∀ k : Fin 1024, lidx_main_v70 (ix2 b d) k = ix2 b k :=
    fun k => funext fun a => Fin.ext (by match a with | ⟨0, _⟩ => rfl | ⟨1, _⟩ => rfl)
  have hr : ∀ k : Fin 1024, ridx_main_v70 (ix2 b d) k = ix2 k d :=
    fun k => funext fun a => Fin.ext (by match a with | ⟨0, _⟩ => rfl | ⟨1, _⟩ => rfl)
  have hs : ∀ k : Fin 1024, idx_main_v68 (idx_main_v69 (idx_main_v71 (ix2 b d))) k = ix2 b k :=
    fun k => funext fun a => Fin.ext (by match a with | ⟨0, _⟩ => rfl | ⟨1, _⟩ => rfl)
  rw [val_main_v72_apply, val_main_v70_apply, val_main_v71_apply, val_main_v69_apply, val_main_v68_apply,
    val_main_cst_15_apply]
  simp only [hl, hr, hs, hm, Ideal.hostDivf_def, Ideal.ofBits_def, Ideal.ofBits_zero_f32, zero_add]
  rfl

end Cert.Bridge

end
-- ==== Proof.RefMlp1.lean ====
/-
  The reference's first layer read at an entry. The reference projects the whole text and visual tables and then
  picks each sample's item row; picking the row first and projecting it gives the same numbers, because a
  projected row depends on its own row alone. The reference multiplies the joined 256-wide feature with the
  whole first-layer weight; the sum over 256 splits into the two sums over 128 of `Spec.z1row`.
-/
import proofs.«413471_j87076166959612_3_alg».proof.Proof.Spec
import proofs.«413471_j87076166959612_3_alg».proof.Proof.RefRead
import Idealize.ShloMosaic.Lib.Pipeline.Value
import Idealize.ShloMosaic.Lib.ValueLayout

noncomputable section

open Idealize.ShloMosaic Idealize.ShloMosaic.TcCoe Idealize.ShloMosaic.ValueIdx
open Cert.ReferenceIdeal Cert.ReferenceIdeal.ReadP

namespace Cert.Bridge

/-! ## The small reads: the weight transposed, the bias broadcast twice, a projected table row -/

/-- The transposed first-layer weight at `(k, n)` is the weight at `(n, k)`. -/
theorem refMlp1_w1 (x15 : (⟨S128x256, .f32⟩ : BufTy).Contents (Elt Ideal)) (k : Fin 256) (n : Fin 128) :
    val_main_v91 (F := Ideal) x15 (ix2 k n) = x15 (ix2 n k) := by
  rw [val_main_v91_apply]
  exact congrArg x15 (funext fun a => Fin.ext (by match a with | ⟨0, _⟩ => rfl | ⟨1, _⟩ => rfl))

/-- The bias broadcast over the samples, at `(b, n)`, is the bias at `n`. -/
theorem refMlp1_bias (x16 : (⟨S128, .f32⟩ : BufTy).Contents (Elt Ideal)) (b : Fin 4096) (n : Fin 128) :
    val_main_v94 (F := Ideal) x16 (ix2 b n) = x16 (ix1 n) := by
  rw [val_main_v94_apply, val_main_v93_apply]
  exact congrArg x16 (funext fun a => Fin.ext (by match a with | ⟨0, _⟩ => rfl))

/-- Row `r` of the projected text table: the row, its bias taken off, against the transposed weight. -/
theorem refMlp1_projT (x6 : (⟨S100000x384, .f32⟩ : BufTy).Contents (Elt Ideal)) (x8 : (⟨S128x384, .f32⟩ : BufTy).Contents (Elt Ideal)) (x9 : (⟨S384, .f32⟩ : BufTy).Contents (Elt Ideal))
    (r : Fin 100000) (k : Fin 128) :
    val_main_v4 (F := Ideal) x6 x8 x9 (ix2 r k)
      = Spec.proj (fun j => x6 (ix2 r j)) (fun j => x9 (ix1 j)) (fun j k => x8 (ix2 k j)) k := by
  rw [val_main_v4_apply]
  unfold Spec.proj
  refine Finset.sum_congr rfl fun j _ => ?_
  have e1 : lidx_main_v4 (ix2 r k) j = ix2 r j :=
    funext fun a => Fin.ext (by match a with | ⟨0, _⟩ => rfl | ⟨1, _⟩ => rfl)
  have e2 : idx_main_v0 (idx_main_v1 (ix2 r j)) = ix1 j :=
    funext fun a => Fin.ext (by match a with | ⟨0, _⟩ => rfl)
  have e3 : idx_main_v3 (ridx_main_v4 (ix2 r k) j) = ix2 k j :=
    funext fun a => Fin.ext (by match a with | ⟨0, _⟩ => rfl | ⟨1, _⟩ => rfl)
  rw [e1, val_main_v2_apply, val_main_v1_apply, val_main_v0_apply, val_main_v3_apply, e2, e3]
  rfl

/-- Row `r` of the projected visual table. -/
theorem refMlp1_projV (x7 : (⟨S100000x768, .f32⟩ : BufTy).Contents (Elt Ideal)) (x10 : (⟨S128x768, .f32⟩ : BufTy).Contents (Elt Ideal)) (x11 : (⟨S768, .f32⟩ : BufTy).Contents (Elt Ideal))
    (r : Fin 100000) (k : Fin 128) :
    val_main_v9 (F := Ideal) x7 x10 x11 (ix2 r k)
      = Spec.proj (fun j => x7 (ix2 r j)) (fun j => x11 (ix1 j)) (fun j k => x10 (ix2 k j)) k := by
  rw [val_main_v9_apply]
  unfold Spec.proj
  refine Finset.sum_congr rfl fun j _ => ?_
  have e1 : lidx_main_v9 (ix2 r k) j = ix2 r j :=
    funext fun a => Fin.ext (by match a with | ⟨0, _⟩ => rfl | ⟨1, _⟩ => rfl)
  have e2 : idx_main_v5 (idx_main_v6 (ix2 r j)) = ix1 j :=
    funext fun a => Fin.ext (by match a with | ⟨0, _⟩ => rfl)
  have e3 : idx_main_v8 (ridx_main_v9 (ix2 r k) j) = ix2 k j :=
    funext fun a => Fin.ext (by match a with | ⟨0, _⟩ => rfl | ⟨1, _⟩ => rfl)
  rw [e1, val_main_v7_apply, val_main_v6_apply, val_main_v5_apply, val_main_v8_apply, e2, e3]
  rfl

/-! ## The joined feature: its first 128 columns are the history feature, its last 128 the item feature -/

/-- Column `k < 128` of the joined feature is column `k` of the history feature. -/
theorem refMlp1_catL (x1 x2 : (⟨S4096, .i32⟩ : BufTy).Contents (Elt Ideal)) (x3 : (⟨S4096x50, .i32⟩ : BufTy).Contents (Elt Ideal)) (x4 : (⟨S200000x4, .i32⟩ : BufTy).Contents (Elt Ideal)) (x5 : (⟨S1024x128, .f32⟩ : BufTy).Contents (Elt Ideal)) (x6 : (⟨S100000x384, .f32⟩ : BufTy).Contents (Elt Ideal)) (x7 : (⟨S100000x768, .f32⟩ : BufTy).Contents (Elt Ideal)) (x8 : (⟨S128x384, .f32⟩ : BufTy).Contents (Elt Ideal)) (x9 : (⟨S384, .f32⟩ : BufTy).Contents (Elt Ideal)) (x10 : (⟨S128x768, .f32⟩ : BufTy).Contents (Elt Ideal)) (x11 : (⟨S768, .f32⟩ : BufTy).Contents (Elt Ideal)) (x13 : (⟨S100000x128, .f32⟩ : BufTy).Contents (Elt Ideal)) (x14 : (⟨S4x128, .f32⟩ : BufTy).Contents (Elt Ideal))
    (b : Fin 4096) (k : Fin 128) :
    val_main_v90 (F := Ideal) x1 x2 x3 x4 x5 x6 x7 x8 x9 x10 x11 x13 x14 (ix2 b (⟨k.val, by omega⟩ : Fin 256))
      = val_main_v87 (F := Ideal) x2 x3 x4 x5 x14 (ix2 b k) := by
  unfold val_main_v90
  exact concatenate_pair_apply_left (t := S4096x256) (s₁ := S4096x128) (s₂ := S4096x128) 1 _ _ _
    (ix2 b (⟨k.val, by omega⟩ : Fin 256)) rfl (ix2 b k)
    (fun a => by match a with | ⟨0, _⟩ => rfl | ⟨1, _⟩ => rfl)

/-- Column `128 + k` of the joined feature is column `k` of the item feature. -/
theorem refMlp1_catR (x1 x2 : (⟨S4096, .i32⟩ : BufTy).Contents (Elt Ideal)) (x3 : (⟨S4096x50, .i32⟩ : BufTy).Contents (Elt Ideal)) (x4 : (⟨S200000x4, .i32⟩ : BufTy).Contents (Elt Ideal)) (x5 : (⟨S1024x128, .f32⟩ : BufTy).Contents (Elt Ideal)) (x6 : (⟨S100000x384, .f32⟩ : BufTy).Contents (Elt Ideal)) (x7 : (⟨S100000x768, .f32⟩ : BufTy).Contents (Elt Ideal)) (x8 : (⟨S128x384, .f32⟩ : BufTy).Contents (Elt Ideal)) (x9 : (⟨S384, .f32⟩ : BufTy).Contents (Elt Ideal)) (x10 : (⟨S128x768, .f32⟩ : BufTy).Contents (Elt Ideal)) (x11 : (⟨S768, .f32⟩ : BufTy).Contents (Elt Ideal)) (x13 : (⟨S100000x128, .f32⟩ : BufTy).Contents (Elt Ideal)) (x14 : (⟨S4x128, .f32⟩ : BufTy).Contents (Elt Ideal))
    (b : Fin 4096) (k : Fin 128) :
    val_main_v90 (F := Ideal) x1 x2 x3 x4 x5 x6 x7 x8 x9 x10 x11 x13 x14 (ix2 b (⟨128 + k.val, by omega⟩ : Fin 256))
      = val_main_v89 (F := Ideal) x1 x6 x7 x8 x9 x10 x11 x13 (ix2 b k) := by
  unfold val_main_v90
  exact concatenate_pair_apply_right (t := S4096x256) (s₁ := S4096x128) (s₂ := S4096x128) 1 _ _ _
    (ix2 b (⟨128 + k.val, by omega⟩ : Fin 256)) rfl rfl (ix2 b k)
    (fun a => by match a with | ⟨0, _⟩ => exact fun _ => rfl | ⟨1, _⟩ => exact fun h => (h rfl).elim)
    (by show k.val + 128 = 128 + k.val; omega)

/-- The left operand of the first layer's product is read at `(b, k)`. -/
theorem refMlp1_lidx92 (b : Fin 4096) (n : Fin 128) (k : Fin 256) : lidx_main_v92 (ix2 b n) k = ix2 b k :=
  funext fun a => Fin.ext (by match a with | ⟨0, _⟩ => rfl | ⟨1, _⟩ => rfl)

/-- The right operand of the first layer's product is read at `(k, n)`. -/
theorem refMlp1_ridx92 (b : Fin 4096) (n : Fin 128) (k : Fin 256) : ridx_main_v92 (ix2 b n) k = ix2 k n :=
  funext fun a => Fin.ext (by match a with | ⟨0, _⟩ => rfl | ⟨1, _⟩ => rfl)

/-- A sum over 256 is the sum over the first 128 plus the sum over the last 128. -/
theorem refMlp1_split (f : Fin 256 → EReal) :
    ∑ k, f k = ∑ k : Fin 128, f ⟨k.val, by omega⟩ + ∑ k : Fin 128, f ⟨128 + k.val, by omega⟩ :=
  Fin.sum_univ_add (a := 128) (b := 128) f

/-- Entry `(b, n)` of the reference's first layer. `q b` is the item row sample `b` picks: the two hypotheses say
    that the picked projected rows are rows `q b` of the projected tables. -/
theorem ref_z1 (x1 x2 : (⟨S4096, .i32⟩ : BufTy).Contents (Elt Ideal)) (x3 : (⟨S4096x50, .i32⟩ : BufTy).Contents (Elt Ideal)) (x4 : (⟨S200000x4, .i32⟩ : BufTy).Contents (Elt Ideal)) (x5 : (⟨S1024x128, .f32⟩ : BufTy).Contents (Elt Ideal)) (x6 : (⟨S100000x384, .f32⟩ : BufTy).Contents (Elt Ideal)) (x7 : (⟨S100000x768, .f32⟩ : BufTy).Contents (Elt Ideal)) (x8 : (⟨S128x384, .f32⟩ : BufTy).Contents (Elt Ideal)) (x9 : (⟨S384, .f32⟩ : BufTy).Contents (Elt Ideal)) (x10 : (⟨S128x768, .f32⟩ : BufTy).Contents (Elt Ideal)) (x11 : (⟨S768, .f32⟩ : BufTy).Contents (Elt Ideal)) (x13 : (⟨S100000x128, .f32⟩ : BufTy).Contents (Elt Ideal)) (x14 : (⟨S4x128, .f32⟩ : BufTy).Contents (Elt Ideal)) (x15 : (⟨S128x256, .f32⟩ : BufTy).Contents (Elt Ideal)) (x16 : (⟨S128, .f32⟩ : BufTy).Contents (Elt Ideal))
    (q : Fin 4096 → Fin 100000)
    (h79 : ∀ (b : Fin 4096) (k : Fin 128), val_main_v79 (F := Ideal) x1 x6 x8 x9 (ix2 b k) = val_main_v4 (F := Ideal) x6 x8 x9 (ix2 (q b) k))
    (h86 : ∀ (b : Fin 4096) (k : Fin 128), val_main_v86 (F := Ideal) x1 x7 x10 x11 (ix2 b k) = val_main_v9 (F := Ideal) x7 x10 x11 (ix2 (q b) k))
    (b : Fin 4096) (n : Fin 128) :
    val_main_v96 (F := Ideal) x1 x2 x3 x4 x5 x6 x7 x8 x9 x10 x11 x13 x14 x15 x16 (ix2 b n)
      = Spec.z1row (fun k => val_main_v72 (F := Ideal) x3 x4 x5 (ix2 b k)) (fun k => val_main_v30 (F := Ideal) x2 x14 (ix2 b k))
          (fun k => val_main_v23 (F := Ideal) x1 x13 (ix2 b k))
          (fun j => x6 (ix2 (q b) j)) (fun j => x9 (ix1 j)) (fun j => x7 (ix2 (q b) j)) (fun j => x11 (ix1 j))
          (fun j k => x8 (ix2 k j)) (fun j k => x10 (ix2 k j))
          (fun k n => x15 (ix2 n (⟨k.val, by omega⟩ : Fin 256))) (fun k n => x15 (ix2 n (⟨128 + k.val, by omega⟩ : Fin 256)))
          (fun n => x16 (ix1 n)) n := by
  rw [val_main_v96_apply, val_main_v95_apply, val_main_v92_apply, refMlp1_bias, val_main_call0_v0_apply,
    val_main_call0_cst_apply, refMlp1_split]
  unfold Spec.z1row
  simp only [Ideal.maximumf_def, Ideal.addf_def, Ideal.ofBits_def, Ideal.ofBits_zero_f32]
  refine congrArg₂ max (congrArg₂ (· + ·) (congrArg₂ (· + ·) (Finset.sum_congr rfl fun k _ => ?_)
    (Finset.sum_congr rfl fun k _ => ?_)) rfl) rfl
  · rw [refMlp1_lidx92, refMlp1_ridx92, refMlp1_catL, refMlp1_w1, val_main_v87_apply]
    rfl
  · rw [refMlp1_lidx92, refMlp1_ridx92, refMlp1_catR, refMlp1_w1, val_main_v89_apply, val_main_v88_apply, h79, h86,
      refMlp1_projT, refMlp1_projV]
    rfl

end Cert.Bridge

end
-- ==== Proof.RefHead.lean ====
/-
  The reference's head read at an entry: the two column normalisations over the 4096 samples with the second
  layer between them, the last layer, and `1 / (1 + exp (−·))`, which is the logistic of `Spec.pred`.
-/
import proofs.«413471_j87076166959612_3_alg».proof.Proof.Spec
import proofs.«413471_j87076166959612_3_alg».proof.Proof.RefRead
import Idealize.ShloMosaic.Lib.Pipeline.Value
import Idealize.ShloMosaic.Lib.ValueLayout
import Idealize.ShloMosaic.Lib.IdealHost

noncomputable section

open Idealize.ShloMosaic Idealize.ShloMosaic.TcCoe Idealize.ShloMosaic.ValueIdx
open Cert.ReferenceIdeal Cert.ReferenceIdeal.ReadP

namespace Cert.Bridge

namespace RefHead

/-! ## The composed index functions of the generated reading, as coordinate constructors -/

theorem idx97 (k : Fin 128) (r : Fin 4096) : idx_main_v97 (ix1 k) r = ix2 r k := funext fun a => Fin.ext (by match a with | ⟨0, _⟩ => rfl | ⟨1, _⟩ => rfl)
theorem idx104 (k : Fin 128) (r : Fin 4096) : idx_main_v104 (ix1 k) r = ix2 r k := funext fun a => Fin.ext (by match a with | ⟨0, _⟩ => rfl | ⟨1, _⟩ => rfl)
theorem idx101 (r : Fin 4096) (k : Fin 128) : idx_main_v100 (idx_main_v101 (ix2 r k)) = ix1 k := funext fun a => Fin.ext (by match a with | ⟨0, _⟩ => rfl)
theorem idx108 (r : Fin 4096) (k : Fin 128) : idx_main_v107 (idx_main_v108 (ix2 r k)) = ix1 k := funext fun a => Fin.ext (by match a with | ⟨0, _⟩ => rfl)
theorem idx111 (r : Fin 4096) (k : Fin 128) : idx_main_v110 (idx_main_v111 (ix2 r k)) = ix1 k := funext fun a => Fin.ext (by match a with | ⟨0, _⟩ => rfl)
theorem idx117 (r : Fin 4096) (k : Fin 128) : idx_main_v116 (idx_main_v117 (ix2 r k)) = ix1 k := funext fun a => Fin.ext (by match a with | ⟨0, _⟩ => rfl)
theorem idx120 (r : Fin 4096) (k : Fin 128) : idx_main_v119 (idx_main_v120 (ix2 r k)) = ix1 k := funext fun a => Fin.ext (by match a with | ⟨0, _⟩ => rfl)
theorem lidx123 (r : Fin 4096) (n : Fin 64) (k : Fin 128) : lidx_main_v123 (ix2 r n) k = ix2 r k := funext fun a => Fin.ext (by match a with | ⟨0, _⟩ => rfl | ⟨1, _⟩ => rfl)
theorem ridx123 (r : Fin 4096) (n : Fin 64) (k : Fin 128) : idx_main_v122 (ridx_main_v123 (ix2 r n) k) = ix2 n k := funext fun a => Fin.ext (by match a with | ⟨0, _⟩ => rfl | ⟨1, _⟩ => rfl)
theorem idx125 (r : Fin 4096) (n : Fin 64) : idx_main_v124 (idx_main_v125 (ix2 r n)) = ix1 n := funext fun a => Fin.ext (by match a with | ⟨0, _⟩ => rfl)
theorem idx128 (n : Fin 64) (r : Fin 4096) : idx_main_v128 (ix1 n) r = ix2 r n := funext fun a => Fin.ext (by match a with | ⟨0, _⟩ => rfl | ⟨1, _⟩ => rfl)
theorem idx135 (n : Fin 64) (r : Fin 4096) : idx_main_v135 (ix1 n) r = ix2 r n := funext fun a => Fin.ext (by match a with | ⟨0, _⟩ => rfl | ⟨1, _⟩ => rfl)
theorem idx132 (r : Fin 4096) (n : Fin 64) : idx_main_v131 (idx_main_v132 (ix2 r n)) = ix1 n := funext fun a => Fin.ext (by match a with | ⟨0, _⟩ => rfl)
theorem idx139 (r : Fin 4096) (n : Fin 64) : idx_main_v138 (idx_main_v139 (ix2 r n)) = ix1 n := funext fun a => Fin.ext (by match a with | ⟨0, _⟩ => rfl)
theorem idx142 (r : Fin 4096) (n : Fin 64) : idx_main_v141 (idx_main_v142 (ix2 r n)) = ix1 n := funext fun a => Fin.ext (by match a with | ⟨0, _⟩ => rfl)
theorem idx148 (r : Fin 4096) (n : Fin 64) : idx_main_v147 (idx_main_v148 (ix2 r n)) = ix1 n := funext fun a => Fin.ext (by match a with | ⟨0, _⟩ => rfl)
theorem idx151 (r : Fin 4096) (n : Fin 64) : idx_main_v150 (idx_main_v151 (ix2 r n)) = ix1 n := funext fun a => Fin.ext (by match a with | ⟨0, _⟩ => rfl)
theorem lidx154 (r : Fin 4096) (k : Fin 64) : lidx_main_v154 (ix2 r (0 : Fin 1)) k = ix2 r k := funext fun a => Fin.ext (by match a with | ⟨0, _⟩ => rfl | ⟨1, _⟩ => rfl)
theorem ridx154 (r : Fin 4096) (k : Fin 64) : idx_main_v153 (ridx_main_v154 (ix2 r (0 : Fin 1)) k) = ix2 (0 : Fin 1) k := funext fun a => Fin.ext (by match a with | ⟨0, _⟩ => rfl | ⟨1, _⟩ => rfl)
theorem idx156 (r : Fin 4096) : idx_main_v155 (idx_main_v156 (ix2 r (0 : Fin 1))) = ix1 (0 : Fin 1) := funext fun a => Fin.ext (by match a with | ⟨0, _⟩ => rfl)
theorem idx164 (r : Fin 4096) : idx_main_v164 (ix1 r) = ix2 r (0 : Fin 1) :=
  funext fun a => Fin.ext (by match a with | ⟨0, _⟩ => exact Nat.div_one _ | ⟨1, _⟩ => rfl)

section Stages

variable (x1 x2 : (⟨S4096, .i32⟩ : BufTy).Contents (Elt Ideal)) (x3 : (⟨S4096x50, .i32⟩ : BufTy).Contents (Elt Ideal)) (x4 : (⟨S200000x4, .i32⟩ : BufTy).Contents (Elt Ideal)) (x5 : (⟨S1024x128, .f32⟩ : BufTy).Contents (Elt Ideal)) (x6 : (⟨S100000x384, .f32⟩ : BufTy).Contents (Elt Ideal)) (x7 : (⟨S100000x768, .f32⟩ : BufTy).Contents (Elt Ideal)) (x8 : (⟨S128x384, .f32⟩ : BufTy).Contents (Elt Ideal)) (x9 : (⟨S384, .f32⟩ : BufTy).Contents (Elt Ideal)) (x10 : (⟨S128x768, .f32⟩ : BufTy).Contents (Elt Ideal)) (x11 : (⟨S768, .f32⟩ : BufTy).Contents (Elt Ideal)) (x13 : (⟨S100000x128, .f32⟩ : BufTy).Contents (Elt Ideal)) (x14 : (⟨S4x128, .f32⟩ : BufTy).Contents (Elt Ideal)) (x15 : (⟨S128x256, .f32⟩ : BufTy).Contents (Elt Ideal)) (x16 : (⟨S128, .f32⟩ : BufTy).Contents (Elt Ideal)) (x17 x18 : (⟨S128, .f32⟩ : BufTy).Contents (Elt Ideal)) (x19 : (⟨S64x128, .f32⟩ : BufTy).Contents (Elt Ideal)) (x20 x21 x22 : (⟨S64, .f32⟩ : BufTy).Contents (Elt Ideal)) (x23 : (⟨S1x64, .f32⟩ : BufTy).Contents (Elt Ideal)) (x24 : (⟨S1, .f32⟩ : BufTy).Contents (Elt Ideal))

/-! ## The first normalisation: column mean, column variance, the normalised entry -/

/-- The column sum from zero, over the word `4096.0`. -/
theorem mean1 (k : Fin 128) :
    val_main_v99 (F := Ideal) x1 x2 x3 x4 x5 x6 x7 x8 x9 x10 x11 x13 x14 x15 x16 (ix1 k) = Spec.colMean (fun (r : Fin 4096) (k : Fin 128) => val_main_v96 (F := Ideal) x1 x2 x3 x4 x5 x6 x7 x8 x9 x10 x11 x13 x14 x15 x16 (ix2 r k)) k := by
  rw [Spec.colMean, Spec.w4096]
  simp only [val_main_v99_apply, val_main_v98_apply, val_main_v97_apply, val_main_cst_21_apply, val_main_cst_20_apply, idx97,
    Ideal.hostDivf_def, Ideal.ofBits_def, Ideal.ofBits_zero_f32, zero_add]

/-- The column sum of the squared centred entries, over the same word. -/
theorem var1 (k : Fin 128) :
    val_main_v106 (F := Ideal) x1 x2 x3 x4 x5 x6 x7 x8 x9 x10 x11 x13 x14 x15 x16 (ix1 k) = Spec.colVar (fun (r : Fin 4096) (k : Fin 128) => val_main_v96 (F := Ideal) x1 x2 x3 x4 x5 x6 x7 x8 x9 x10 x11 x13 x14 x15 x16 (ix2 r k)) k := by
  rw [Spec.colVar, Spec.colMean, Spec.w4096]
  simp only [val_main_v106_apply, val_main_v105_apply, val_main_v104_apply, val_main_cst_23_apply, val_main_cst_22_apply,
    val_main_v103_apply, val_main_v102_apply, val_main_v101_apply, val_main_v100_apply, idx104, idx101, mean1,
    Ideal.hostDivf_def, Ideal.mulf_def, Ideal.subf_def, Ideal.ofBits_def, Ideal.ofBits_zero_f32, zero_add]

/-- Scale times centred entry times the reciprocal root of the shifted variance, plus the shift. -/
theorem bn1 (r : Fin 4096) (k : Fin 128) :
    val_main_v121 (F := Ideal) x1 x2 x3 x4 x5 x6 x7 x8 x9 x10 x11 x13 x14 x15 x16 x17 x18 (ix2 r k) = Spec.bnorm (fun (r : Fin 4096) (k : Fin 128) => val_main_v96 (F := Ideal) x1 x2 x3 x4 x5 x6 x7 x8 x9 x10 x11 x13 x14 x15 x16 (ix2 r k)) (fun k => x17 (ix1 k)) (fun k => x18 (ix1 k)) r k := by
  rw [Spec.bnorm, Spec.wEps]
  simp only [val_main_v121_apply, val_main_v120_apply, val_main_v119_apply, val_main_v118_apply, val_main_v117_apply,
    val_main_v116_apply, val_main_v115_apply, val_main_v114_apply, val_main_v113_apply, val_main_cst_24_apply,
    val_main_v112_apply, val_main_v111_apply, val_main_v110_apply, val_main_v109_apply, val_main_v108_apply,
    val_main_v107_apply, idx120, idx117, idx111, idx108, var1, mean1,
    Ideal.addf_def, Ideal.mulf_def, Ideal.subf_def, Ideal.hostUnary_rsqrt_def, Ideal.ofBits_def]

/-! ## The second layer on the normalised first -/

/-- The contraction with the second weight, the bias, then `max · 0`. -/
theorem z2ref (r : Fin 4096) (n : Fin 64) :
    val_main_v127 (F := Ideal) x1 x2 x3 x4 x5 x6 x7 x8 x9 x10 x11 x13 x14 x15 x16 x17 x18 x19 x20 (ix2 r n) = Spec.z2 (fun (r : Fin 4096) (k : Fin 128) => val_main_v96 (F := Ideal) x1 x2 x3 x4 x5 x6 x7 x8 x9 x10 x11 x13 x14 x15 x16 (ix2 r k)) (fun k => x17 (ix1 k)) (fun k => x18 (ix1 k)) (fun k n => x19 (ix2 n k)) (fun n => x20 (ix1 n)) r n := by
  rw [Spec.z2]
  simp only [val_main_v127_apply, val_main_call1_v0_apply, val_main_call1_cst_apply, val_main_v126_apply, val_main_v125_apply,
    val_main_v124_apply, val_main_v123_apply, val_main_v122_apply, lidx123, ridx123, idx125, bn1,
    Ideal.addf_def, Ideal.maximumf_def, Ideal.ofBits_def, Ideal.ofBits_zero_f32]

/-- The second layer's table is `Spec.z2` of the first layer's. -/
theorem z2fun :
    (fun (r : Fin 4096) (n : Fin 64) => val_main_v127 (F := Ideal) x1 x2 x3 x4 x5 x6 x7 x8 x9 x10 x11 x13 x14 x15 x16 x17 x18 x19 x20 (ix2 r n)) = Spec.z2 (fun (r : Fin 4096) (k : Fin 128) => val_main_v96 (F := Ideal) x1 x2 x3 x4 x5 x6 x7 x8 x9 x10 x11 x13 x14 x15 x16 (ix2 r k)) (fun k => x17 (ix1 k)) (fun k => x18 (ix1 k)) (fun k n => x19 (ix2 n k)) (fun n => x20 (ix1 n)) :=
  funext fun r => funext fun n => z2ref x1 x2 x3 x4 x5 x6 x7 x8 x9 x10 x11 x13 x14 x15 x16 x17 x18 x19 x20 r n

/-! ## The second normalisation -/

/-- The column mean of the second layer's table. -/
theorem mean2 (n : Fin 64) :
    val_main_v130 (F := Ideal) x1 x2 x3 x4 x5 x6 x7 x8 x9 x10 x11 x13 x14 x15 x16 x17 x18 x19 x20 (ix1 n) = Spec.colMean (fun (r : Fin 4096) (n : Fin 64) => val_main_v127 (F := Ideal) x1 x2 x3 x4 x5 x6 x7 x8 x9 x10 x11 x13 x14 x15 x16 x17 x18 x19 x20 (ix2 r n)) n := by
  rw [Spec.colMean, Spec.w4096]
  simp only [val_main_v130_apply, val_main_v129_apply, val_main_v128_apply, val_main_cst_26_apply, val_main_cst_25_apply, idx128,
    Ideal.hostDivf_def, Ideal.ofBits_def, Ideal.ofBits_zero_f32, zero_add]

/-- The column variance of the second layer's table. -/
theorem var2 (n : Fin 64) :
    val_main_v137 (F := Ideal) x1 x2 x3 x4 x5 x6 x7 x8 x9 x10 x11 x13 x14 x15 x16 x17 x18 x19 x20 (ix1 n) = Spec.colVar (fun (r : Fin 4096) (n : Fin 64) => val_main_v127 (F := Ideal) x1 x2 x3 x4 x5 x6 x7 x8 x9 x10 x11 x13 x14 x15 x16 x17 x18 x19 x20 (ix2 r n)) n := by
  rw [Spec.colVar, Spec.colMean, Spec.w4096]
  simp only [val_main_v137_apply, val_main_v136_apply, val_main_v135_apply, val_main_cst_28_apply, val_main_cst_27_apply,
    val_main_v134_apply, val_main_v133_apply, val_main_v132_apply, val_main_v131_apply, idx135, idx132, mean2,
    Ideal.hostDivf_def, Ideal.mulf_def, Ideal.subf_def, Ideal.ofBits_def, Ideal.ofBits_zero_f32, zero_add]

/-- The normalised entry of the second layer's table. -/
theorem bn2 (r : Fin 4096) (n : Fin 64) :
    val_main_v152 (F := Ideal) x1 x2 x3 x4 x5 x6 x7 x8 x9 x10 x11 x13 x14 x15 x16 x17 x18 x19 x20 x21 x22 (ix2 r n)
      = Spec.bnorm (Spec.z2 (fun (r : Fin 4096) (k : Fin 128) => val_main_v96 (F := Ideal) x1 x2 x3 x4 x5 x6 x7 x8 x9 x10 x11 x13 x14 x15 x16 (ix2 r k)) (fun k => x17 (ix1 k)) (fun k => x18 (ix1 k)) (fun k n => x19 (ix2 n k)) (fun n => x20 (ix1 n))) (fun n => x21 (ix1 n)) (fun n => x22 (ix1 n)) r n := by
  rw [← z2fun, Spec.bnorm, Spec.wEps]
  simp only [val_main_v152_apply, val_main_v151_apply, val_main_v150_apply, val_main_v149_apply, val_main_v148_apply,
    val_main_v147_apply, val_main_v146_apply, val_main_v145_apply, val_main_v144_apply, val_main_cst_29_apply,
    val_main_v143_apply, val_main_v142_apply, val_main_v141_apply, val_main_v140_apply, val_main_v139_apply,
    val_main_v138_apply, idx151, idx148, idx142, idx139, var2, mean2,
    Ideal.addf_def, Ideal.mulf_def, Ideal.subf_def, Ideal.hostUnary_rsqrt_def, Ideal.ofBits_def]

/-! ## The last layer -/

/-- The contraction with the last weight row, plus the last bias. -/
theorem logit (r : Fin 4096) :
    val_main_v157 (F := Ideal) x1 x2 x3 x4 x5 x6 x7 x8 x9 x10 x11 x13 x14 x15 x16 x17 x18 x19 x20 x21 x22 x23 x24 (ix2 r (0 : Fin 1))
      = (∑ k, Spec.bnorm (Spec.z2 (fun (r : Fin 4096) (k : Fin 128) => val_main_v96 (F := Ideal) x1 x2 x3 x4 x5 x6 x7 x8 x9 x10 x11 x13 x14 x15 x16 (ix2 r k)) (fun k => x17 (ix1 k)) (fun k => x18 (ix1 k)) (fun k n => x19 (ix2 n k)) (fun n => x20 (ix1 n))) (fun n => x21 (ix1 n)) (fun n => x22 (ix1 n)) r k * x23 (ix2 0 k)) + x24 (ix1 0) := by
  simp only [val_main_v157_apply, val_main_v156_apply, val_main_v155_apply, val_main_v154_apply, val_main_v153_apply,
    lidx154, ridx154, idx156, bn2, Ideal.addf_def]

end Stages

end RefHead

/-- Entry `r` of the reference's prediction, as `Spec.pred` of its own first layer. -/
theorem ref_pred (x1 x2 : (⟨S4096, .i32⟩ : BufTy).Contents (Elt Ideal)) (x3 : (⟨S4096x50, .i32⟩ : BufTy).Contents (Elt Ideal)) (x4 : (⟨S200000x4, .i32⟩ : BufTy).Contents (Elt Ideal)) (x5 : (⟨S1024x128, .f32⟩ : BufTy).Contents (Elt Ideal)) (x6 : (⟨S100000x384, .f32⟩ : BufTy).Contents (Elt Ideal)) (x7 : (⟨S100000x768, .f32⟩ : BufTy).Contents (Elt Ideal)) (x8 : (⟨S128x384, .f32⟩ : BufTy).Contents (Elt Ideal)) (x9 : (⟨S384, .f32⟩ : BufTy).Contents (Elt Ideal)) (x10 : (⟨S128x768, .f32⟩ : BufTy).Contents (Elt Ideal)) (x11 : (⟨S768, .f32⟩ : BufTy).Contents (Elt Ideal)) (x13 : (⟨S100000x128, .f32⟩ : BufTy).Contents (Elt Ideal)) (x14 : (⟨S4x128, .f32⟩ : BufTy).Contents (Elt Ideal)) (x15 : (⟨S128x256, .f32⟩ : BufTy).Contents (Elt Ideal)) (x16 : (⟨S128, .f32⟩ : BufTy).Contents (Elt Ideal)) (x17 x18 : (⟨S128, .f32⟩ : BufTy).Contents (Elt Ideal)) (x19 : (⟨S64x128, .f32⟩ : BufTy).Contents (Elt Ideal)) (x20 x21 x22 : (⟨S64, .f32⟩ : BufTy).Contents (Elt Ideal)) (x23 : (⟨S1x64, .f32⟩ : BufTy).Contents (Elt Ideal)) (x24 : (⟨S1, .f32⟩ : BufTy).Contents (Elt Ideal)) (r : Fin 4096) :
    val_main_v164 (F := Ideal) x1 x2 x3 x4 x5 x6 x7 x8 x9 x10 x11 x13 x14 x15 x16 x17 x18 x19 x20 x21 x22 x23 x24 (ix1 r)
      = Spec.pred (fun r k => val_main_v96 (F := Ideal) x1 x2 x3 x4 x5 x6 x7 x8 x9 x10 x11 x13 x14 x15 x16 (ix2 r k))
          (fun k => x17 (ix1 k)) (fun k => x18 (ix1 k)) (fun k n => x19 (ix2 n k)) (fun n => x20 (ix1 n))
          (fun n => x21 (ix1 n)) (fun n => x22 (ix1 n)) (fun k => x23 (ix2 0 k)) (x24 (ix1 0)) r := by
  rw [Spec.pred, Ideal.logistic]
  simp only [val_main_v164_apply, RefHead.idx164, val_main_v163_apply, val_main_v162_apply, val_main_cst_31_apply,
    val_main_v161_apply, val_main_v160_apply, val_main_cst_30_apply, val_main_v159_apply, val_main_v158_apply,
    RefHead.logit, Ideal.hostDivf_def, Ideal.addf_def, Ideal.hostUnary_exp_def, Ideal.hostNegf_def, Ideal.negf_def,
    Ideal.ofBits_def, Ideal.ofBits_one_f32]

end Cert.Bridge

end
-- ==== Proof.RefRows.lean ====
/-
  The reference's row gathers read at an entry. Sample `b`'s item index word picks one row of a 100000-row table
  (`Cert.Lib.pickedRow`): the same row of the projected text table, of the projected visual table and of the item
  prompt table, because the picked row depends on the word and the table's height alone. Likewise the user and
  domain prompt rows.
-/
import proofs.«413471_j87076166959612_3_alg».proof.Proof.Spec
import proofs.«413471_j87076166959612_3_alg».proof.Proof.RefRead
import Idealize.ShloMosaic.Lib.Pipeline.Value
import Idealize.ShloMosaic.Lib.ValueLayout
import proofs.«413471_j87076166959612_3_alg».proof.Proof.LibGather

noncomputable section

open Idealize.ShloMosaic Idealize.ShloMosaic.TcCoe Idealize.ShloMosaic.ValueIdx
open Cert.ReferenceIdeal Cert.ReferenceIdeal.ReadP

namespace Cert.Bridge

/-- The item row sample `b` picks. -/
def itemRow (x1 : (⟨S4096, .i32⟩ : BufTy).Contents (Elt Ideal)) (b : Fin 4096) : Fin 100000 :=
  Cert.Lib.pickedRow 100000 (val_main_v78 (F := Ideal) x1 (ix2 b 0))

/-- The three index arrays built from the item indices are one array. -/
theorem item_idx_eq (x1 : (⟨S4096, .i32⟩ : BufTy).Contents (Elt Ideal)) :
    val_main_v22 (F := Ideal) x1 = val_main_v78 (F := Ideal) x1 ∧ val_main_v85 (F := Ideal) x1 = val_main_v78 (F := Ideal) x1 := by
  -- each array is the same expression in `x1`: a negative word gets 100000 added, then a unit axis is appended
  exact ⟨rfl, rfl⟩

theorem ref_v79_row (x1 : (⟨S4096, .i32⟩ : BufTy).Contents (Elt Ideal)) (x6 : (⟨S100000x384, .f32⟩ : BufTy).Contents (Elt Ideal)) (x8 : (⟨S128x384, .f32⟩ : BufTy).Contents (Elt Ideal)) (x9 : (⟨S384, .f32⟩ : BufTy).Contents (Elt Ideal))
    (b : Fin 4096) (k : Fin 128) :
    val_main_v79 (F := Ideal) x1 x6 x8 x9 (ix2 b k) = val_main_v4 (F := Ideal) x6 x8 x9 (ix2 (itemRow x1 b) k) := by
  unfold val_main_v79
  exact Cert.Lib.rowGather_apply gather_S100000x128_S4096x1_S4096x128_1_0_n_n_0_1_1128 rfl rfl rfl rfl rfl rfl rfl
    (val_main_v4 (F := Ideal) x6 x8 x9) (val_main_v78 (F := Ideal) x1) b k

theorem ref_v86_row (x1 : (⟨S4096, .i32⟩ : BufTy).Contents (Elt Ideal)) (x7 : (⟨S100000x768, .f32⟩ : BufTy).Contents (Elt Ideal)) (x10 : (⟨S128x768, .f32⟩ : BufTy).Contents (Elt Ideal)) (x11 : (⟨S768, .f32⟩ : BufTy).Contents (Elt Ideal))
    (b : Fin 4096) (k : Fin 128) :
    val_main_v86 (F := Ideal) x1 x7 x10 x11 (ix2 b k) = val_main_v9 (F := Ideal) x7 x10 x11 (ix2 (itemRow x1 b) k) := by
  unfold val_main_v86
  rw [(item_idx_eq x1).2]
  exact Cert.Lib.rowGather_apply gather_S100000x128_S4096x1_S4096x128_1_0_n_n_0_1_1128 rfl rfl rfl rfl rfl rfl rfl
    (val_main_v9 (F := Ideal) x7 x10 x11) (val_main_v78 (F := Ideal) x1) b k

theorem ref_v23_row (x1 : (⟨S4096, .i32⟩ : BufTy).Contents (Elt Ideal)) (x13 : (⟨S100000x128, .f32⟩ : BufTy).Contents (Elt Ideal)) (b : Fin 4096) (k : Fin 128) :
    val_main_v23 (F := Ideal) x1 x13 (ix2 b k) = x13 (ix2 (itemRow x1 b) k) := by
  unfold val_main_v23
  rw [(item_idx_eq x1).1]
  exact Cert.Lib.rowGather_apply gather_S100000x128_S4096x1_S4096x128_1_0_n_n_0_1_1128 rfl rfl rfl rfl rfl rfl rfl
    x13 (val_main_v78 (F := Ideal) x1) b k

end Cert.Bridge

end
-- ==== Proof.Bridge.lean ====
/-
  The four results of the kernel program are the reference's four results of the same arguments.
  * The user prompt rows and the domain prompt rows: the same gather of the same arrays on both sides.
  * The segment mean: the kernel's presence mask, built by comparing ids with prototype numbers, and the
    reference's, built by writing ones at the ids, are one mask where every id is a prototype number; such a row
    marks at least one prototype, so the kernel's guard `max · 1` on the count does nothing.
  * The prediction: the first layer is `Spec.z1row` of each sample's rows on both sides (the kernel gathers a
    sample's text and visual rows and then projects them, the reference projects the tables and then gathers, and
    both pick the same row; the kernel multiplies the two halves of the feature with the two halves of the weight,
    the reference the joined feature with the whole weight), and the head is `Spec.pred` of it on both sides.
-/
import proofs.«413471_j87076166959612_3_alg».proof.Proof.Glue2
import proofs.«413471_j87076166959612_3_alg».proof.Proof.HostReads
import proofs.«413471_j87076166959612_3_alg».proof.Proof.PreDecode
import proofs.«413471_j87076166959612_3_alg».proof.Proof.RefSeg
import proofs.«413471_j87076166959612_3_alg».proof.Proof.RefMlp1
import proofs.«413471_j87076166959612_3_alg».proof.Proof.RefHead
import proofs.«413471_j87076166959612_3_alg».proof.Proof.RefRows

set_option maxRecDepth 16384

noncomputable section

open Idealize.ShloMosaic Idealize.ShloMosaic.TcCoe Idealize.ShloMosaic.ValueIdx Idealize.SL.Sem
open Cert.KernelIdeal Cert.KernelIdeal.Gen Cert.KernelIdeal.GenP

namespace Cert.Bridge

variable (m : (ℓ : Loc nD τ sig) → Buf (Elt Ideal) ℓ) (ρ : Dev nD → PrngReg)

/-- Under the precondition every merged id is a prototype number. -/
theorem merged_inRange [Cert.Pre_finite_inputs.Facts] (h : Cert.Pre_KernelIdeal m) (c : Dev nD) :
    Spec.InRange (Cert.ReferenceIdeal.ReadP.val_main_v48 (F := Ideal) (m ((c : Thread nD τ).loc main_arg3)) (m ((c : Thread nD τ).loc main_arg4))) := fun i => by
  obtain ⟨i', e⟩ := merged_mem (m ((c : Thread nD τ).loc main_arg3)) (m ((c : Thread nD τ).loc main_arg4)) i
  rw [e]
  exact inRange_of_pre m h c i'

/-- The kernel's segment-mean array is the reference's. -/
theorem segArr_eq [Cert.Pre_finite_inputs.Facts] (h : Cert.Pre_KernelIdeal m) (c : Dev nD) :
    segArr (V1 m ρ c main_v54) (V1 m ρ c main_arg5) = Cert.ReferenceIdeal.ReadP.val_main_v72 (F := Ideal) (m ((c : Thread nD τ).loc main_arg3)) (m ((c : Thread nD τ).loc main_arg4)) (m ((c : Thread nD τ).loc main_arg5)) := by
  rw [V1_v54, V1_arg5]
  funext i
  obtain ⟨b, d, rfl⟩ : ∃ (b : Fin 4096) (d : Fin 128), i = ix2 b d := ⟨i 0, i 1, eq_ix2 i⟩
  rw [ref_segmean _ _ _ (merged_inRange m h c) b d]
  have hrow : Spec.InRange (fun j : Fin 400 => Cert.ReferenceIdeal.ReadP.val_main_v48 (F := Ideal) (m ((c : Thread nD τ).loc main_arg3)) (m ((c : Thread nD τ).loc main_arg4)) (ix2 b j)) :=
    fun j => merged_inRange m h c (ix2 b j)
  show Ideal.div _ (max (Spec.count (fun j : Fin 400 => Cert.ReferenceIdeal.ReadP.val_main_v48 (F := Ideal) (m ((c : Thread nD τ).loc main_arg3)) (m ((c : Thread nD τ).loc main_arg4)) (ix2 b j))) 1) = _
  rw [max_count_one _ hrow]
  rfl

theorem res_pu (c : Dev nD) : W7 m ρ c (Proc.devRef .tc main_v8) = Cert.ReferenceIdeal.ReadP.val_main_v16 (F := Ideal) (m ((c : Thread nD τ).loc main_arg0)) (m ((c : Thread nD τ).loc main_arg12)) :=
  (W7_v8 m ρ c).trans (V1_v8 m ρ c)

theorem res_pd (c : Dev nD) : W7 m ρ c (Proc.devRef .tc main_v22) = Cert.ReferenceIdeal.ReadP.val_main_v30 (F := Ideal) (m ((c : Thread nD τ).loc main_arg2)) (m ((c : Thread nD τ).loc main_arg14)) :=
  (W7_v22 m ρ c).trans (V1_v22 m ρ c)

theorem res_hu [Cert.Pre_finite_inputs.Facts] (h : Cert.Pre_KernelIdeal m) (c : Dev nD) :
    W7 m ρ c (Proc.devRef .tc main_v55) = Cert.ReferenceIdeal.ReadP.val_main_v72 (F := Ideal) (m ((c : Thread nD τ).loc main_arg3)) (m ((c : Thread nD τ).loc main_arg4)) (m ((c : Thread nD τ).loc main_arg5)) :=
  (W7_v55 m ρ c).trans (segArr_eq m ρ h c)

set_option maxHeartbeats 4000000 in
/-- The first layer: the kernel's second call leaves the reference's first layer. -/
theorem z1_eq [Cert.Pre_finite_inputs.Facts] (h : Cert.Pre_KernelIdeal m) (c : Dev nD) (b : Fin 4096) (n : Fin 128) :
    (V5 m ρ c main_v60 : S4096x128.Idx → Elt Ideal .f32) (ix2 b n) = Cert.ReferenceIdeal.ReadP.val_main_v96 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (ix2 b n) := by
  rw [V5_v60, W4_v60, ref_z1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (itemRow (m ((c : Thread nD τ).loc main_arg1))) (ref_v79_row _ _ _ _) (ref_v86_row _ _ _ _) b n]
  rw [V3_v29, V3_v36, V3_arg9, V3_arg11, V3_v0, V3_v1, V3_v55, V3_v22, V3_v15, V3_v57, V3_v59, V3_arg16]
  rw [segArr_eq m ρ h c, V1_v22, V1_v15, V1_v29, V1_v36, V1_arg9, V1_arg11, V1_v0, V1_v1, V1_arg16]
  show Spec.z1row _ _ _ _ _ _ _ _ _ _ _ _ _ = _
  simp only [k_gather384 (m ((c : Thread nD τ).loc main_arg6)) (Cert.ReferenceIdeal.ReadP.val_main_v78 (F := Ideal) (m ((c : Thread nD τ).loc main_arg1))), k_gather768 (m ((c : Thread nD τ).loc main_arg7)) (Cert.ReferenceIdeal.ReadP.val_main_v78 (F := Ideal) (m ((c : Thread nD τ).loc main_arg1))),
    k_transpose_wt (m ((c : Thread nD τ).loc main_arg8)), k_transpose_wv (m ((c : Thread nD τ).loc main_arg10)), k_w1a (m ((c : Thread nD τ).loc main_arg15)), k_w1b (m ((c : Thread nD τ).loc main_arg15))]
  rfl

set_option maxHeartbeats 4000000 in
/-- The prediction. -/
theorem res_pred [Cert.Pre_finite_inputs.Facts] (h : Cert.Pre_KernelIdeal m) (c : Dev nD) :
    W7 m ρ c (Proc.devRef .tc main_v64) = Cert.ReferenceIdeal.ReadP.val_main_v164 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  rw [W7_v64, W6_v63]
  funext i
  obtain ⟨r, rfl⟩ : ∃ r : Fin 4096, i = ix1 r := ⟨i 0, eq_ix1 i⟩
  rw [k_reshape_pred, ref_pred (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) r]
  rw [V5_arg17, V5_arg18, V5_v61, V5_arg20, V5_arg21, V5_arg22, V5_v62, V5_arg24]
  show Spec.pred _ _ _ _ _ _ _ _ _ _ = _
  simp only [z1_eq m ρ h c, k_transpose_w2 (m ((c : Thread nD τ).loc main_arg19)), k_transpose_wp (m ((c : Thread nD τ).loc main_arg23))]

end Cert.Bridge

end
-- ==== Proof.lean ====
/-
  The certificate: the segment-mean / two-layer head kernel program against its reference, over the extended
  reals, where every entry of the prototype-id table is a prototype number (0 ≤ id < 1024) and every float
  input is finite.

  The three frames are the generated frame certificates of the two kernel programs and the reference's run with
  its results dropped. The idealization changes nothing (`preserves` is `True`). For the algebraic claim the
  kernel program's run is read with each result buffer at the contents the run's last boundary holds for it
  (`Cert.KernelIdeal.GenP.run_results`), the reference's run, read stretch by stretch (`Cert.Bridge.run`), gives each result as a stage of its arguments, and
  `Cert.Bridge.res_pred / res_pu / res_hu / res_pd` say that the two are equal once the arguments agree: the prompt
  rows are the same gathers, the segment mean's two presence masks coincide on prototype numbers, and the two
  layers and the head are the same sums in another grouping.
-/
import proofs.«413471_j87076166959612_3_alg».proof.Defs
import proofs.«413471_j87076166959612_3_alg».proof.Proof.Gen.Kernel
import proofs.«413471_j87076166959612_3_alg».proof.Proof.Gen.Kernel.Skeleton
import proofs.«413471_j87076166959612_3_alg».proof.Proof.Gen.Kernel.Launch
import proofs.«413471_j87076166959612_3_alg».proof.Proof.Gen.Kernel.Points
import proofs.«413471_j87076166959612_3_alg».proof.Proof.FrameB
import proofs.«413471_j87076166959612_3_alg».proof.Proof.Gen.KernelIdeal
import proofs.«413471_j87076166959612_3_alg».proof.Proof.Gen.KernelIdeal.Skeleton
import proofs.«413471_j87076166959612_3_alg».proof.Proof.Gen.KernelIdeal.Launch
import proofs.«413471_j87076166959612_3_alg».proof.Proof.Gen.KernelIdeal.Points
import proofs.«413471_j87076166959612_3_alg».proof.Proof.FrameI
import proofs.«413471_j87076166959612_3_alg».proof.Proof.Gen.ReferenceIdeal
import proofs.«413471_j87076166959612_3_alg».proof.Proof.Gen.Pre_finite_inputs
import proofs.«413471_j87076166959612_3_alg».proof.Proof.RunResults
import proofs.«413471_j87076166959612_3_alg».proof.Proof.RefFrame
import proofs.«413471_j87076166959612_3_alg».proof.Proof.Bridge
import Idealize.ShloMosaic.Adequacy
import Idealize.ShloMosaic.Init

set_option maxRecDepth 16384

noncomputable section

namespace Cert.Proof

open Idealize.ShloMosaic Idealize.SL.Sem

/-- Both idealized programs, run from memories that agree on the arguments, end with equal results. -/
theorem algebraic : Cert.algebraic_KernelIdeal_ReferenceIdeal := by
  intro m ρ m' ρ' hpre hagree
  refine ⟨fun c => Cert.KernelIdeal.GenP.W7 m ρ c (Proc.devRef .tc Cert.KernelIdeal.main_v64),
    fun c => Cert.KernelIdeal.GenP.W7 m ρ c (Proc.devRef .tc Cert.KernelIdeal.main_v8),
    fun c => Cert.KernelIdeal.GenP.W7 m ρ c (Proc.devRef .tc Cert.KernelIdeal.main_v55),
    fun c => Cert.KernelIdeal.GenP.W7 m ρ c (Proc.devRef .tc Cert.KernelIdeal.main_v22),
    Cert.KernelIdeal.GenP.run_results (F := Ideal) m ρ, ?_⟩
  refine (θ_run Cert.ReferenceIdeal.defs _ _).mono (fun r h c => ?_) (Cert.Bridge.run (F := Ideal) m' ρ')
  obtain ⟨e0, e1, e2, e3, e4, e5, e6, e7, e8, e9, e10, e11, e12, e13, e14, e15, e16, e17, e18, e19, e20, e21, e22, e23, e24⟩ := hagree c
  obtain ⟨h0, h1, h2, h3, hrest⟩ := h c
  refine ⟨h0.trans ?_, h1.trans ?_, h2.trans ?_, h3.trans ?_, hrest⟩
  · rw [e1, e2, e3, e4, e5, e6, e7, e8, e9, e10, e11, e13, e14, e15, e16, e17, e18, e19, e20, e21, e22, e23, e24]
    exact (Cert.Bridge.res_pred m ρ hpre c).symm
  · rw [e0, e12]
    exact (Cert.Bridge.res_pu m ρ c).symm
  · rw [e3, e4, e5]
    exact (Cert.Bridge.res_hu m ρ hpre c).symm
  · rw [e2, e14]
    exact (Cert.Bridge.res_pd m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  Cert.Bridge.frame_ReferenceIdeal,
  trivial,
  algebraic⟩

end Cert.Proof

end
